-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x512 : Shape := ⟨3, ![2, 2048, 512]⟩
abbrev S2048x64 : Shape := ⟨2, ![2048, 64]⟩
abbrev S1024x512 : Shape := ⟨2, ![1024, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  main_v18

def fn {F : FTy → Type} [FloatOps F] (main_arg0 : FVec F S2x2048x512 .f32) (main_arg1 : FVec F S2048x64 .f32) (main_arg2 : FVec F S2048x64 .f32) (main_arg3 : FVec F S1024x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_v13 main_v16
-- ==== Kernel.lean ====
abbrev S2x2048x512 : Shape := ⟨3, ![2, 2048, 512]⟩
abbrev S2048x64 : Shape := ⟨2, ![2048, 64]⟩
abbrev S1024x512 : Shape := ⟨2, ![1024, 512]⟩
abbrev S2048x128 : Shape := ⟨2, ![2048, 128]⟩
abbrev S2x8x2048x2048 : Shape := ⟨4, ![2, 8, 2048, 2048]⟩
abbrev S1x512x512 : Shape := ⟨3, ![1, 512, 512]⟩
abbrev S1x2048x512 : Shape := ⟨3, ![1, 2048, 512]⟩
abbrev S64x512 : Shape := ⟨2, ![64, 512]⟩
abbrev S512x512 : Shape := ⟨2, ![512, 512]⟩
abbrev S512x128 : Shape := ⟨2, ![512, 128]⟩
abbrev S1x1x512x2048 : Shape := ⟨4, ![1, 1, 512, 2048]⟩
abbrev S8x2048x64 : Shape := ⟨3, ![8, 2048, 64]⟩
abbrev S2048x512 : Shape := ⟨2, ![2048, 512]⟩
abbrev S512x64 : Shape := ⟨2, ![512, 64]⟩
abbrev S2048x32 : Shape := ⟨2, ![2048, 32]⟩
abbrev S2048 : Shape := ⟨1, ![2048]⟩
abbrev S2048x1 : Shape := ⟨2, ![2048, 1]⟩
abbrev S1x2048x64 : Shape := ⟨3, ![1, 2048, 64]⟩
abbrev S512x32 : Shape := ⟨2, ![512, 32]⟩
abbrev S512 : Shape := ⟨1, ![512]⟩
abbrev S512x1 : Shape := ⟨2, ![512, 1]⟩
abbrev S64x2048 : Shape := ⟨2, ![64, 2048]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2x2048x512, .f32⟩
  | .hbm, ⟨1, _⟩ => ⟨S2048x64, .f32⟩
  | .hbm, ⟨2, _⟩ => ⟨S2048x64, .f32⟩
  | .hbm, ⟨3, _⟩ => ⟨S1024x512, .f32⟩
  | .hbm, ⟨4, _⟩ => ⟨S2048x128, .f32⟩
  | .hbm, ⟨5, _⟩ => ⟨S2x8x2048x2048, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S64x512, .f32⟩
  | .local _ .vmem, ⟨4, _⟩ => ⟨S64x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S2048x128, .f32⟩
  | .local _ .vmem, ⟨9, _⟩ => ⟨S1x1x512x2048, .f32⟩
  | .local _ .vmem, ⟨10, _⟩ => ⟨S1x1x512x2048, .f32⟩
  | .local _ .vmem, ⟨11, _⟩ => ⟨S8x2048x64, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg2 : BitVec 32 := BitVec.ofNat 32 (i 2).val
  let c64_i32 : BitVec 32 := 64#32
  let v55 : BitVec 32 := Scalar.muli arg2 c64_i32
  v55
def k0_off1 (i : grid0.Coords) : Fin 2 → Nat :=
  let arg2 : BitVec 32 := BitVec.ofNat 32 (i 2).val
  let c64_i32 : BitVec 32 := 64#32
  let v55 : BitVec 32 := Scalar.muli arg2 c64_i32
  let v56 : BitVec 32 := v55
  let v57 : Index := Scalar.indexCast v56
  let c0_28 : Index := 0#32
  ![v57.toNat, 0]
def k0_off2 (i : grid0.Coords) : Fin 3 → Nat :=
  let arg2 : BitVec 32 := BitVec.ofNat 32 (i 2).val
  let v79 : Index := Scalar.indexCast arg2
  let c0_33 : Index := 0#32
  let c0_34 : Index := 0#32
  ![v79.toNat, 0, 0]
def k0_off3 (i : grid0.Coords) : Fin 3 → Nat :=
  let arg2 : BitVec 32 := BitVec.ofNat 32 (i 2).val
  let v33 : Index := Scalar.indexCast arg2
  let c0_12 : Index := 0#32
  let c0_13 : Index := 0#32
  ![v33.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  concatenates_S2048x64_S2048x64_S2048x128_d1 : Shape.Concatenates [S2048x64, S2048x64] S2048x128 1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  inb_S2048x128_S2048x64_0_64 : ∀ a, (![0, 64] : Fin 2 → Nat) a + S2048x64.size a ≤ S2048x128.size a
  h_S64x512 : 0 < S64x512.numel
  transposes_S64x512_p1_0_S512x64 : S64x512.Transposes [1, 0] S512x64
  slices_S2048x64_o0_0_S2048x32 : S2048x64.Slices ![0, 0] S2048x32
  slices_S2048x64_o0_32_S2048x32 : S2048x64.Slices ![0, 32] S2048x32
  concatenates_S2048x32_S2048x32_S2048x64_d1 : Shape.Concatenates [S2048x32, S2048x32] S2048x64 1
  reduces_S2048x64_S2048 : S2048x64.Reduces [1] S2048
  shapeCasts_S2048_S2048x1 : S2048.ShapeCasts S2048x1
  broadcasts_S2048x1_S2048x64 : S2048x1.Broadcasts S2048x64
  h_S1x2048x64 : 0 < S1x2048x64.numel
  shapeCasts_S1x2048x64_S2048x64 : S1x2048x64.ShapeCasts S2048x64
  shapeCasts_S2048x64_S1x2048x64 : S2048x64.ShapeCasts S1x2048x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S64x512_S64x512_0_0 : ∀ a, (![0, 0] : Fin 2 → Nat) a + S64x512.size a ≤ S64x512.size a
  inb_S512x128_S512x64_0_0 : ∀ a, (![0, 0] : Fin 2 → Nat) a + S512x64.size a ≤ S512x128.size a
  h_S512x64 : 0 < S512x64.numel
  shapeCasts_S512x64_S512x64 : S512x64.ShapeCasts S512x64
  inb_S512x128_S512x64_0_64 : ∀ a, (![0, 64] : Fin 2 → Nat) a + S512x64.size a ≤ S512x128.size a
  slices_S512x64_o0_0_S512x32 : S512x64.Slices ![0, 0] S512x32
  slices_S512x64_o0_32_S512x32 : S512x64.Slices ![0, 32] S512x32
  concatenates_S512x32_S512x32_S512x64_d1 : Shape.Concatenates [S512x32, S512x32] S512x64 1
  reduces_S512x64_S512 : S512x64.Reduces [1] S512
  shapeCasts_S512_S512x1 : S512.ShapeCasts S512x1
  broadcasts_S512x1_S512x64 : S512x1.Broadcasts S512x64
  transposes_S2048x64_p1_0_S64x2048 : S2048x64.Transposes [1, 0] S64x2048
  reduces_S512x2048_S512 : S512x2048.Reduces [1] S512
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  dot_S2048x512_S512x64_S2048x64_1_0_0_1_n_n_wf : DotDims.WF S2048x512 S512x64 S2048x64 [1] [0] [0] [1] [] []
  dot_S512x512_S512x64_S512x64_1_0_0_1_n_n_wf : DotDims.WF S512x512 S512x64 S512x64 [1] [0] [0] [1] [] []
  dot_S512x64_S64x2048_S512x2048_1_0_0_1_n_n_wf : DotDims.WF S512x64 S64x2048 S512x2048 [1] [0] [0] [1] [] []
  hrank0 : 0 < grid0.rank
  k0_mult1_dvd : ∀ i : grid0.Coords, ∀ (k0_h1 : k0_cond1 i = 1#1), 64 ∣ (k0_mult1 i).toNat
  k0_off1_inb : ∀ i : grid0.Coords, ∀ (k0_h1 : k0_cond1 i = 1#1), ∀ a, (k0_off1 i) a + S64x512.size a ≤ S512x512.size a
  k0_off2_inb : ∀ i : grid0.Coords, ∀ (k0_h1 : k0_cond1 i = 1#1), ∀ a, (k0_off2 i) a + S1x2048x64.size a ≤ S8x2048x64.size a
  k0_off2_packedbf16 : ∀ i : grid0.Coords, ∀ (k0_h1 : k0_cond1 i = 1#1), (Rect.unit (s := S8x2048x64) (k0_off2 i) S1x2048x64.size (k0_off2_inb i k0_h1)).PackedRows (EltTy.packing .bf16)
  k0_off3_inb : ∀ i : grid0.Coords, ∀ a, (k0_off3 i) a + S1x2048x64.size a ≤ S8x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x2048x512.size a
  hwx0_0 : ∀ i : grid0.Coords, EltTy.bits .f32 = 32 ∨ (Rect.block (s := S2x2048x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S2x2048x512.size a
  hwx0_1 : ∀ i : grid0.Coords, EltTy.bits .f32 = 32 ∨ (Rect.block (s := S2x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S1024x512.size a
  hwx0_2 : ∀ i : grid0.Coords, EltTy.bits .f32 = 32 ∨ (Rect.block (s := S1024x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x512.size a
  hwx0_3 : ∀ i : grid0.Coords, EltTy.bits .f32 = 32 ∨ (Rect.block (s := S1024x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S2048x128.size a
  hwx0_4 : ∀ i : grid0.Coords, EltTy.bits .f32 = 32 ∨ (Rect.block (s := S2048x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .f32 = 32 ∨ (Rect.block (s := S2048x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x2048.size a ≤ S2x8x2048x2048.size a
  hwx0_6 : ∀ i : grid0.Coords, EltTy.bits .f32 = 32 ∨ (Rect.block (s := S2x8x2048x2048) S1x1x512x2048.size (cc0_transform_6 i) (hinb0_6 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x512 : Shape := ⟨3, ![2, 2048, 512]⟩
abbrev S2048x64 : Shape := ⟨2, ![2048, 64]⟩
abbrev S1024x512 : Shape := ⟨2, ![1024, 512]⟩
abbrev S2x2048x1024 : Shape := ⟨3, ![2, 2048, 1024]⟩
abbrev S2x2048x2x8x64 : Shape := ⟨5, ![2, 2048, 2, 8, 64]⟩
abbrev S2x8x2x2048x64 : Shape := ⟨5, ![2, 8, 2, 2048, 64]⟩
abbrev S1x1x1x2048x64 : Shape := ⟨5, ![1, 1, 1, 2048, 64]⟩
abbrev S2x8x2x2048x32 : Shape := ⟨5, ![2, 8, 2, 2048, 32]⟩
abbrev S_ : Shape := ⟨0, ![]⟩
abbrev S2x8x2x2048 : Shape := ⟨4, ![2, 8, 2, 2048]⟩
abbrev S2x8x2x2048x1 : Shape := ⟨5, ![2, 8, 2, 2048, 1]⟩
abbrev S2x8x1x2048x64 : Shape := ⟨5, ![2, 8, 1, 2048, 64]⟩
abbrev S2x8x2048x64 : Shape := ⟨4, ![2, 8, 2048, 64]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2048x64, .f32⟩
  | .hbm, ⟨2, _⟩ => ⟨S2048x64, .f32⟩
  | .hbm, ⟨3, _⟩ => ⟨S1024x512, .f32⟩
  | .hbm, ⟨4, _⟩ => ⟨S2x2048x1024, .f32⟩
  | .hbm, ⟨5, _⟩ => ⟨S2x2048x2x8x64, .f32⟩
  | .hbm, ⟨6, _⟩ => ⟨S2x8x2x2048x64, .f32⟩
  | .hbm, ⟨7, _⟩ => ⟨S1x1x1x2048x64, .f32⟩
  | .hbm, ⟨8, _⟩ => ⟨S2x8x2x2048x64, .f32⟩
  | .hbm, ⟨9, _⟩ => ⟨S2x8x2x2048x64, .f32⟩
  | .hbm, ⟨10, _⟩ => ⟨S2x8x2x2048x32, .f32⟩
  | .hbm, ⟨11, _⟩ => ⟨S2x8x2x2048x32, .f32⟩
  | .hbm, ⟨12, _⟩ => ⟨S2x8x2x2048x32, .f32⟩
  | .hbm, ⟨13, _⟩ => ⟨S2x8x2x2048x64, .f32⟩
  | .hbm, ⟨14, _⟩ => ⟨S1x1x1x2048x64, .f32⟩
  | .hbm, ⟨15, _⟩ => ⟨S2x8x2x2048x64, .f32⟩
  | .hbm, ⟨16, _⟩ => ⟨S2x8x2x2048x64, .f32⟩
  | .hbm, ⟨17, _⟩ => ⟨S2x8x2x2048x64, .f32⟩
  | .hbm, ⟨18, _⟩ => ⟨S2x8x2x2048x64, .f32⟩
  | .hbm, ⟨19, _⟩ => ⟨S_, .f32⟩
  | .hbm, ⟨20, _⟩ => ⟨S2x8x2x2048, .f32⟩
  | .hbm, ⟨21, _⟩ => ⟨S2x8x2x2048x1, .f32⟩
  | .hbm, ⟨22, _⟩ => ⟨S2x8x2x2048x1, .f32⟩
  | .hbm, ⟨23, _⟩ => ⟨S_, .f32⟩
  | .hbm, ⟨24, _⟩ => ⟨S2x8x2x2048x1, .f32⟩
  | .hbm, ⟨25, _⟩ => ⟨S2x8x2x2048x1, .f32⟩
  | .hbm, ⟨26, _⟩ => ⟨S2x8x2x2048x64, .f32⟩
  | .hbm, ⟨27, _⟩ => ⟨S2x8x2x2048x64, .f32⟩
  | .hbm, ⟨28, _⟩ => ⟨S2x8x1x2048x64, .f32⟩
  | .hbm, ⟨29, _⟩ => ⟨S2x8x2048x64, .f32⟩
  | .hbm, ⟨30, _⟩ => ⟨S2x8x1x2048x64, .f32⟩
  | .hbm, ⟨31, _⟩ => ⟨S2x8x2048x64, .f32⟩
  | .hbm, ⟨32, _⟩ => ⟨S2x8x2048x2048, .f32⟩
  | .hbm, ⟨33, _⟩ => ⟨S_, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048, .f32⟩
  | .hbm, ⟨47, _⟩ => ⟨S2x8x2048x1, .f32⟩
  | .hbm, ⟨48, _⟩ => ⟨S2x8x2048x2048, .f32⟩
  | .hbm, ⟨49, _⟩ => ⟨S2x8x2048x2048, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  shapeCasts_S2x2048x1024_S2x2048x2x8x64 : S2x2048x1024.ShapeCasts S2x2048x2x8x64
  transposes_S2x2048x2x8x64_S2x8x2x2048x64_0_3_2_1_4 : S2x2048x2x8x64.Transposes [0, 3, 2, 1, 4] S2x8x2x2048x64
  bcast_S2048x64_S1x1x1x2048x64_3_4 : S2048x64.BroadcastsInDim S1x1x1x2048x64 (![3, 4] : Fin 2 → Fin S1x1x1x2048x64.rank)
  bcast_S1x1x1x2048x64_S2x8x2x2048x64_0_1_2_3_4 : S1x1x1x2048x64.BroadcastsInDim S2x8x2x2048x64 (![0, 1, 2, 3, 4] : Fin 5 → Fin S2x8x2x2048x64.rank)
  slices_S2x8x2x2048x64_S2x8x2x2048x32_0_0_0_0_0 : S2x8x2x2048x64.Slices ![0, 0, 0, 0, 0] S2x8x2x2048x32
  slices_S2x8x2x2048x64_S2x8x2x2048x32_0_0_0_0_32 : S2x8x2x2048x64.Slices ![0, 0, 0, 0, 32] S2x8x2x2048x32
  concatenates_S2x8x2x2048x32_S2x8x2x2048x32_S2x8x2x2048x64_d4 : Shape.Concatenates [S2x8x2x2048x32, S2x8x2x2048x32] S2x8x2x2048x64 4
  reducesTo_S2x8x2x2048x64_S2x8x2x2048_d4 : S2x8x2x2048x64.ReducesTo [4] S2x8x2x2048
  h_S_ : 0 < S_.numel
  bcast_S2x8x2x2048_S2x8x2x2048x1_0_1_2_3 : S2x8x2x2048.BroadcastsInDim S2x8x2x2048x1 (![0, 1, 2, 3] : Fin 4 → Fin S2x8x2x2048x1.rank)
  bcast_S_S2x8x2x2048x1 : S_.BroadcastsInDim S2x8x2x2048x1 (![] : Fin 0 → Fin S2x8x2x2048x1.rank)
  bcast_S2x8x2x2048x1_S2x8x2x2048x64_0_1_2_3_4 : S2x8x2x2048x1.BroadcastsInDim S2x8x2x2048x64 (![0, 1, 2, 3, 4] : Fin 5 → Fin S2x8x2x2048x64.rank)
  slices_S2x8x2x2048x64_S2x8x1x2048x64_0_0_0_0_0 : S2x8x2x2048x64.Slices ![0, 0, 0, 0, 0] S2x8x1x2048x64
  shapeCasts_S2x8x1x2048x64_S2x8x2048x64 : S2x8x1x2048x64.ShapeCasts S2x8x2048x64
  slices_S2x8x2x2048x64_S2x8x1x2048x64_0_0_1_0_0 : S2x8x2x2048x64.Slices ![0, 0, 1, 0, 0] S2x8x1x2048x64
  bcast_S_S2x8x2048x2048 : S_.BroadcastsInDim S2x8x2048x2048 (![] : Fin 0 → Fin S2x8x2048x2048.rank)
  reducesTo_S2x8x2048x2048_S2x8x2048_d3 : S2x8x2048x2048.ReducesTo [3] S2x8x2048
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  dot_S2x2048x512_S1024x512_S2x2048x1024_2_1_01_0_n_n_wf : DotDims.WF S2x2048x512 S1024x512 S2x2048x1024 [2] [1] [0, 1] [0] [] []
  dot_S2x8x2048x64_S2x8x2048x64_S2x8x2048x2048_3_3_2_2_01_01_wf : DotDims.WF S2x8x2048x64 S2x8x2048x64 S2x8x2048x2048 [3] [3] [2] [2] [0, 1] [0, 1]

variable [Facts₀]

def dot_S2x2048x512_S1024x512_S2x2048x1024_2_1_01_0_n_n : DotDims S2x2048x512 S1024x512 S2x2048x1024 where
  lhsContracting := [2]
  rhsContracting := [1]
  lhsNonContracting := [0, 1]
  rhsNonContracting := [0]
  lhsBatch := []
  rhsBatch := []
  wf := dot_S2x2048x512_S1024x512_S2x2048x1024_2_1_01_0_n_n_wf
def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf

class Facts : Prop extends Facts₀ where

variable [Facts]
-- ==== Proof.FrameShared.lean ====
/-
  What the frame of this program's one pipelined kernel is stated over: the arrays as the kernel region
  finds them (the launch contents, and the cosine|sine table joined by the one host operation before the region), each
  window's block at a grid point, the body's one branch condition in closed form — the grid is (batch, query tile,
  head) with the head innermost, and the branch is taken exactly at query tile 0, i.e. at the points t with
  t mod 32 < 8 —, the staging memrefs the pipeline passes at a point, and the scratch buffer that carries the
  normalised keys of each head from the point that fills it to the points that read it.
-/
import proofs.«424914_j88493506166997_3_alg».proof.Proof.Gen.KernelIdeal.Launch
import proofs.«424914_j88493506166997_3_alg».proof.Proof.Gen.KernelIdeal.Skeleton
import proofs.«424914_j88493506166997_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation (the join of the
    cosine and sine tables along the feature axis). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch (query tile 0), from the grid coordinates. -/
abbrev cond0_0 (i : grid0.Coords) : Prop := k0_cond1 i = 1#1
/-- It holds at the points whose query tile is 0: t mod 32 < 8 — decided over the 64 points. -/
theorem hcond0_0 : ∀ t : Fin cfg0.N, cond0_0 (grid0.coords t) ↔ t.val % 32 < 8 :=
  (by decide +kernel : ∀ t : Fin grid0.N, cond0_0 (grid0.coords t) ↔ t.val % 32 < 8)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The memrefs the body is called with -/

/-- One staging buffer of the output window, through which its contents are stated. -/
abbrev VO0_6 : View sig .tc .vmem S1x1x512x2048 .f32 := (Memref.whole cc0_stg6_0 : Memref sig .tc .vmem S1x1x512x2048 .f32).view
abbrev ms0_0 (t : Fin cfg0.N) : Memref sig .tc .vmem S1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x2048 .f32 := win0_6.stage (cfg0.slots t 6)
abbrev hs0_6 (t : Fin cfg0.N) : (ms0_6 t).IsWhole := hstage0_6 ((cfg0.slots t 6).cast nbuf0_6)
/-- The scratch operand: the per-head cache of normalised keys, a whole scoped buffer of the kernel's own. -/
abbrev scM0_0 : Memref sig .tc .vmem S8x2048x64 .bf16 := Memref.whole cc0_scratch0
abbrev VS0_0 : View sig .tc .vmem S8x2048x64 .bf16 := scM0_0.view

/-- The class invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.FrameRunB.lean ====
/-
  The kernel body away from query tile 0 (the branch not taken): on whole staging memrefs holding the six input
  blocks, the output's staging buffer at anything and the key cache at the contents the earlier points left, the body
  runs to the end, leaves the inputs and the key cache as they were, and leaves in the output's buffer the pieces its
  one store wrote — the softmax tile of the scaled unit queries against the cached unit keys of the point's head.
-/
import proofs.«424914_j88493506166997_3_alg».proof.Proof.FrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output's staging memref at a point where the branch is not taken, with
    the proof that the body runs from the blocks to the continuation holding them. -/
noncomputable def kernelRun0_B (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    { L6 : List (View.Piece (Elt F) S1x1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; isplitr; · ipureintro; exact harg10.read_unread _
    iexact HS0

end Cert.KernelIdeal.Hand

end
-- ==== Proof.FrameRunA.lean ====
/-
  The kernel body at query tile 0 (the branch taken): it first computes the point's head of normalised rotary keys
  from the whole key-side block of the input and stores it into that head's slab of the key cache, then does what
  it does at every point. On whole staging memrefs holding the six input blocks, the output's staging buffer at
  anything and the key cache at whatever the earlier points left, the body runs to the end, leaves the inputs as
  they were, the key cache with that one slab overwritten, and in the output's buffer the pieces its store wrote.
-/
import proofs.«424914_j88493506166997_3_alg».proof.Proof.FrameRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref and in the key cache at a point where the
    branch is taken, with the proof that the body runs from the blocks to the continuation holding them. -/
noncomputable def kernelRun0_A (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    Σ' (L6 : List (View.Piece (Elt F) S1x1x512x2048 .f32)), { LS0 : List (View.Piece (Elt F) S8x2048x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexact HS0

end Cert.KernelIdeal.Hand

end
-- ==== Proof.FramePieces.lean ====
/-
  What the body's stores leave, as functions of what the body loads. The output tile is the softmax payload of the
  scaled unit queries (computed from the query-side token block, the head's 64 weight rows and the two halves of the
  cosine|sine block) against a head's slab of unit keys; the slab the fill stores is the key payload of the whole
  key-side token block, the two halves of the whole cosine|sine table and the head's 64 rows of the key weights.
  Away from query tile 0 the tile reads the slab the key cache holds; at query tile 0 it reads the slab just stored,
  and the key cache ends with that one slab overwritten and every other entry as it was.
-/
import proofs.«424914_j88493506166997_3_alg».proof.Proof.FrameRunA
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0, 0, 0] : Fin 4 → ℕ) = fun _ => 0 := by funext a; fin_cases a <;> rfl
theorem hz3 : (![0, 0, 0] : Fin 3 → ℕ) = fun _ => 0 := by funext a; fin_cases a <;> rfl
theorem hz2 : (![0, 0] : Fin 2 → ℕ) = fun _ => 0 := by funext a; fin_cases a <;> rfl

/-- The first and the second 64 columns of a [rows, 128] block: its cosine half and its sine half. -/
abbrev cosQ (x4 : Vec F S512x128 .f32) : Vec F S512x64 .f32 := View.ld x4 (Rect.unit (s := S512x128) ![0, 0] S512x64.size Facts₀.inb_S512x128_S512x64_0_0)
abbrev sinQ (x4 : Vec F S512x128 .f32) : Vec F S512x64 .f32 := View.ld x4 (Rect.unit (s := S512x128) ![0, 64] S512x64.size Facts₀.inb_S512x128_S512x64_0_64)
abbrev cosK (x5 : Vec F S2048x128 .f32) : Vec F S2048x64 .f32 := View.ld x5 (Rect.unit (s := S2048x128) ![0, 0] S2048x64.size Facts₀.inb_S2048x128_S2048x64_0_0)
abbrev sinK (x5 : Vec F S2048x128 .f32) : Vec F S2048x64 .f32 := View.ld x5 (Rect.unit (s := S2048x128) ![0, 64] S2048x64.size Facts₀.inb_S2048x128_S2048x64_0_64)

/-- The output tile from the query-side blocks and a slab of unit keys. -/
def tileOf (x0 : Vec F S1x512x512 .f32) (x2 : Vec F S64x512 .f32) (x4 : Vec F S512x128 .f32) (ks : Vec F S1x2048x64 .bf16) : Vec F S1x1x512x2048 .f32 :=
  k0_pay1 (k0_pay3 x0 x2 (cosQ x4) (sinQ x4)) (k0_pay4 ks) (constant S512x2048 .f32 0x00000000#32)

/-- The slab of unit keys from the key-side blocks and 64 rows of key weights. -/
def keysOf (x1 : Vec F S1x2048x512 .f32) (x5 : Vec F S2048x128 .f32) (wk : Vec F S64x512 .f32) : Vec F S1x2048x64 .bf16 :=
  k0_pay2 x1 (cosK x5) (sinK x5) wk

/-- Head `(i 2)`'s slab of the key cache, as the body addresses it when it reads, -/
abbrev slabR (i : grid0.Coords) : Rect S8x2048x64 := Rect.unit (s := S8x2048x64) (k0_off3 i) S1x2048x64.size (k0_off3_inb i)
/-- and the head's 64 rows of the key half of the weights, as the fill addresses them. -/
abbrev rowsR (i : grid0.Coords) (hc0 : cond0_0 i) : Rect S512x512 := Rect.unit (s := S512x512) (k0_off1 i) S64x512.size (k0_off1_inb i hc0)

/-! ## Away from query tile 0 -/

theorem cover0_B_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (y : S1x1x512x2048.Idx) :
    ∃ pc ∈ (kernelRun0_B c i arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 hc0 x0 x1 x2 x3 x4 x5 xs0).1 S1x1x512x2048.size (by sl_kernel_rfl) y

/-- What the body leaves in the output's staging buffer: its pieces read back. -/
def out0_B_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) : Vec F S1x1x512x2048 .f32 :=
  VO0_6.read (Elt F) (VO0_6.writes (Elt F) VO0_6.junk (kernelRun0_B c i arg3 harg3 arg4 harg4 arg5 harg5 arg6 harg6 arg7 harg7 arg8 harg8 arg9 harg9 arg10 harg10 hc0 x0 x1 x2 x3 x4 x5 xs0).1)

/-- It is the tile of the blocks against the slab the key cache holds for the point's head. -/
theorem out0_B_6_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    out0_B_6 c i arg3 harg3 arg4 harg4 arg5 harg5 arg6 harg6 arg7 harg7 arg8 harg8 arg9 harg9 arg10 harg10 hc0 x0 x1 x2 x3 x4 x5 xs0 = tileOf x0 x2 x4 (View.ld xs0 (slabR i)) := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  sl_unfold_words
  rw [View.canon_unit_zero hz4]
  simp only [View.readAt_eq_ld, harg3.read_unread, harg5.read_unread, harg7.read_unread, harg10.read_unread,
    View.ld_unit_zero (S := S1x512x512) hz3, View.ld_unit_zero (S := S64x512) hz2]
  rfl

/-! ## At query tile 0 -/

theorem cover0_A_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (y : S1x1x512x2048.Idx) :
    ∃ pc ∈ (kernelRun0_A c i arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_A c i arg3 harg3 arg4 harg4 arg5 harg5 arg6 harg6 arg7 harg7 arg8 harg8 arg9 harg9 arg10 harg10 hc0 x0 x1 x2 x3 x4 x5 xs0).1 S1x1x512x2048.size (by sl_kernel_rfl) y

def out0_A_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) : Vec F S1x1x512x2048 .f32 :=
  VO0_6.read (Elt F) (VO0_6.writes (Elt F) VO0_6.junk (kernelRun0_A c i arg3 harg3 arg4 harg4 arg5 harg5 arg6 harg6 arg7 harg7 arg8 harg8 arg9 harg9 arg10 harg10 hc0 x0 x1 x2 x3 x4 x5 xs0).1)

/-- What the body leaves in the key cache: its one stored slab over what the cache held. -/
def sout0_A_0 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) : Vec F S8x2048x64 .bf16 :=
  arg10.view.read (Elt F) (arg10.view.writes (Elt F) (harg10.unread xs0) (kernelRun0_A c i arg3 harg3 arg4 harg4 arg5 harg5 arg6 harg6 arg7 harg7 arg8 harg8 arg9 harg9 arg10 harg10 hc0 x0 x1 x2 x3 x4 x5 xs0).2.1)

/-- A load through a rectangle of what ONE store through that rectangle left reads the store's payload. -/
theorem readCov_self [∀ e, Nonempty (Elt F e)] {S : Shape} {e : EltTy} (v : View sig .tc .vmem S e) (r : Rect S) (w : r.shape.Idx → Elt F e) :
    v.readCov [(⟨r, w⟩ : View.Piece (Elt F) S e)] r.toLoadRect = w :=
  funext fun j => View.read_writes_cons_emb v v.junk r w [] j

/-- The tile at query tile 0 reads the slab the fill has just stored: the key payload of the point's own blocks. -/
theorem out0_A_6_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    out0_A_6 c i arg3 harg3 arg4 harg4 arg5 harg5 arg6 harg6 arg7 harg7 arg8 harg8 arg9 harg9 arg10 harg10 hc0 x0 x1 x2 x3 x4 x5 xs0 = tileOf x0 x2 x4 (keysOf x1 x5 (View.ld x3 (rowsR i hc0))) := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5 xs0)]
  unfold kernelRun0_A
  dsimp only
  sl_unfold_words
  rw [View.canon_unit_zero hz4]
  simp only [View.readAt_eq_ld, harg3.read_unread, harg4.read_unread, harg5.read_unread, harg6.read_unread, harg7.read_unread, harg8.read_unread,
    View.ld_unit_zero (S := S1x512x512) hz3, View.ld_unit_zero (S := S64x512) hz2, View.ld_unit_zero (S := S1x2048x512) hz3]
  unfold tileOf
  refine congrArg (fun ks => k0_pay1 (k0_pay3 x0 x2 (cosQ x4) (sinQ x4)) (k0_pay4 ks) (constant S512x2048 .f32 0x00000000#32)) ?_
  exact readCov_self _ _ _

/-- Head `(i 2)`'s slab of the key cache, as the fill addresses it when it stores. -/
abbrev slabW (i : grid0.Coords) (hc0 : cond0_0 i) : Rect S8x2048x64 := Rect.unit (s := S8x2048x64) (k0_off2 i) S1x2048x64.size (k0_off2_inb i hc0)

/-- After the fill the stored slab holds the key payload of the point's own blocks, -/
theorem sout0_A_0_in (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (j : S1x2048x64.Idx) :
    sout0_A_0 c i arg3 harg3 arg4 harg4 arg5 harg5 arg6 harg6 arg7 harg7 arg8 harg8 arg9 harg9 arg10 harg10 hc0 x0 x1 x2 x3 x4 x5 xs0 ((slabW i hc0).emb j) = keysOf x1 x5 (View.ld x3 (rowsR i hc0)) j := by
  unfold sout0_A_0 kernelRun0_A
  dsimp only
  sl_unfold_words
  simp only [View.readAt_eq_ld, harg4.read_unread, harg6.read_unread, harg8.read_unread, View.ld_unit_zero (S := S1x2048x512) hz3]
  exact View.read_writes_cons_emb arg10.view (harg10.unread xs0) (slabW i hc0) (keysOf x1 x5 (View.ld x3 (rowsR i hc0))) [] j

/-- and every entry of another head's slab is what the cache held. -/
theorem sout0_A_0_out (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (y : S8x2048x64.Idx) (hy : (y 0).val ≠ (i 2).val) :
    sout0_A_0 c i arg3 harg3 arg4 harg4 arg5 harg5 arg6 harg6 arg7 harg7 arg8 harg8 arg9 harg9 arg10 harg10 hc0 x0 x1 x2 x3 x4 x5 xs0 y = xs0 y := by
  unfold sout0_A_0 kernelRun0_A
  dsimp only
  sl_unfold_words
  refine (View.read_writes_cons_unit_of_not_mem arg10.view (harg10.unread xs0) (k0_off2_inb i hc0) _ [] y (k0_off2_eq i) 0 ?_).trans ?_
  · show (y 0).val < (i 2).val ∨ (i 2).val + 1 ≤ (y 0).val
    omega
  · show arg10.view.read (Elt F) (harg10.unread xs0) y = xs0 y
    rw [harg10.read_unread]

end Cert.KernelIdeal.Hand

end
-- ==== Proof.Frame.lean ====
/-
  The frame of the program's one pipelined kernel, point by point. The grid runs batch, then query tile, then head
  (the head fastest): point t has batch t / 32, query tile (t / 8) mod 4 and head t mod 8. At the eight points of a
  batch's query tile 0 (t mod 32 < 8) the body first stores the head's normalised rotary keys into that head's slab
  of the key cache; at every point it reads the head's slab back and stores the softmax tile of the scaled unit
  queries against it. The invariant carried from point to point says exactly what later points need: before point n
  the slabs of the heads h < n mod 32 hold the keys computed at the point (n / 32)·32 + h of the current batch — the
  other slabs hold anything. With it the tile stored at point t is a function of the argument arrays alone: the
  tile of the point's own query-side blocks against the keys computed at the point of its batch and head in query
  tile 0.
-/
import proofs.«424914_j88493506166997_3_alg».proof.Proof.FramePieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The keys of a point, and the point that fills a point's head -/

/-- The head's 64 rows of the key weights lie inside the key half at every point. -/
theorem off1_inb_all : ∀ t : Fin cfg0.N, ∀ a, (k0_off1 (grid0.coords t)) a + S64x512.size a ≤ S512x512.size a :=
  (by decide +kernel : ∀ t : Fin grid0.N, ∀ a, (k0_off1 (grid0.coords t)) a + S64x512.size a ≤ S512x512.size a)

/-- The head coordinate of point t is t mod 8. -/
theorem coords2 : ∀ t : Fin cfg0.N, ((grid0.coords t) 2).val = t.val % 8 :=
  (by decide +kernel : ∀ t : Fin grid0.N, ((grid0.coords t) 2).val = t.val % 8)

/-- The slab of unit keys that the blocks of point `t` determine: its batch's tokens, the whole rotary table and its
    head's rows of the key weights. -/
def keysAt (c : Dev nD) (t : Fin cfg0.N) : Vec F S1x2048x64 .bf16 :=
  keysOf (iblk m c 1 t) (iblk m c 5 t)
    (View.ld (iblk m c 3 t : Vec F S512x512 .f32) (Rect.unit (s := S512x512) (k0_off1 (grid0.coords t)) S64x512.size (off1_inb_all t)))

/-- The point of `t`'s batch and head in query tile 0: where `t`'s head was filled. -/
def fillPt (t : Fin cfg0.N) : Fin cfg0.N :=
  ⟨(t.val / 32) * 32 + t.val % 8, by have h1 := t.isLt; have h2 : cfg0.N = 64 := N_0; omega⟩

/-- The tile the body stores at point `t`. -/
def tileAt (c : Dev nD) (t : Fin cfg0.N) : Vec F S1x1x512x2048 .f32 :=
  tileOf (iblk m c 0 t) (iblk m c 2 t) (iblk m c 4 t) (keysAt m c (fillPt t))

/-- The key cache before point `n`: the heads already filled in the current batch hold that batch's keys. -/
def Inv (c : Dev nD) (n : ℕ) (xs : Vec F S8x2048x64 .bf16) : Prop :=
  ∀ (h : Fin 8) (hh : (n / 32) * 32 + h.val < cfg0.N), h.val < n % 32 → ∀ (j : Fin 2048) (d : Fin 64),
    xs (ix3 h j d) = keysAt m c ⟨(n / 32) * 32 + h.val, hh⟩ (ix3 0 j d)

/-- The region invariant before point `n`: the key cache at contents satisfying `Inv`, the generator register at some state. -/
def PhiS (c : Dev nD) (n : ℕ) : sProp 𝕄 :=
  iprop((∃ xs, ⌜Inv m c n xs⌝ ∗ owns (c : Thread nD τ) scM0_0 fullShare xs) ∗ (∃ r, prngReg c r))

/-! ## The proof data -/

/-- The proof data of the pipeline on core `c`: the arrays as the region finds them; after the body each input's
    buffer at its block and the output's at the point's tile; the invariant `PhiS`; nothing owed; the two windows on
    one array hold its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAt m c t
  Φ t := PhiS m c t.val
  q := fun | 0 => fullShare.left | 1 => fullShare.right | 2 => fullShare.left | 3 => fullShare.right | 4 => fullShare.left | 5 => fullShare.right | 6 => fullShare | ⟨_ + 7, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = tileAt m c t := by dsimp only [dats]

/-! ## Reading the key cache through a head's slab -/

/-- The index the body's slab load reads at position `y`: head `i 2`, token `y 1`, feature `y 2`. -/
theorem slabR_idx (i : grid0.Coords) (y : S1x2048x64.Idx) :
    (slabR i).idx y = (ix3 (i 2) (y 1) (y 2) : S8x2048x64.Idx) := by
  funext a
  refine Fin.ext ?_
  show (k0_off3 i) a + 1 * (y a).val = _
  rw [k0_off3_eq]
  match a with
  | ⟨0, _⟩ => have hy0 : (y 0).val < 1 := (y 0).isLt; show (i 2).val + 1 * (y 0).val = (i 2).val; omega
  | ⟨1, _⟩ => show 0 + 1 * (y 1).val = (y 1).val; omega
  | ⟨2, _⟩ => show 0 + 1 * (y 2).val = (y 2).val; omega

/-- The index the fill's slab store writes at position `y`. -/
theorem slabW_emb (i : grid0.Coords) (hc0 : cond0_0 i) (y : S1x2048x64.Idx) :
    (slabW i hc0).emb y = (ix3 (i 2) (y 1) (y 2) : S8x2048x64.Idx) := by
  funext a
  refine Fin.ext ?_
  show (k0_off2 i) a + 1 * (y a).val = _
  rw [k0_off2_eq]
  match a with
  | ⟨0, _⟩ => have hy0 : (y 0).val < 1 := (y 0).isLt; show (i 2).val + 1 * (y 0).val = (i 2).val; omega
  | ⟨1, _⟩ => show 0 + 1 * (y 1).val = (y 1).val; omega
  | ⟨2, _⟩ => show 0 + 1 * (y 2).val = (y 2).val; omega

/-- A position of a one-head slab is (0, token, feature). -/
theorem slab_pos (y : S1x2048x64.Idx) : y = (ix3 0 (y 1) (y 2) : S1x2048x64.Idx) := by
  funext a
  match a with
  | ⟨0, _⟩ => exact Fin.ext (by have hy0 : (y 0).val < 1 := (y 0).isLt; show (y 0).val = 0; omega)
  | ⟨1, _⟩ => rfl
  | ⟨2, _⟩ => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' memrefs hold their blocks; the closed form of the branch condition says
    which run applies; the invariant hands the body the key cache and takes it back — after a fill with the head's
    slab at the point's keys and the others untouched, otherwise unchanged —, and the output's buffer ends at the
    point's tile, which reads the head's slab: the one just stored, or the one the invariant vouches for. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  unfold PhiS
  have hN : t.val < 64 := lt_of_lt_of_eq t.isLt N_0
  have hc2 := coords2 t
  by_cases h0 : t.val % 32 < 8
  · have hc : cond0_0 (grid0.coords t) := (hcond0_0 t).mpr h0
    have hfill : fillPt t = t := Fin.ext (by show (t.val / 32) * 32 + t.val % 8 = t.val; omega)
    iintro ⟨⟨⟨%xs, %hinv, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0 Hg]
    · isplitl [HS0]
      · iexists (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs)
        isplitr
        · ipureintro
          intro h hh hlt j d
          by_cases hh2 : h.val = t.val % 8
          · have e1 : (ix3 h j d : S8x2048x64.Idx) = (slabW (grid0.coords t) hc).emb (ix3 0 j d : S1x2048x64.Idx) := by
              rw [slabW_emb]; funext a
              match a with
              | ⟨0, _⟩ => exact Fin.ext (by show h.val = ((grid0.coords t) 2).val; omega)
              | ⟨1, _⟩ => rfl
              | ⟨2, _⟩ => rfl
            rw [e1, sout0_A_0_in]
            have e2 : (⟨((t.val + 1) / 32) * 32 + h.val, hh⟩ : Fin cfg0.N) = t := Fin.ext (by show ((t.val + 1) / 32) * 32 + h.val = t.val; omega)
            rw [e2]; rfl
          · have hlt' : h.val < t.val % 32 := by omega
            have hh' : (t.val / 32) * 32 + h.val < cfg0.N := by have h2 : cfg0.N = 64 := N_0; omega
            rw [sout0_A_0_out _ _ _ _ _ _ _ _ _ _ _ _ _ _ _ _ _ _ _ _ _ _ _ _ _ _ (ix3 h j d) (by show h.val ≠ ((grid0.coords t) 2).val; omega)]
            have e2 : (⟨((t.val + 1) / 32) * 32 + h.val, hh⟩ : Fin cfg0.N) = ⟨(t.val / 32) * 32 + h.val, hh'⟩ := Fin.ext (by show ((t.val + 1) / 32) * 32 + h.val = (t.val / 32) * 32 + h.val; omega)
            rw [e2]; exact hinv h hh' hlt' j d
        · unfold owns; iexists _; isplitr
          · ipureintro; rfl
          · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    refine (View.read_writes_of_cover _ _ VO0_6 VO0_6.junk _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs)).trans ?_
    refine (out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).trans ?_
    unfold tileAt; rw [hfill]; rfl
  · have hc : ¬cond0_0 (grid0.coords t) := fun h => h0 ((hcond0_0 t).mp h)
    iintro ⟨⟨⟨%xs, %hinv, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0 Hg]
    · isplitl [HS0]
      · iexists xs
        isplitr
        · ipureintro
          intro h hh hlt j d
          have h2 : cfg0.N = 64 := N_0
          have hne : (t.val + 1) % 32 ≠ 0 := by omega
          have hh' : (t.val / 32) * 32 + h.val < cfg0.N := by omega
          have e2 : (⟨((t.val + 1) / 32) * 32 + h.val, hh⟩ : Fin cfg0.N) = ⟨(t.val / 32) * 32 + h.val, hh'⟩ := Fin.ext (by show ((t.val + 1) / 32) * 32 + h.val = (t.val / 32) * 32 + h.val; omega)
          rw [e2]; exact hinv h hh' (by have := h.isLt; omega) j d
        · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    refine (View.read_writes_of_cover _ _ VO0_6 VO0_6.junk _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs)).trans ?_
    refine (out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).trans ?_
    unfold tileAt
    refine congrArg (tileOf (iblk m c 0 t) (iblk m c 2 t) (iblk m c 4 t)) ?_
    funext y
    show xs ((slabR (grid0.coords t)).idx y) = keysAt m c (fillPt t) y
    have hh' : (t.val / 32) * 32 + t.val % 8 < cfg0.N := (fillPt t).isLt
    have hy := slab_pos y
    rw [slabR_idx]
    have e3 : (ix3 ((grid0.coords t) 2) (y 1) (y 2) : S8x2048x64.Idx) = ix3 (⟨t.val % 8, by omega⟩ : Fin 8) (y 1) (y 2) := by
      funext a
      match a with
      | ⟨0, _⟩ => exact Fin.ext hc2
      | ⟨1, _⟩ => rfl
      | ⟨2, _⟩ => rfl
    refine ((congrArg xs e3).trans (hinv ⟨t.val % 8, by omega⟩ hh' (by show t.val % 8 < t.val % 32; omega) (y 1) (y 2))).trans ?_
    exact (congrArg (keysAt m c (fillPt t)) hy).symm

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no head is filled yet. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS0⟩, Hg⟩
  isplitl [HS0]
  · iexists d; isplitr
    · ipureintro; intro h hh hlt; exact absurd hlt (by show ¬ h.val < 0 % 32; omega)
    · iexact HS0
  iexact Hg

/-- After the last point the invariant gives the class invariant back: what the key cache holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%xs, -, HS0⟩, Hg⟩
  isplitl [HS0]
  · iexists xs; iexact HS0
  iexact Hg

end Cert.KernelIdeal.Hand

end
-- ==== Proof.Launch.lean ====
/-
  The frame run of this program's one pipelined kernel, whose three input arrays are each handed to two windows
  (windows 0 and 1 read argument 0, windows 2 and 3 argument 3, windows 4 and 5 the joined cosine|sine table; window 6
  writes the result). The launch gives the pipeline each of the four buffers behind the windows whole at the full
  share; the two windows on one buffer take its two halves, which together are the full share, and the output
  window keeps its buffer whole. From any proof data that reads its arrays off the region-entry contents, lends those
  halves, owes nothing, satisfies the body obligation, and whose invariant the class invariant yields before the
  first point and that yields it back after the last: every weakly fair run of the program ends, with the result
  buffer at what the proof data computes after every write-back and the four arguments as launched (the two that
  the windows read, because an input window's array is never written; the two that bypass the region, because
  they are held whole across it and the one host operation before it writes neither).
-/
import proofs.«424914_j88493506166997_3_alg».proof.Proof.FrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of each input window's array: the two windows on one array hold its two halves. -/
def halves : Fin 7 → PosShare TreeShare := fun | 0 => fullShare.left | 1 => fullShare.right | 2 => fullShare.left | 3 => fullShare.right | 4 => fullShare.left | 5 => fullShare.right | 6 => fullShare | ⟨_ + 7, h⟩ => absurd h (Nat.not_lt.2 (Nat.le_add_left _ _))

/-- With the halves as the inputs' shares, every window holds its array at `halves`: an input at its own share, the
    output at the full share. -/
theorem share_halves (c : Dev nD) (dat : Dat τ (Elt F) Unit ℕ (UR sig nD τ) ℕ cfg0 c) (hq : ∀ w, dat.q w = halves w) :
    ∀ w, dat.share w = halves w := fun w => by
  unfold Dat.share; rw [hq]
  match w with
  | 0 => rfl | 1 => rfl | 2 => rfl | 3 => rfl | 4 => rfl | 5 => rfl | 6 => rfl

/-- A buffer held whole at the full share is held at its two halves: the full share is their composite. -/
theorem full_to_halves {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1

/-- The four buffers behind the windows, each whole at the full share at the region-entry contents, make the seven
    windows' arrays at entry: a buffer read by two windows is split into its two halves. -/
theorem arrays_of_halves (c : Dev nD) (dat : Dat τ (Elt F) Unit ℕ (UR sig nD τ) ℕ cfg0 c)
    (hA : ∀ w, dat.A w = V m c (Pipeline.arrRef spec0 w)) (hq : ∀ w, dat.q w = halves w) :
    (Pipeline.arrBufs spec0 c (V m c) : sProp 𝕄) ⊢ dat.arrays (dat.arrAt · 0) := by
  classical
  -- the windows' arrays are whole buffers, held at the halves, at the region-entry contents
  have harr : dat.arrays (dat.arrAt · 0)
      = bigSep Finset.univ fun w : Fin 7 => (((c.tc : Thread nD τ).loc (Pipeline.arrRef spec0 w)) ↦{halves w} V m c (Pipeline.arrRef spec0 w) : sProp 𝕄) := by
    unfold Dat.arrays
    exact bigSep_congr fun w _ => by
      rw [(arr_whole0 w).set_eq_univ, share_halves c dat hq w]
      exact congrArg (fun f => (((c.tc : Thread nD τ).loc (Pipeline.arrRef spec0 w)) ↦{halves w} f : sProp 𝕄)) (hA w)
  rw [harr, bigSep_W0]
  unfold Pipeline.arrBufs
  -- the buffers behind the seven windows are these four
  rw [bigSep_eq_bigSepL_of_eq (M := 𝕄) [main_arg0, main_arg3, main_v0, main_v1] (by decide) (by decide)]
  refine (show (iprop((((c.tc : Thread nD τ).loc main_arg0) ↦{fullShare} V m c main_arg0) ∗ (((c.tc : Thread nD τ).loc main_arg3) ↦{fullShare} V m c main_arg3)
        ∗ (((c.tc : Thread nD τ).loc main_v0) ↦{fullShare} V m c main_v0) ∗ (((c.tc : Thread nD τ).loc main_v1) ↦{fullShare} V m c main_v1)) : sProp 𝕄)
      ⊢ iprop((((c.tc : Thread nD τ).loc main_arg0) ↦{fullShare.left} V m c main_arg0) ∗ (((c.tc : Thread nD τ).loc main_arg0) ↦{fullShare.right} V m c main_arg0)
        ∗ (((c.tc : Thread nD τ).loc main_arg3) ↦{fullShare.left} V m c main_arg3) ∗ (((c.tc : Thread nD τ).loc main_arg3) ↦{fullShare.right} V m c main_arg3)
        ∗ (((c.tc : Thread nD τ).loc main_v0) ↦{fullShare.left} V m c main_v0) ∗ (((c.tc : Thread nD τ).loc main_v0) ↦{fullShare.right} V m c main_v0)
        ∗ (((c.tc : Thread nD τ).loc main_v1) ↦{fullShare} V m c main_v1)) from ?_)
  iintro ⟨H0, H3, H4, H6⟩
  -- each buffer that two windows read goes to them by halves; the result's buffer stays whole
  ihave G0 := (full_to_halves (V m c main_arg0)) $$ H0
  ihave G3 := (full_to_halves (V m c main_arg3)) $$ H3
  ihave G4 := (full_to_halves (V m c main_v0)) $$ H4
  icases G0 with ⟨H0l, H0r⟩
  icases G3 with ⟨H3l, H3r⟩
  icases G4 with ⟨H4l, H4r⟩
  isplitl [H0l]; · iexact H0l
  isplitl [H0r]; · iexact H0r
  isplitl [H3l]; · iexact H3l
  isplitl [H3r]; · iexact H3r
  isplitl [H4l]; · iexact H4l
  isplitl [H4r]; · iexact H4r
  iexact H6

theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = halves w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v1) = (dats 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  refine Pipeline.θ_run_region_pf (pcfgs (F := F)) (fun p => (cfgs p).toPCfg_adm) dats () cellOf_inj 0 winFacts₀0
    (Pipeline.OwnSemFacts.none _) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := ?hu0) (V := V m) (hmain := hmain m Variants.none)
    (hsplit := fun c => arrays_of_halves m c (dats 0 c) (hA c) (hq c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := ?hX) (hin := ?hin) (hout := ?hout)
    (QY := fun c s => ∀ b ∈ Pipeline.restRefs sig spec0, s.mem ((c.tc : Thread nD τ).loc b) = V m c b)
    (hY := ?hY) (hQ := ?hQ)
  case hu0 =>
    -- the launch element is the pipeline's own, and nothing else is minted
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    -- of what the launch leaves beside the arrays, the generator register goes to the body and the bypassing buffers wait
    intro c
    rw [Pipeline.unscopedRestP_none]
    iintro ⟨HU, -, -, -, Hp, -⟩; imodintro
    isplitl [Hp]
    · iexists _; iexact Hp
    iexact HU
  case hin =>
    intro c
    refine (show _ ⊢ Pipeline.ΦA spec0 c from ?_).trans (hin c)
    unfold Pipeline.ΦA
    iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case hY =>
    -- the bypassing buffers, held whole, are read against the final state
    intro c s'
    iintro ⟨-, HU, HSI⟩
    unfold Pipeline.unscopedRest
    imodintro
    iapply (pointsTo_read_all (Pipeline.restRefs sig spec0) (fun b => (c.tc : Thread nD τ).loc b) (V m c) s')
    isplitl [HU] <;> iassumption
  case hQ =>
    intro s h c
    obtain ⟨hw, -, hr⟩ := h c
    refine ⟨hw 6, ?_, ?_, ?_, ?_⟩
    · exact (hw 0).trans (((dats 0 c).arrAt_in 0 rfl _).trans ((hA c 0).trans (V_main_arg0 m c)))
    · exact (hr main_arg1 (Pipeline.mem_restRefs_of main_arg1 (by decide) (by decide))).trans (V_main_arg1 m c)
    · exact (hr main_arg2 (Pipeline.mem_restRefs_of main_arg2 (by decide) (by decide))).trans (V_main_arg2 m c)
    · exact (hw 2).trans (((dats 0 c).arrAt_in 2 rfl _).trans ((hA c 2).trans (V_main_arg3 m c)))

end Cert.KernelIdeal.Hand

end
-- ==== Proof.FrameRun.lean ====
/-
  The run of the program: every weakly fair execution terminates without a fault, the result array ends holding what
  the point-by-point write-backs of the tiles leave, and the four argument arrays end unchanged.
-/
import proofs.«424914_j88493506166997_3_alg».proof.Proof.Frame
import proofs.«424914_j88493506166997_3_alg».proof.Proof.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem q_halves (c : Dev nD) (w : Fin 7) : (dats m 0 c).q w = halves w := by
  fin_cases w <;> rfl

theorem run_main : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (dats m) (A_eq m) (q_halves m) (fun _ _ => rfl) (fun c => (body_obligation m c).loose) (hin m) (hout m)

end Cert.KernelIdeal.Hand

end
-- ==== Proof.KFrameShared.lean ====
/-
  What the frame of this program's one pipelined kernel is stated over: the arrays as the kernel region
  finds them (the launch contents, and the cosine|sine table joined by the one host operation before the region), each
  window's block at a grid point, the body's one branch condition in closed form — the grid is (batch, query tile,
  head) with the head innermost, and the branch is taken exactly at query tile 0, i.e. at the points t with
  t mod 32 < 8 —, the staging memrefs the pipeline passes at a point, and the scratch buffer that carries the
  normalised keys of each head from the point that fills it to the points that read it.
-/
import proofs.«424914_j88493506166997_3_alg».proof.Proof.Gen.Kernel.Launch
import proofs.«424914_j88493506166997_3_alg».proof.Proof.Gen.Kernel.Skeleton
import proofs.«424914_j88493506166997_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation (the join of the
    cosine and sine tables along the feature axis). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operation does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch (query tile 0), from the grid coordinates. -/
abbrev cond0_0 (i : grid0.Coords) : Prop := k0_cond1 i = 1#1
/-- It holds at the points whose query tile is 0: t mod 32 < 8 — decided over the 64 points. -/
theorem hcond0_0 : ∀ t : Fin cfg0.N, cond0_0 (grid0.coords t) ↔ t.val % 32 < 8 :=
  (by decide +kernel : ∀ t : Fin grid0.N, cond0_0 (grid0.coords t) ↔ t.val % 32 < 8)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The memrefs the body is called with -/

/-- One staging buffer of the output window, through which its contents are stated. -/
abbrev VO0_6 : View sig .tc .vmem S1x1x512x2048 .f32 := (Memref.whole cc0_stg6_0 : Memref sig .tc .vmem S1x1x512x2048 .f32).view
abbrev ms0_0 (t : Fin cfg0.N) : Memref sig .tc .vmem S1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x2048 .f32 := win0_6.stage (cfg0.slots t 6)
abbrev hs0_6 (t : Fin cfg0.N) : (ms0_6 t).IsWhole := hstage0_6 ((cfg0.slots t 6).cast nbuf0_6)
/-- The scratch operand: the per-head cache of normalised keys, a whole scoped buffer of the kernel's own. -/
abbrev scM0_0 : Memref sig .tc .vmem S8x2048x64 .bf16 := Memref.whole cc0_scratch0
abbrev VS0_0 : View sig .tc .vmem S8x2048x64 .bf16 := scM0_0.view

/-- The class invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KFrameRunB.lean ====
/-
  The kernel body away from query tile 0 (the branch not taken): on whole staging memrefs holding the six input
  blocks, the output's staging buffer at anything and the key cache at the contents the earlier points left, the body
  runs to the end, leaves the inputs and the key cache as they were, and leaves in the output's buffer the pieces its
  one store wrote — the softmax tile of the scaled unit queries against the cached unit keys of the point's head.
-/
import proofs.«424914_j88493506166997_3_alg».proof.Proof.KFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's store leaves in the output's staging memref at a point where the branch is not taken, with
    the proof that the body runs from the blocks to the continuation holding them. -/
noncomputable def kernelRun0_B (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    { L6 : List (View.Piece (Elt F) S1x1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; isplitr; · ipureintro; exact harg10.read_unread _
    iexact HS0

end Cert.Kernel.Hand

end
-- ==== Proof.KFrameRunA.lean ====
/-
  The kernel body at query tile 0 (the branch taken): it first computes the point's head of normalised rotary keys
  from the whole key-side block of the input and stores it into that head's slab of the key cache, then does what
  it does at every point. On whole staging memrefs holding the six input blocks, the output's staging buffer at
  anything and the key cache at whatever the earlier points left, the body runs to the end, leaves the inputs as
  they were, the key cache with that one slab overwritten, and in the output's buffer the pieces its store wrote.
-/
import proofs.«424914_j88493506166997_3_alg».proof.Proof.KFrameRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref and in the key cache at a point where the
    branch is taken, with the proof that the body runs from the blocks to the continuation holding them. -/
noncomputable def kernelRun0_A (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    Σ' (L6 : List (View.Piece (Elt F) S1x1x512x2048 .f32)), { LS0 : List (View.Piece (Elt F) S8x2048x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexact HS0

end Cert.Kernel.Hand

end
-- ==== Proof.KFramePieces.lean ====
/-
  What the body's stores leave, as functions of what the body loads. The output tile is the softmax payload of the
  scaled unit queries (computed from the query-side token block, the head's 64 weight rows and the two halves of the
  cosine|sine block) against a head's slab of unit keys; the slab the fill stores is the key payload of the whole
  key-side token block, the two halves of the whole cosine|sine table and the head's 64 rows of the key weights.
  Away from query tile 0 the tile reads the slab the key cache holds; at query tile 0 it reads the slab just stored,
  and the key cache ends with that one slab overwritten and every other entry as it was.
-/
import proofs.«424914_j88493506166997_3_alg».proof.Proof.KFrameRunA
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0, 0, 0] : Fin 4 → ℕ) = fun _ => 0 := by funext a; fin_cases a <;> rfl
theorem hz3 : (![0, 0, 0] : Fin 3 → ℕ) = fun _ => 0 := by funext a; fin_cases a <;> rfl
theorem hz2 : (![0, 0] : Fin 2 → ℕ) = fun _ => 0 := by funext a; fin_cases a <;> rfl

/-- The first and the second 64 columns of a [rows, 128] block: its cosine half and its sine half. -/
abbrev cosQ (x4 : Vec F S512x128 .f32) : Vec F S512x64 .f32 := View.ld x4 (Rect.unit (s := S512x128) ![0, 0] S512x64.size Facts₀.inb_S512x128_S512x64_0_0)
abbrev sinQ (x4 : Vec F S512x128 .f32) : Vec F S512x64 .f32 := View.ld x4 (Rect.unit (s := S512x128) ![0, 64] S512x64.size Facts₀.inb_S512x128_S512x64_0_64)
abbrev cosK (x5 : Vec F S2048x128 .f32) : Vec F S2048x64 .f32 := View.ld x5 (Rect.unit (s := S2048x128) ![0, 0] S2048x64.size Facts₀.inb_S2048x128_S2048x64_0_0)
abbrev sinK (x5 : Vec F S2048x128 .f32) : Vec F S2048x64 .f32 := View.ld x5 (Rect.unit (s := S2048x128) ![0, 64] S2048x64.size Facts₀.inb_S2048x128_S2048x64_0_64)

/-- The output tile from the query-side blocks and a slab of unit keys. -/
def tileOf (x0 : Vec F S1x512x512 .f32) (x2 : Vec F S64x512 .f32) (x4 : Vec F S512x128 .f32) (ks : Vec F S1x2048x64 .bf16) : Vec F S1x1x512x2048 .f32 :=
  k0_pay1 (k0_pay3 x0 x2 (cosQ x4) (sinQ x4)) (k0_pay4 ks) (constant S512x2048 .f32 0x00000000#32)

/-- The slab of unit keys from the key-side blocks and 64 rows of key weights. -/
def keysOf (x1 : Vec F S1x2048x512 .f32) (x5 : Vec F S2048x128 .f32) (wk : Vec F S64x512 .f32) : Vec F S1x2048x64 .bf16 :=
  k0_pay2 x1 (cosK x5) (sinK x5) wk

/-- Head `(i 2)`'s slab of the key cache, as the body addresses it when it reads, -/
abbrev slabR (i : grid0.Coords) : Rect S8x2048x64 := Rect.unit (s := S8x2048x64) (k0_off3 i) S1x2048x64.size (k0_off3_inb i)
/-- and the head's 64 rows of the key half of the weights, as the fill addresses them. -/
abbrev rowsR (i : grid0.Coords) (hc0 : cond0_0 i) : Rect S512x512 := Rect.unit (s := S512x512) (k0_off1 i) S64x512.size (k0_off1_inb i hc0)

/-! ## Away from query tile 0 -/

theorem cover0_B_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (y : S1x1x512x2048.Idx) :
    ∃ pc ∈ (kernelRun0_B c i arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 hc0 x0 x1 x2 x3 x4 x5 xs0).1 S1x1x512x2048.size (by sl_kernel_rfl) y

/-- What the body leaves in the output's staging buffer: its pieces read back. -/
def out0_B_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) : Vec F S1x1x512x2048 .f32 :=
  VO0_6.read (Elt F) (VO0_6.writes (Elt F) VO0_6.junk (kernelRun0_B c i arg3 harg3 arg4 harg4 arg5 harg5 arg6 harg6 arg7 harg7 arg8 harg8 arg9 harg9 arg10 harg10 hc0 x0 x1 x2 x3 x4 x5 xs0).1)

/-- It is the tile of the blocks against the slab the key cache holds for the point's head. -/
theorem out0_B_6_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : ¬cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    out0_B_6 c i arg3 harg3 arg4 harg4 arg5 harg5 arg6 harg6 arg7 harg7 arg8 harg8 arg9 harg9 arg10 harg10 hc0 x0 x1 x2 x3 x4 x5 xs0 = tileOf x0 x2 x4 (View.ld xs0 (slabR i)) := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  sl_unfold_words
  rw [View.canon_unit_zero hz4]
  simp only [View.readAt_eq_ld, harg3.read_unread, harg5.read_unread, harg7.read_unread, harg10.read_unread,
    View.ld_unit_zero (S := S1x512x512) hz3, View.ld_unit_zero (S := S64x512) hz2]
  rfl

/-! ## At query tile 0 -/

theorem cover0_A_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (y : S1x1x512x2048.Idx) :
    ∃ pc ∈ (kernelRun0_A c i arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_A c i arg3 harg3 arg4 harg4 arg5 harg5 arg6 harg6 arg7 harg7 arg8 harg8 arg9 harg9 arg10 harg10 hc0 x0 x1 x2 x3 x4 x5 xs0).1 S1x1x512x2048.size (by sl_kernel_rfl) y

def out0_A_6 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) : Vec F S1x1x512x2048 .f32 :=
  VO0_6.read (Elt F) (VO0_6.writes (Elt F) VO0_6.junk (kernelRun0_A c i arg3 harg3 arg4 harg4 arg5 harg5 arg6 harg6 arg7 harg7 arg8 harg8 arg9 harg9 arg10 harg10 hc0 x0 x1 x2 x3 x4 x5 xs0).1)

/-- What the body leaves in the key cache: its one stored slab over what the cache held. -/
def sout0_A_0 (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) : Vec F S8x2048x64 .bf16 :=
  arg10.view.read (Elt F) (arg10.view.writes (Elt F) (harg10.unread xs0) (kernelRun0_A c i arg3 harg3 arg4 harg4 arg5 harg5 arg6 harg6 arg7 harg7 arg8 harg8 arg9 harg9 arg10 harg10 hc0 x0 x1 x2 x3 x4 x5 xs0).2.1)

/-- A load through a rectangle of what ONE store through that rectangle left reads the store's payload. -/
theorem readCov_self [∀ e, Nonempty (Elt F e)] {S : Shape} {e : EltTy} (v : View sig .tc .vmem S e) (r : Rect S) (w : r.shape.Idx → Elt F e) :
    v.readCov [(⟨r, w⟩ : View.Piece (Elt F) S e)] r.toLoadRect = w :=
  funext fun j => View.read_writes_cons_emb v v.junk r w [] j

/-- The tile at query tile 0 reads the slab the fill has just stored: the key payload of the point's own blocks. -/
theorem out0_A_6_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) :
    out0_A_6 c i arg3 harg3 arg4 harg4 arg5 harg5 arg6 harg6 arg7 harg7 arg8 harg8 arg9 harg9 arg10 harg10 hc0 x0 x1 x2 x3 x4 x5 xs0 = tileOf x0 x2 x4 (keysOf x1 x5 (View.ld x3 (rowsR i hc0))) := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5 xs0)]
  unfold kernelRun0_A
  dsimp only
  sl_unfold_words
  rw [View.canon_unit_zero hz4]
  simp only [View.readAt_eq_ld, harg3.read_unread, harg4.read_unread, harg5.read_unread, harg6.read_unread, harg7.read_unread, harg8.read_unread,
    View.ld_unit_zero (S := S1x512x512) hz3, View.ld_unit_zero (S := S64x512) hz2, View.ld_unit_zero (S := S1x2048x512) hz3]
  unfold tileOf
  refine congrArg (fun ks => k0_pay1 (k0_pay3 x0 x2 (cosQ x4) (sinQ x4)) (k0_pay4 ks) (constant S512x2048 .f32 0x00000000#32)) ?_
  exact readCov_self _ _ _

/-- Head `(i 2)`'s slab of the key cache, as the fill addresses it when it stores. -/
abbrev slabW (i : grid0.Coords) (hc0 : cond0_0 i) : Rect S8x2048x64 := Rect.unit (s := S8x2048x64) (k0_off2 i) S1x2048x64.size (k0_off2_inb i hc0)

/-- After the fill the stored slab holds the key payload of the point's own blocks, -/
theorem sout0_A_0_in (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (j : S1x2048x64.Idx) :
    sout0_A_0 c i arg3 harg3 arg4 harg4 arg5 harg5 arg6 harg6 arg7 harg7 arg8 harg8 arg9 harg9 arg10 harg10 hc0 x0 x1 x2 x3 x4 x5 xs0 ((slabW i hc0).emb j) = keysOf x1 x5 (View.ld x3 (rowsR i hc0)) j := by
  unfold sout0_A_0 kernelRun0_A
  dsimp only
  sl_unfold_words
  simp only [View.readAt_eq_ld, harg4.read_unread, harg6.read_unread, harg8.read_unread, View.ld_unit_zero (S := S1x2048x512) hz3]
  exact View.read_writes_cons_emb arg10.view (harg10.unread xs0) (slabW i hc0) (keysOf x1 x5 (View.ld x3 (rowsR i hc0))) [] j

/-- and every entry of another head's slab is what the cache held. -/
theorem sout0_A_0_out (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S64x512 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S1x1x512x2048 .f32) (harg9 : arg9.IsWhole) (arg10 : Memref sig .tc .vmem S8x2048x64 .bf16) (harg10 : arg10.IsWhole) (hc0 : cond0_0 i)
    (x0 : Vec F S1x512x512 .f32) (x1 : Vec F S1x2048x512 .f32) (x2 : Vec F S64x512 .f32) (x3 : Vec F S512x512 .f32) (x4 : Vec F S512x128 .f32) (x5 : Vec F S2048x128 .f32) (xs0 : Vec F S8x2048x64 .bf16) (y : S8x2048x64.Idx) (hy : (y 0).val ≠ (i 2).val) :
    sout0_A_0 c i arg3 harg3 arg4 harg4 arg5 harg5 arg6 harg6 arg7 harg7 arg8 harg8 arg9 harg9 arg10 harg10 hc0 x0 x1 x2 x3 x4 x5 xs0 y = xs0 y := by
  unfold sout0_A_0 kernelRun0_A
  dsimp only
  sl_unfold_words
  refine (View.read_writes_cons_unit_of_not_mem arg10.view (harg10.unread xs0) (k0_off2_inb i hc0) _ [] y (k0_off2_eq i) 0 ?_).trans ?_
  · show (y 0).val < (i 2).val ∨ (i 2).val + 1 ≤ (y 0).val
    omega
  · show arg10.view.read (Elt F) (harg10.unread xs0) y = xs0 y
    rw [harg10.read_unread]

end Cert.Kernel.Hand

end
-- ==== Proof.KFrame.lean ====
/-
  The frame of the program's one pipelined kernel, point by point. The grid runs batch, then query tile, then head
  (the head fastest): point t has batch t / 32, query tile (t / 8) mod 4 and head t mod 8. At the eight points of a
  batch's query tile 0 (t mod 32 < 8) the body first stores the head's normalised rotary keys into that head's slab
  of the key cache; at every point it reads the head's slab back and stores the softmax tile of the scaled unit
  queries against it. The invariant carried from point to point says exactly what later points need: before point n
  the slabs of the heads h < n mod 32 hold the keys computed at the point (n / 32)·32 + h of the current batch — the
  other slabs hold anything. With it the tile stored at point t is a function of the argument arrays alone: the
  tile of the point's own query-side blocks against the keys computed at the point of its batch and head in query
  tile 0.
-/
import proofs.«424914_j88493506166997_3_alg».proof.Proof.KFramePieces
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The keys of a point, and the point that fills a point's head -/

/-- The head's 64 rows of the key weights lie inside the key half at every point. -/
theorem off1_inb_all : ∀ t : Fin cfg0.N, ∀ a, (k0_off1 (grid0.coords t)) a + S64x512.size a ≤ S512x512.size a :=
  (by decide +kernel : ∀ t : Fin grid0.N, ∀ a, (k0_off1 (grid0.coords t)) a + S64x512.size a ≤ S512x512.size a)

/-- The head coordinate of point t is t mod 8. -/
theorem coords2 : ∀ t : Fin cfg0.N, ((grid0.coords t) 2).val = t.val % 8 :=
  (by decide +kernel : ∀ t : Fin grid0.N, ((grid0.coords t) 2).val = t.val % 8)

/-- The slab of unit keys that the blocks of point `t` determine: its batch's tokens, the whole rotary table and its
    head's rows of the key weights. -/
def keysAt (c : Dev nD) (t : Fin cfg0.N) : Vec F S1x2048x64 .bf16 :=
  keysOf (iblk m c 1 t) (iblk m c 5 t)
    (View.ld (iblk m c 3 t : Vec F S512x512 .f32) (Rect.unit (s := S512x512) (k0_off1 (grid0.coords t)) S64x512.size (off1_inb_all t)))

/-- The point of `t`'s batch and head in query tile 0: where `t`'s head was filled. -/
def fillPt (t : Fin cfg0.N) : Fin cfg0.N :=
  ⟨(t.val / 32) * 32 + t.val % 8, by have h1 := t.isLt; have h2 : cfg0.N = 64 := N_0; omega⟩

/-- The tile the body stores at point `t`. -/
def tileAt (c : Dev nD) (t : Fin cfg0.N) : Vec F S1x1x512x2048 .f32 :=
  tileOf (iblk m c 0 t) (iblk m c 2 t) (iblk m c 4 t) (keysAt m c (fillPt t))

/-- The key cache before point `n`: the heads already filled in the current batch hold that batch's keys. -/
def Inv (c : Dev nD) (n : ℕ) (xs : Vec F S8x2048x64 .bf16) : Prop :=
  ∀ (h : Fin 8) (hh : (n / 32) * 32 + h.val < cfg0.N), h.val < n % 32 → ∀ (j : Fin 2048) (d : Fin 64),
    xs (ix3 h j d) = keysAt m c ⟨(n / 32) * 32 + h.val, hh⟩ (ix3 0 j d)

/-- The region invariant before point `n`: the key cache at contents satisfying `Inv`, the generator register at some state. -/
def PhiS (c : Dev nD) (n : ℕ) : sProp 𝕄 :=
  iprop((∃ xs, ⌜Inv m c n xs⌝ ∗ owns (c : Thread nD τ) scM0_0 fullShare xs) ∗ (∃ r, prngReg c r))

/-! ## The proof data -/

/-- The proof data of the pipeline on core `c`: the arrays as the region finds them; after the body each input's
    buffer at its block and the output's at the point's tile; the invariant `PhiS`; nothing owed; the two windows on
    one array hold its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAt m c t
  Φ t := PhiS m c t.val
  q := fun | 0 => fullShare.left | 1 => fullShare.right | 2 => fullShare.left | 3 => fullShare.right | 4 => fullShare.left | 5 => fullShare.right | 6 => fullShare | ⟨_ + 7, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = tileAt m c t := by dsimp only [dats]

/-! ## Reading the key cache through a head's slab -/

/-- The index the body's slab load reads at position `y`: head `i 2`, token `y 1`, feature `y 2`. -/
theorem slabR_idx (i : grid0.Coords) (y : S1x2048x64.Idx) :
    (slabR i).idx y = (ix3 (i 2) (y 1) (y 2) : S8x2048x64.Idx) := by
  funext a
  refine Fin.ext ?_
  show (k0_off3 i) a + 1 * (y a).val = _
  rw [k0_off3_eq]
  match a with
  | ⟨0, _⟩ => have hy0 : (y 0).val < 1 := (y 0).isLt; show (i 2).val + 1 * (y 0).val = (i 2).val; omega
  | ⟨1, _⟩ => show 0 + 1 * (y 1).val = (y 1).val; omega
  | ⟨2, _⟩ => show 0 + 1 * (y 2).val = (y 2).val; omega

/-- The index the fill's slab store writes at position `y`. -/
theorem slabW_emb (i : grid0.Coords) (hc0 : cond0_0 i) (y : S1x2048x64.Idx) :
    (slabW i hc0).emb y = (ix3 (i 2) (y 1) (y 2) : S8x2048x64.Idx) := by
  funext a
  refine Fin.ext ?_
  show (k0_off2 i) a + 1 * (y a).val = _
  rw [k0_off2_eq]
  match a with
  | ⟨0, _⟩ => have hy0 : (y 0).val < 1 := (y 0).isLt; show (i 2).val + 1 * (y 0).val = (i 2).val; omega
  | ⟨1, _⟩ => show 0 + 1 * (y 1).val = (y 1).val; omega
  | ⟨2, _⟩ => show 0 + 1 * (y 2).val = (y 2).val; omega

/-- A position of a one-head slab is (0, token, feature). -/
theorem slab_pos (y : S1x2048x64.Idx) : y = (ix3 0 (y 1) (y 2) : S1x2048x64.Idx) := by
  funext a
  match a with
  | ⟨0, _⟩ => exact Fin.ext (by have hy0 : (y 0).val < 1 := (y 0).isLt; show (y 0).val = 0; omega)
  | ⟨1, _⟩ => rfl
  | ⟨2, _⟩ => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' memrefs hold their blocks; the closed form of the branch condition says
    which run applies; the invariant hands the body the key cache and takes it back — after a fill with the head's
    slab at the point's keys and the others untouched, otherwise unchanged —, and the output's buffer ends at the
    point's tile, which reads the head's slab: the one just stored, or the one the invariant vouches for. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  unfold PhiS
  have hN : t.val < 64 := lt_of_lt_of_eq t.isLt N_0
  have hc2 := coords2 t
  by_cases h0 : t.val % 32 < 8
  · have hc : cond0_0 (grid0.coords t) := (hcond0_0 t).mpr h0
    have hfill : fillPt t = t := Fin.ext (by show (t.val / 32) * 32 + t.val % 8 = t.val; omega)
    iintro ⟨⟨⟨%xs, %hinv, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0 Hg]
    · isplitl [HS0]
      · iexists (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs)
        isplitr
        · ipureintro
          intro h hh hlt j d
          by_cases hh2 : h.val = t.val % 8
          · have e1 : (ix3 h j d : S8x2048x64.Idx) = (slabW (grid0.coords t) hc).emb (ix3 0 j d : S1x2048x64.Idx) := by
              rw [slabW_emb]; funext a
              match a with
              | ⟨0, _⟩ => exact Fin.ext (by show h.val = ((grid0.coords t) 2).val; omega)
              | ⟨1, _⟩ => rfl
              | ⟨2, _⟩ => rfl
            rw [e1, sout0_A_0_in]
            have e2 : (⟨((t.val + 1) / 32) * 32 + h.val, hh⟩ : Fin cfg0.N) = t := Fin.ext (by show ((t.val + 1) / 32) * 32 + h.val = t.val; omega)
            rw [e2]; rfl
          · have hlt' : h.val < t.val % 32 := by omega
            have hh' : (t.val / 32) * 32 + h.val < cfg0.N := by have h2 : cfg0.N = 64 := N_0; omega
            rw [sout0_A_0_out _ _ _ _ _ _ _ _ _ _ _ _ _ _ _ _ _ _ _ _ _ _ _ _ _ _ (ix3 h j d) (by show h.val ≠ ((grid0.coords t) 2).val; omega)]
            have e2 : (⟨((t.val + 1) / 32) * 32 + h.val, hh⟩ : Fin cfg0.N) = ⟨(t.val / 32) * 32 + h.val, hh'⟩ := Fin.ext (by show ((t.val + 1) / 32) * 32 + h.val = (t.val / 32) * 32 + h.val; omega)
            rw [e2]; exact hinv h hh' hlt' j d
        · unfold owns; iexists _; isplitr
          · ipureintro; rfl
          · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    refine (View.read_writes_of_cover _ _ VO0_6 VO0_6.junk _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs)).trans ?_
    refine (out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).trans ?_
    unfold tileAt; rw [hfill]; rfl
  · have hc : ¬cond0_0 (grid0.coords t) := fun h => h0 ((hcond0_0 t).mp h)
    iintro ⟨⟨⟨%xs, %hinv, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0 Hg]
    · isplitl [HS0]
      · iexists xs
        isplitr
        · ipureintro
          intro h hh hlt j d
          have h2 : cfg0.N = 64 := N_0
          have hne : (t.val + 1) % 32 ≠ 0 := by omega
          have hh' : (t.val / 32) * 32 + h.val < cfg0.N := by omega
          have e2 : (⟨((t.val + 1) / 32) * 32 + h.val, hh⟩ : Fin cfg0.N) = ⟨(t.val / 32) * 32 + h.val, hh'⟩ := Fin.ext (by show ((t.val + 1) / 32) * 32 + h.val = (t.val / 32) * 32 + h.val; omega)
          rw [e2]; exact hinv h hh' (by have := h.isLt; omega) j d
        · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    refine (View.read_writes_of_cover _ _ VO0_6 VO0_6.junk _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs)).trans ?_
    refine (out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc (iblk m c 0 t) (iblk m c 1 t) (iblk m c 2 t) (iblk m c 3 t) (iblk m c 4 t) (iblk m c 5 t) xs).trans ?_
    unfold tileAt
    refine congrArg (tileOf (iblk m c 0 t) (iblk m c 2 t) (iblk m c 4 t)) ?_
    funext y
    show xs ((slabR (grid0.coords t)).idx y) = keysAt m c (fillPt t) y
    have hh' : (t.val / 32) * 32 + t.val % 8 < cfg0.N := (fillPt t).isLt
    have hy := slab_pos y
    rw [slabR_idx]
    have e3 : (ix3 ((grid0.coords t) 2) (y 1) (y 2) : S8x2048x64.Idx) = ix3 (⟨t.val % 8, by omega⟩ : Fin 8) (y 1) (y 2) := by
      funext a
      match a with
      | ⟨0, _⟩ => exact Fin.ext hc2
      | ⟨1, _⟩ => rfl
      | ⟨2, _⟩ => rfl
    refine ((congrArg xs e3).trans (hinv ⟨t.val % 8, by omega⟩ hh' (by show t.val % 8 < t.val % 32; omega) (y 1) (y 2))).trans ?_
    exact (congrArg (keysAt m c (fillPt t)) hy).symm

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no head is filled yet. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS0⟩, Hg⟩
  isplitl [HS0]
  · iexists d; isplitr
    · ipureintro; intro h hh hlt; exact absurd hlt (by show ¬ h.val < 0 % 32; omega)
    · iexact HS0
  iexact Hg

/-- After the last point the invariant gives the class invariant back: what the key cache holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%xs, -, HS0⟩, Hg⟩
  isplitl [HS0]
  · iexists xs; iexact HS0
  iexact Hg

end Cert.Kernel.Hand

end
-- ==== Proof.KLaunch.lean ====
/-
  The frame run of this program's one pipelined kernel, whose three input arrays are each handed to two windows
  (windows 0 and 1 read argument 0, windows 2 and 3 argument 3, windows 4 and 5 the joined cosine|sine table; window 6
  writes the result). The launch gives the pipeline each of the four buffers behind the windows whole at the full
  share; the two windows on one buffer take its two halves, which together are the full share, and the output
  window keeps its buffer whole. From any proof data that reads its arrays off the region-entry contents, lends those
  halves, owes nothing, satisfies the body obligation, and whose invariant the class invariant yields before the
  first point and that yields it back after the last: every weakly fair run of the program ends, with the result
  buffer at what the proof data computes after every write-back and the four arguments as launched (the two that
  the windows read, because an input window's array is never written; the two that bypass the region, because
  they are held whole across it and the one host operation before it writes neither).
-/
import proofs.«424914_j88493506166997_3_alg».proof.Proof.KFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of each input window's array: the two windows on one array hold its two halves. -/
def halves : Fin 7 → PosShare TreeShare := fun | 0 => fullShare.left | 1 => fullShare.right | 2 => fullShare.left | 3 => fullShare.right | 4 => fullShare.left | 5 => fullShare.right | 6 => fullShare | ⟨_ + 7, h⟩ => absurd h (Nat.not_lt.2 (Nat.le_add_left _ _))

/-- With the halves as the inputs' shares, every window holds its array at `halves`: an input at its own share, the
    output at the full share. -/
theorem share_halves (c : Dev nD) (dat : Dat τ (Elt F) Unit ℕ (UR sig nD τ) ℕ cfg0 c) (hq : ∀ w, dat.q w = halves w) :
    ∀ w, dat.share w = halves w := fun w => by
  unfold Dat.share; rw [hq]
  match w with
  | 0 => rfl | 1 => rfl | 2 => rfl | 3 => rfl | 4 => rfl | 5 => rfl | 6 => rfl

/-- A buffer held whole at the full share is held at its two halves: the full share is their composite. -/
theorem full_to_halves {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1

/-- The four buffers behind the windows, each whole at the full share at the region-entry contents, make the seven
    windows' arrays at entry: a buffer read by two windows is split into its two halves. -/
theorem arrays_of_halves (c : Dev nD) (dat : Dat τ (Elt F) Unit ℕ (UR sig nD τ) ℕ cfg0 c)
    (hA : ∀ w, dat.A w = V m c (Pipeline.arrRef spec0 w)) (hq : ∀ w, dat.q w = halves w) :
    (Pipeline.arrBufs spec0 c (V m c) : sProp 𝕄) ⊢ dat.arrays (dat.arrAt · 0) := by
  classical
  -- the windows' arrays are whole buffers, held at the halves, at the region-entry contents
  have harr : dat.arrays (dat.arrAt · 0)
      = bigSep Finset.univ fun w : Fin 7 => (((c.tc : Thread nD τ).loc (Pipeline.arrRef spec0 w)) ↦{halves w} V m c (Pipeline.arrRef spec0 w) : sProp 𝕄) := by
    unfold Dat.arrays
    exact bigSep_congr fun w _ => by
      rw [(arr_whole0 w).set_eq_univ, share_halves c dat hq w]
      exact congrArg (fun f => (((c.tc : Thread nD τ).loc (Pipeline.arrRef spec0 w)) ↦{halves w} f : sProp 𝕄)) (hA w)
  rw [harr, bigSep_W0]
  unfold Pipeline.arrBufs
  -- the buffers behind the seven windows are these four
  rw [bigSep_eq_bigSepL_of_eq (M := 𝕄) [main_arg0, main_arg3, main_v0, main_v1] (by decide) (by decide)]
  refine (show (iprop((((c.tc : Thread nD τ).loc main_arg0) ↦{fullShare} V m c main_arg0) ∗ (((c.tc : Thread nD τ).loc main_arg3) ↦{fullShare} V m c main_arg3)
        ∗ (((c.tc : Thread nD τ).loc main_v0) ↦{fullShare} V m c main_v0) ∗ (((c.tc : Thread nD τ).loc main_v1) ↦{fullShare} V m c main_v1)) : sProp 𝕄)
      ⊢ iprop((((c.tc : Thread nD τ).loc main_arg0) ↦{fullShare.left} V m c main_arg0) ∗ (((c.tc : Thread nD τ).loc main_arg0) ↦{fullShare.right} V m c main_arg0)
        ∗ (((c.tc : Thread nD τ).loc main_arg3) ↦{fullShare.left} V m c main_arg3) ∗ (((c.tc : Thread nD τ).loc main_arg3) ↦{fullShare.right} V m c main_arg3)
        ∗ (((c.tc : Thread nD τ).loc main_v0) ↦{fullShare.left} V m c main_v0) ∗ (((c.tc : Thread nD τ).loc main_v0) ↦{fullShare.right} V m c main_v0)
        ∗ (((c.tc : Thread nD τ).loc main_v1) ↦{fullShare} V m c main_v1)) from ?_)
  iintro ⟨H0, H3, H4, H6⟩
  -- each buffer that two windows read goes to them by halves; the result's buffer stays whole
  ihave G0 := (full_to_halves (V m c main_arg0)) $$ H0
  ihave G3 := (full_to_halves (V m c main_arg3)) $$ H3
  ihave G4 := (full_to_halves (V m c main_v0)) $$ H4
  icases G0 with ⟨H0l, H0r⟩
  icases G3 with ⟨H3l, H3r⟩
  icases G4 with ⟨H4l, H4r⟩
  isplitl [H0l]; · iexact H0l
  isplitl [H0r]; · iexact H0r
  isplitl [H3l]; · iexact H3l
  isplitl [H3r]; · iexact H3r
  isplitl [H4l]; · iexact H4l
  isplitl [H4r]; · iexact H4r
  iexact H6

theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = halves w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v1) = (dats 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  refine Pipeline.θ_run_region_pf (pcfgs (F := F)) (fun p => (cfgs p).toPCfg_adm) dats () cellOf_inj 0 winFacts₀0
    (Pipeline.OwnSemFacts.none _) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := ?hu0) (V := V m) (hmain := hmain m Variants.none)
    (hsplit := fun c => arrays_of_halves m c (dats 0 c) (hA c) (hq c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := ?hX) (hin := ?hin) (hout := ?hout)
    (QY := fun c s => ∀ b ∈ Pipeline.restRefs sig spec0, s.mem ((c.tc : Thread nD τ).loc b) = V m c b)
    (hY := ?hY) (hQ := ?hQ)
  case hu0 =>
    -- the launch element is the pipeline's own, and nothing else is minted
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hX =>
    -- of what the launch leaves beside the arrays, the generator register goes to the body and the bypassing buffers wait
    intro c
    rw [Pipeline.unscopedRestP_none]
    iintro ⟨HU, -, -, -, Hp, -⟩; imodintro
    isplitl [Hp]
    · iexists _; iexact Hp
    iexact HU
  case hin =>
    intro c
    refine (show _ ⊢ Pipeline.ΦA spec0 c from ?_).trans (hin c)
    unfold Pipeline.ΦA
    iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case hY =>
    -- the bypassing buffers, held whole, are read against the final state
    intro c s'
    iintro ⟨-, HU, HSI⟩
    unfold Pipeline.unscopedRest
    imodintro
    iapply (pointsTo_read_all (Pipeline.restRefs sig spec0) (fun b => (c.tc : Thread nD τ).loc b) (V m c) s')
    isplitl [HU] <;> iassumption
  case hQ =>
    intro s h c
    obtain ⟨hw, -, hr⟩ := h c
    refine ⟨hw 6, ?_, ?_, ?_, ?_⟩
    · exact (hw 0).trans (((dats 0 c).arrAt_in 0 rfl _).trans ((hA c 0).trans (V_main_arg0 m c)))
    · exact (hr main_arg1 (Pipeline.mem_restRefs_of main_arg1 (by decide) (by decide))).trans (V_main_arg1 m c)
    · exact (hr main_arg2 (Pipeline.mem_restRefs_of main_arg2 (by decide) (by decide))).trans (V_main_arg2 m c)
    · exact (hw 2).trans (((dats 0 c).arrAt_in 2 rfl _).trans ((hA c 2).trans (V_main_arg3 m c)))

end Cert.Kernel.Hand

end
-- ==== Proof.KFrameRun.lean ====
/-
  The run of the program: every weakly fair execution terminates without a fault, the result array ends holding what
  the point-by-point write-backs of the tiles leave, and the four argument arrays end unchanged.
-/
import proofs.«424914_j88493506166997_3_alg».proof.Proof.KFrame
import proofs.«424914_j88493506166997_3_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem q_halves (c : Dev nD) (w : Fin 7) : (dats m 0 c).q w = halves w := by
  fin_cases w <;> rfl

theorem run_main : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (dats m) (A_eq m) (q_halves m) (fun _ _ => rfl) (fun c => (body_obligation m c).loose) (hin m) (hout m)

end Cert.Kernel.Hand

end
-- ==== Proof.Blocks.lean ====
/-
  Each pipeline window's block at a grid point, read off the ARGUMENT ARRAYS at an index.

  The grid is (batch, query tile, head) = (2, 4, 8) with the head innermost, so point `t` has batch `t / 32`, query tile
  `t / 8 % 4` and head `t % 8`. A block's coordinate on an axis is its block index times the block's extent plus the
  coordinate inside the block. Windows 0 and 1 read the tokens (the query tile's 512 rows; all 2048 rows of the batch),
  windows 2 and 3 the weights (the head's 64 query rows; the whole key half, rows 512 to 1023), windows 4 and 5 the
  [2048, 128] table that joins the cosines (columns 0 to 63) and the sines (columns 64 to 127) (the query tile's 512
  rows; the whole table), and window 6 is the result in [1, 1, 512, 2048] blocks at (batch, head, query tile, 0), which
  tile it.
-/
import proofs.«424914_j88493506166997_3_alg».proof.Proof.FrameShared
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The grid and the printed index maps

The grid is (batch, query tile, head) = (2, 4, 8) with the head innermost, so point `t` is batch `t / 32`, query tile
`t / 8 % 4`, head `t % 8`. Each window's block index at `t` is decided once over the 64 points. -/

/-- A grid point is below 64. -/
theorem pt_lt (t : Fin cfg0.N) : t.val < 64 := lt_of_lt_of_eq t.isLt N_0

/-- Window 0 (tokens, query tile): block (batch, query tile, 0). -/
theorem idx0 : ∀ t : Fin cfg0.N, win0_0.index t (0 : Fin 3) = t.val / 32 ∧ win0_0.index t (1 : Fin 3) = t.val / 8 % 4
    ∧ win0_0.index t (2 : Fin 3) = 0 :=
  (by decide +kernel : ∀ t : Fin grid0.N, win0_0.index t (0 : Fin 3) = t.val / 32 ∧ win0_0.index t (1 : Fin 3) = t.val / 8 % 4
    ∧ win0_0.index t (2 : Fin 3) = 0)

/-- Window 1 (tokens, all of a batch): block (batch, 0, 0). -/
theorem idx1 : ∀ t : Fin cfg0.N, win0_1.index t (0 : Fin 3) = t.val / 32 ∧ win0_1.index t (1 : Fin 3) = 0
    ∧ win0_1.index t (2 : Fin 3) = 0 :=
  (by decide +kernel : ∀ t : Fin grid0.N, win0_1.index t (0 : Fin 3) = t.val / 32 ∧ win0_1.index t (1 : Fin 3) = 0
    ∧ win0_1.index t (2 : Fin 3) = 0)

/-- Window 2 (weights, the head's query rows): block (head, 0). -/
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)

/-- Window 3 (weights, the key half): block (1, 0) at every point. -/
theorem idx3 : ∀ t : Fin cfg0.N, win0_3.index t (0 : Fin 2) = 1 ∧ win0_3.index t (1 : Fin 2) = 0 :=
  (by decide +kernel : ∀ t : Fin grid0.N, win0_3.index t (0 : Fin 2) = 1 ∧ win0_3.index t (1 : Fin 2) = 0)

/-- Window 4 (cosine|sine table, query tile): block (query tile, 0). -/
theorem idx4 : ∀ t : Fin cfg0.N, win0_4.index t (0 : Fin 2) = t.val / 8 % 4 ∧ win0_4.index t (1 : Fin 2) = 0 :=
  (by decide +kernel : ∀ t : Fin grid0.N, win0_4.index t (0 : Fin 2) = t.val / 8 % 4 ∧ win0_4.index t (1 : Fin 2) = 0)

/-- Window 5 (cosine|sine table, whole): block (0, 0) at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6 (the result): block (batch, head, query tile, 0). -/
theorem idx6 : ∀ t : Fin cfg0.N, win0_6.index t (0 : Fin 4) = t.val / 32 ∧ win0_6.index t (1 : Fin 4) = t.val % 8
    ∧ win0_6.index t (2 : Fin 4) = t.val / 8 % 4 ∧ win0_6.index t (3 : Fin 4) = 0 :=
  (by decide +kernel : ∀ t : Fin grid0.N, win0_6.index t (0 : Fin 4) = t.val / 32 ∧ win0_6.index t (1 : Fin 4) = t.val % 8
    ∧ win0_6.index t (2 : Fin 4) = t.val / 8 % 4 ∧ win0_6.index t (3 : Fin 4) = 0)

/-! ## The token and weight windows

A block's coordinate on an axis is the block index times the block's extent plus the coordinate inside the block; the
host operation leaves the token and weight arrays as launched. -/

/-- Window 0 at point `t`: rows `512·(query tile) + i` of batch `t / 32` of the tokens. -/
theorem blk0_apply (c : Dev nD) (t : Fin cfg0.N) (i k : Fin 512) :
    (iblk m c 0 t : Vec F S1x512x512 .f32) (ix3 0 i k)
      = m ((c : Thread nD τ).loc main_arg0)
          (ix3 ⟨t.val / 32, by have := pt_lt t; omega⟩ ⟨(t.val / 8 % 4) * 512 + i.val, by have := i.isLt; omega⟩ k) := by
  obtain ⟨e0, e1, e2⟩ := idx0 t
  unfold iblk
  show V m c main_arg0 (((cfg0.win 0).blk t).view.emb (ix3 0 i k)) = _
  rw [V_main_arg0]
  refine congrArg _ ?_
  funext a; apply Fin.ext
  match a with
  | ⟨0, _⟩ => show win0_0.index t (0 : Fin 3) * 1 + 1 * 0 = t.val / 32; omega
  | ⟨1, _⟩ => show win0_0.index t (1 : Fin 3) * 512 + 1 * i.val = (t.val / 8 % 4) * 512 + i.val; omega
  | ⟨2, _⟩ => show win0_0.index t (2 : Fin 3) * 512 + 1 * k.val = k.val; omega

/-- Window 1 at point `t`: all 2048 tokens of batch `t / 32`. -/
theorem blk1_apply (c : Dev nD) (t : Fin cfg0.N) (j : Fin 2048) (k : Fin 512) :
    (iblk m c 1 t : Vec F S1x2048x512 .f32) (ix3 0 j k)
      = m ((c : Thread nD τ).loc main_arg0) (ix3 ⟨t.val / 32, by have := pt_lt t; omega⟩ j k) := by
  obtain ⟨e0, e1, e2⟩ := idx1 t
  unfold iblk
  show V m c main_arg0 (((cfg0.win 1).blk t).view.emb (ix3 0 j k)) = _
  rw [V_main_arg0]
  refine congrArg _ ?_
  funext a; apply Fin.ext
  match a with
  | ⟨0, _⟩ => show win0_1.index t (0 : Fin 3) * 1 + 1 * 0 = t.val / 32; omega
  | ⟨1, _⟩ => show win0_1.index t (1 : Fin 3) * 2048 + 1 * j.val = j.val; omega
  | ⟨2, _⟩ => show win0_1.index t (2 : Fin 3) * 512 + 1 * k.val = k.val; omega

/-- Window 2 at point `t`: the 64 query-half weight rows of head `t % 8`. -/
theorem blk2_apply (c : Dev nD) (t : Fin cfg0.N) (d : Fin 64) (k : Fin 512) :
    (iblk m c 2 t : Vec F S64x512 .f32) (ix2 d k)
      = m ((c : Thread nD τ).loc main_arg3) (ix2 ⟨(t.val % 8) * 64 + d.val, by have := d.isLt; omega⟩ k) := by
  obtain ⟨e0, e1⟩ := idx2 t
  unfold iblk
  show V m c main_arg3 (((cfg0.win 2).blk t).view.emb (ix2 d k)) = _
  rw [V_main_arg3]
  refine congrArg _ ?_
  funext a; apply Fin.ext
  match a with
  | ⟨0, _⟩ => show win0_2.index t (0 : Fin 2) * 64 + 1 * d.val = (t.val % 8) * 64 + d.val; omega
  | ⟨1, _⟩ => show win0_2.index t (1 : Fin 2) * 512 + 1 * k.val = k.val; omega

/-- Window 3 at every point: the key half of the weights, rows 512 to 1023. -/
theorem blk3_apply (c : Dev nD) (t : Fin cfg0.N) (r k : Fin 512) :
    (iblk m c 3 t : Vec F S512x512 .f32) (ix2 r k)
      = m ((c : Thread nD τ).loc main_arg3) (ix2 ⟨512 + r.val, by have := r.isLt; omega⟩ k) := by
  obtain ⟨e0, e1⟩ := idx3 t
  unfold iblk
  show V m c main_arg3 (((cfg0.win 3).blk t).view.emb (ix2 r k)) = _
  rw [V_main_arg3]
  refine congrArg _ ?_
  funext a; apply Fin.ext
  match a with
  | ⟨0, _⟩ => show win0_3.index t (0 : Fin 2) * 512 + 1 * r.val = 512 + r.val; omega
  | ⟨1, _⟩ => show win0_3.index t (1 : Fin 2) * 512 + 1 * k.val = k.val; omega

/-! ## The cosine|sine table

The one host operation joins the cosine and sine tables along the feature axis: columns 0 to 63 are the cosines,
columns 64 to 127 the sines. -/

/-- The joined table at row `n`, column `e`: the cosine at `(n, e)` below column 64, the sine at `(n, e - 64)` from there on. -/
theorem tab_apply (c : Dev nD) (n : Fin 2048) (e : Fin 128) :
    (V m c main_v0 : S2048x128.Idx → Elt F .f32) (ix2 n e)
      = if h : e.val < 64 then m ((c : Thread nD τ).loc main_arg1) (ix2 n ⟨e.val, h⟩)
        else m ((c : Thread nD τ).loc main_arg2) (ix2 n ⟨e.val - 64, by have := e.isLt; omega⟩) := by
  have E : (V m c main_v0 : S2048x128.Idx → Elt F .f32)
      = concatenate S2048x128 1 [⟨S2048x64, m ((c : Thread nD τ).loc main_arg1)⟩, ⟨S2048x64, m ((c : Thread nD τ).loc main_arg2)⟩]
          concatenates_S2048x64_S2048x64_S2048x128_d1 := by
    dsimp only [V, hostOps0]; after_results
  rw [E]
  split
  · next h =>
    exact concatenate_pair_apply_left (t := S2048x128) (s₁ := S2048x64) (s₂ := S2048x64) (1 : Fin 2) _ _ _ (ix2 n e) rfl (ix2 n ⟨e.val, h⟩)
      (fun b => by match b with | ⟨0, _⟩ => rfl | ⟨1, _⟩ => rfl)
  · next h =>
    exact concatenate_pair_apply_right (t := S2048x128) (s₁ := S2048x64) (s₂ := S2048x64) (1 : Fin 2) _ _ _ (ix2 n e) rfl rfl (ix2 n ⟨e.val - 64, by have := e.isLt; omega⟩)
      (fun b hb => by match b with | ⟨0, _⟩ => rfl | ⟨1, _⟩ => exact absurd rfl hb)
      (by show (e.val - 64) + 64 = e.val; omega)

/-- Window 4 at point `t`: rows `512·(query tile) + i` of the joined table. -/
theorem blk4_apply (c : Dev nD) (t : Fin cfg0.N) (i : Fin 512) (e : Fin 128) :
    (iblk m c 4 t : Vec F S512x128 .f32) (ix2 i e)
      = if h : e.val < 64 then
          m ((c : Thread nD τ).loc main_arg1) (ix2 ⟨(t.val / 8 % 4) * 512 + i.val, by have := i.isLt; omega⟩ ⟨e.val, h⟩)
        else m ((c : Thread nD τ).loc main_arg2)
          (ix2 ⟨(t.val / 8 % 4) * 512 + i.val, by have := i.isLt; omega⟩ ⟨e.val - 64, by have := e.isLt; omega⟩) := by
  obtain ⟨e0, e1⟩ := idx4 t
  refine Eq.trans ?_ (tab_apply m c ⟨(t.val / 8 % 4) * 512 + i.val, by have := i.isLt; omega⟩ e)
  unfold iblk
  show V m c main_v0 (((cfg0.win 4).blk t).view.emb (ix2 i e)) = _
  refine congrArg _ ?_
  funext a; apply Fin.ext
  match a with
  | ⟨0, _⟩ => show win0_4.index t (0 : Fin 2) * 512 + 1 * i.val = (t.val / 8 % 4) * 512 + i.val; omega
  | ⟨1, _⟩ => show win0_4.index t (1 : Fin 2) * 128 + 1 * e.val = e.val; omega

/-- Window 5 at every point: the whole joined table. -/
theorem blk5_apply (c : Dev nD) (t : Fin cfg0.N) (j : Fin 2048) (e : Fin 128) :
    (iblk m c 5 t : Vec F S2048x128 .f32) (ix2 j e)
      = if h : e.val < 64 then m ((c : Thread nD τ).loc main_arg1) (ix2 j ⟨e.val, h⟩)
        else m ((c : Thread nD τ).loc main_arg2) (ix2 j ⟨e.val - 64, by have := e.isLt; omega⟩) := by
  obtain ⟨e0, e1⟩ := idx5 t
  refine Eq.trans ?_ (tab_apply m c j e)
  unfold iblk
  show V m c main_v0 (((cfg0.win 5).blk t).view.emb (ix2 j e)) = _
  refine congrArg _ ?_
  funext a; apply Fin.ext
  match a with
  | ⟨0, _⟩ => show win0_5.index t (0 : Fin 2) * 2048 + 1 * j.val = j.val; omega
  | ⟨1, _⟩ => show win0_5.index t (1 : Fin 2) * 128 + 1 * e.val = e.val; omega

/-! ## The result window

Point `t` writes the [1, 1, 512, 2048] block at (batch, head, query tile, 0); the 64 blocks tile the result. -/

/-- Where the block of point `t` sits in the result: batch `t / 32`, head `t % 8`, query rows `512·(query tile) + y₂`, all keys. -/
theorem out6_emb (t : Fin cfg0.N) (y : S1x1x512x2048.Idx) :
    (((cfg0.win 6).blk t).view.emb y : S2x8x2048x2048.Idx)
      = (ix4 ⟨t.val / 32, by have := pt_lt t; omega⟩ ⟨t.val % 8, by omega⟩
          ⟨(t.val / 8 % 4) * 512 + (y 2).val, by have h2 : (y 2).val < 512 := (y 2).isLt; omega⟩
          ⟨(y 3).val, (y 3).isLt⟩ : S2x8x2048x2048.Idx) := by
  obtain ⟨e0, e1, e2, e3⟩ := idx6 t
  have h0 : (y 0).val < 1 := (y 0).isLt
  have h1 : (y 1).val < 1 := (y 1).isLt
  funext a; apply Fin.ext
  match a with
  | ⟨0, _⟩ => show win0_6.index t (0 : Fin 4) * 1 + 1 * (y 0).val = t.val / 32; omega
  | ⟨1, _⟩ => show win0_6.index t (1 : Fin 4) * 1 + 1 * (y 1).val = t.val % 8; omega
  | ⟨2, _⟩ => show win0_6.index t (2 : Fin 4) * 512 + 1 * (y 2).val = (t.val / 8 % 4) * 512 + (y 2).val; omega
  | ⟨3, _⟩ => show win0_6.index t (3 : Fin 4) * 2048 + 1 * (y 3).val = (y 3).val; omega

/-- Every index of the result lies in the block of the point (batch, query tile = row / 512, head). -/
theorem out6_cover (o : S2x8x2048x2048.Idx) :
    ∃ t : Fin cfg0.N, ∃ y : S1x1x512x2048.Idx, (((cfg0.win 6).blk t).view.emb y : S2x8x2048x2048.Idx) = o := by
  have h0 : (o 0).val < 2 := (o 0).isLt
  have h1 : (o 1).val < 8 := (o 1).isLt
  have h2 : (o 2).val < 2048 := (o 2).isLt
  have h3 : (o 3).val < 2048 := (o 3).isLt
  refine ⟨⟨(o 0).val * 32 + ((o 2).val / 512) * 8 + (o 1).val, lt_of_lt_of_eq (by omega : _ < 64) N_0.symm⟩,
    ix4 (0 : Fin 1) (0 : Fin 1) (⟨(o 2).val % 512, by omega⟩ : Fin 512) (⟨(o 3).val, h3⟩ : Fin 2048), ?_⟩
  refine (out6_emb _ _).trans ?_
  funext a; apply Fin.ext
  match a with
  | ⟨0, _⟩ => show ((o 0).val * 32 + ((o 2).val / 512) * 8 + (o 1).val) / 32 = (o 0).val; omega
  | ⟨1, _⟩ => show ((o 0).val * 32 + ((o 2).val / 512) * 8 + (o 1).val) % 8 = (o 1).val; omega
  | ⟨2, _⟩ => show (((o 0).val * 32 + ((o 2).val / 512) * 8 + (o 1).val) / 8 % 4) * 512 + (o 2).val % 512 = (o 2).val; omega
  | ⟨3, _⟩ => rfl

end Cert.KernelIdeal.Hand

end
-- ==== Proof.Spec.lean ====
/-
  The mathematics both programs compute, as functions of the four argument arrays at the ideal
  instance (every float an extended real, every operation exact, format changes the identity).

  For batch `b`, token `n`, half `two` (0 = query, 1 = key), head `h` and feature `d`:
  * `proj`   the token's projection on row `two·512 + h·64 + d` of the weight matrix;
  * `roped`  the rotary embedding of that projection: the projection times the cosine table plus its
              rotate-half partner (feature `d + 32` negated for `d < 32`, feature `d - 32` otherwise) times the sine table;
  * `unitv`  the roped vector divided by the larger of its Euclidean norm and the literal 1e-12 (as an f32 word).
  The attention row for query token `i` of head `h` is the softmax over key tokens `j` of the inner product of the
  two unit vectors scaled by 1/64. The two programs spell it differently:
  * `kerOut`: the scale multiplies the query vector BEFORE the inner product, no maximum is subtracted, and the
              exponential is multiplied by the reciprocal `1 / Σ exp`;
  * `refOut`: the scale multiplies the inner product, the row maximum (taken from -∞) is subtracted before the
              exponential, and the exponential is divided by the sum.
  Over finite inputs every intermediate is a real number and the two agree (proved elsewhere).
-/
import Idealize.ShloMosaic.PureOps.Ideal
import Idealize.ShloMosaic.Lib.ValueIdx

noncomputable section

namespace Cert.RotaryAttn

open Idealize.ShloMosaic Idealize.ShloMosaic.ValueIdx

/-- The argument and result shapes, as literals. -/
abbrev SX : Shape := ⟨3, ![2, 2048, 512]⟩
abbrev ST : Shape := ⟨2, ![2048, 64]⟩
abbrev SW : Shape := ⟨2, ![1024, 512]⟩
abbrev SO : Shape := ⟨4, ![2, 8, 2048, 2048]⟩

/-- The three float literals of both programs, as their words. -/
abbrev eps : EReal := Ideal.ofBits .f32 0x2B8CBCCC#32
abbrev c64 : EReal := Ideal.ofBits .f32 0x3C800000#32
abbrev one : EReal := Ideal.ofBits .f32 0x3F800000#32

/-- Row `two·512 + h·64 + d` of the weight matrix. -/
def feat (two : Fin 2) (h : Fin 8) (d : Fin 64) : Fin 1024 :=
  ⟨two.val * 512 + h.val * 64 + d.val, by have := two.isLt; have := h.isLt; have := d.isLt; omega⟩

/-- The rotate-half partner of feature `d`: `d + 32` below 32, `d - 32` from 32 on. -/
def partner (d : Fin 64) : Fin 64 :=
  if h : d.val < 32 then ⟨d.val + 32, by omega⟩ else ⟨d.val - 32, by have := d.isLt; omega⟩

/-- The rotary embedding of a 64-feature vector `p` with cosine row `c` and sine row `s`, at feature `d`. -/
def ropedOf (p c s : Fin 64 → EReal) (d : Fin 64) : EReal :=
  p d * c d + (if d.val < 32 then - p (partner d) else p (partner d)) * s d

/-- A 64-feature vector divided by the larger of its Euclidean norm and `eps`, at feature `d`. -/
def unitOf (r : Fin 64 → EReal) (d : Fin 64) : EReal :=
  Ideal.div (r d) (max (Ideal.sqrt (∑ d' : Fin 64, r d' * r d')) eps)

/-- One softmax row in the kernel's spelling: for a query vector `qs` and key vectors `ks j`, the exponential of the
    inner product at key `j` times the reciprocal of the row's sum of exponentials. -/
def kerRow (qs : Fin 64 → EReal) (ks : Fin 2048 → Fin 64 → EReal) (j : Fin 2048) : EReal :=
  Ideal.exp (∑ d : Fin 64, qs d * ks j d) * Ideal.div one (∑ j' : Fin 2048, Ideal.exp (∑ d : Fin 64, qs d * ks j' d))

variable (x : SX.Idx → EReal) (cs sn : ST.Idx → EReal) (w : SW.Idx → EReal)

def proj (b : Fin 2) (n : Fin 2048) (e : Fin 1024) : EReal :=
  ∑ c : Fin 512, x (ix3 b n c) * w (ix2 e c)

def roped (b : Fin 2) (n : Fin 2048) (two : Fin 2) (h : Fin 8) (d : Fin 64) : EReal :=
  ropedOf (fun d' => proj x w b n (feat two h d')) (fun d' => cs (ix2 n d')) (fun d' => sn (ix2 n d')) d

def unitv (b : Fin 2) (n : Fin 2048) (two : Fin 2) (h : Fin 8) (d : Fin 64) : EReal :=
  unitOf (fun d' => roped x cs sn w b n two h d') d

/-- The kernel's result: the query's unit vector is scaled by 1/64 first. -/
def kerOut (b : Fin 2) (h : Fin 8) (i j : Fin 2048) : EReal :=
  kerRow (fun d => unitv x cs sn w b i 0 h d * c64) (fun j' d => unitv x cs sn w b j' 1 h d) j

/-- The reference's logit: the inner product scaled afterwards. -/
def refLogit (b : Fin 2) (h : Fin 8) (i j : Fin 2048) : EReal :=
  (∑ d : Fin 64, unitv x cs sn w b i 0 h d * unitv x cs sn w b j 1 h d) * c64

/-- The reference's row maximum: a fold of `max` from -∞, then once more against -∞. -/
def refMax (b : Fin 2) (h : Fin 8) (i : Fin 2048) : EReal :=
  max (⊥ : EReal) ((Finset.univ : Finset (Fin 2048)).fold max (⊥ : EReal) (fun j => refLogit x cs sn w b h i j))

def refExp (b : Fin 2) (h : Fin 8) (i j : Fin 2048) : EReal :=
  Ideal.exp (refLogit x cs sn w b h i j - refMax x cs sn w b h i)

/-- The reference's result. -/
def refOut (b : Fin 2) (h : Fin 8) (i j : Fin 2048) : EReal :=
  Ideal.div (refExp x cs sn w b h i j) (0 + ∑ j' : Fin 2048, refExp x cs sn w b h i j')

/-- The result array both programs end with, as one function of the argument arrays (the kernel's spelling). -/
def G : SO.Idx → EReal := fun o => kerOut x cs sn w (o 0) (o 1) (o 2) (o 3)

/-- Every entry of an array is a real number. -/
def AllReal {s : Shape} (a : s.Idx → EReal) : Prop := ∀ i, ∃ r : ℝ, a i = (r : EReal)

end Cert.RotaryAttn

end
-- ==== Proof.Payload.lean ====
/-
  The kernel body's arithmetic read at one index, at the ideal instance (every float an extended real, every
  operation exact, a change of format the identity): the steps the body's payloads share, and the key block's
  transpose.

  * a vector made a column, and a column spread over the lanes, read at `(i, d)`;
  * the lane sum of a matrix at row `i` is the sum over that row;
  * rotate-half: the join along the lanes of (zero minus the upper half) and (the lower half) reads, at lane `d`,
    minus lane `d + 32` below 32 and lane `d - 32` from 32 on;
  * the rotary embedding followed by the division by the larger of the row's Euclidean norm and the literal epsilon
    is the specification's `unitOf (ropedOf …)`;
  * a product `[m, K] × [K, n]` into the zero accumulator reads, at `(i, d)`, the sum over `c` of
    left `(i, c)` times right `(c, d)`: once for each of the body's three products.
-/
import proofs.«424914_j88493506166997_3_alg».proof.Proof.Gen.KernelIdeal.Skeleton
import proofs.«424914_j88493506166997_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.RotaryAttn Idealize.ShloMosaic Idealize.ShloMosaic.ValueIdx

/-! ## A vector as a column, and a column over the lanes -/

/-- A vector `[n]` cast to a column `[n, 1]` reads, at `(i, u)`, the vector at `i`. -/
theorem shapeCast_a_a1_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[n, 1]` broadcast to `[n, m]` reads, at `(i, d)`, the column at `(i, 0)`. -/
theorem broadcastTo_a1_ab_apply {α : Type} {n m : ℕ} (v : (⟨2, ![n, 1]⟩ : Shape).Idx → α)
    (h : (⟨2, ![n, 1]⟩ : Shape).Broadcasts ⟨2, ![n, m]⟩) (i : Fin n) (d : Fin m) :
    broadcastTo ⟨2, ![n, m]⟩ v h (ix2 i d) = v (ix2 i (0 : Fin 1)) := by
  refine broadcastTo_apply v h (ix2 i d) (ix2 i (0 : Fin 1)) fun ax => ?_
  match ax with
  | ⟨0, _⟩ =>
    show i.val = if n = 1 then 0 else i.val
    split
    · have := i.isLt; omega
    · rfl
  | ⟨1, _⟩ => rfl

/-! ## The lane sum at a row -/

/-- The sum over the lanes of an `[n, m]` matrix, read at row `i`, is the sum over `k` of the matrix at `(i, k)`. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (i : Fin n) :
    multiReduction .add [1] ⟨1, ![n]⟩ src 0x00000000#32 h hφ hacc (ix1 i) = ∑ k : Fin m, src (ix2 i k) := by
  refine (Ideal.multiReduction_add_single src _ h hφ hacc (ix1 i)).trans ?_
  refine Finset.sum_congr rfl fun k _ => congrArg src ?_
  funext c
  match c with
  | ⟨0, _⟩ => rfl
  | ⟨1, _⟩ => rfl

/-! ## Rotate-half at a lane -/

/-- The join along the lanes of (zero minus the upper half) and (the lower half) of an `[n, 64]` matrix reads, at
    `(i, d)`, minus the matrix at lane `d + 32` when `d < 32`, and the matrix at lane `d - 32` otherwise: the partner
    lane of the specification, negated in the lower half. -/
theorem rotHalf_apply {n : ℕ} (X : FVec Ideal ⟨2, ![n, 64]⟩ .f32)
    (h0 : (⟨2, ![n, 64]⟩ : Shape).Slices ![0, 0] ⟨2, ![n, 32]⟩)
    (h32 : (⟨2, ![n, 64]⟩ : Shape).Slices ![0, 32] ⟨2, ![n, 32]⟩)
    (hc : Shape.Concatenates [(⟨2, ![n, 32]⟩ : Shape), ⟨2, ![n, 32]⟩] ⟨2, ![n, 64]⟩ 1) (i : Fin n) (d : Fin 64) :
    concatenate (⟨2, ![n, 64]⟩ : Shape) 1
        [⟨⟨2, ![n, 32]⟩, subf (broadcast ⟨2, ![n, 32]⟩ (Scalar.ofBits (F := Ideal) .f32 0x00000000#32))
            (extractStridedSlice ⟨2, ![n, 32]⟩ ![0, 32] X h32)⟩,
         ⟨⟨2, ![n, 32]⟩, extractStridedSlice ⟨2, ![n, 32]⟩ ![0, 0] X h0⟩] hc (ix2 i d)
      = if d.val < 32 then - X (ix2 i (partner d)) else X (ix2 i (partner d)) := by
  by_cases hd : d.val < 32
  · rw [if_pos hd]
    refine (concatenate_pair_apply_left _ _ _ hc (ix2 i d) rfl (ix2 i (⟨d.val, hd⟩ : Fin 32)) (fun b => by
      match b with
      | ⟨0, _⟩ => rfl
      | ⟨1, _⟩ => rfl)).trans ?_
    show (Ideal.ofBits .f32 0x00000000#32 : EReal) - extractStridedSlice ⟨2, ![n, 32]⟩ ![0, 32] X h32 (ix2 i ⟨d.val, hd⟩) = _
    rw [Ideal.ofBits_zero_f32, sub_eq_add_neg, zero_add]
    refine congrArg Neg.neg ?_
    refine slice2_axis1_apply 32 X h32 i ⟨d.val, hd⟩ (partner d) ?_
    show (partner d).val = 32 + d.val
    unfold partner; rw [dif_pos hd]; exact Nat.add_comm _ _
  · rw [if_neg hd]
    have hd' : d.val - 32 < 32 := by have := d.isLt; omega
    refine (concatenate_pair_apply_right _ _ _ hc (ix2 i d) rfl rfl (ix2 i (⟨d.val - 32, hd'⟩ : Fin 32)) (fun b hb => by
      match b with
      | ⟨0, _⟩ => rfl
      | ⟨1, _⟩ => exact absurd rfl hb) (by show d.val - 32 + 32 = d.val; omega)).trans ?_
    refine slice2_axis1_apply 0 X h0 i ⟨d.val - 32, hd'⟩ (partner d) ?_
    show (partner d).val = 0 + (d.val - 32)
    unfold partner; rw [dif_neg hd]; exact (Nat.zero_add _).symm

/-! ## A product `[m, K] × [K, n]` at an index

The argument once, for any dimension record whose operand indices are the plain matrix product's (left `(row, c)`,
right `(c, column)`); then the body's three records, each with its four coordinate facts. -/

/-- A product with one contracted axis, into the zero accumulator: when the left operand is read at (the result's row,
    the contraction coordinate) and the right at (the contraction coordinate, the result's column), its element at
    `(i, d)` is the sum over `c` of left `(i, c)` times right `(c, d)`. -/
theorem dot2_apply {m K n : ℕ} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (lhs : FVec Ideal ⟨2, ![m, K]⟩ φ₁) (rhs : FVec Ideal ⟨2, ![K, n]⟩ φ₂) (i : Fin m) (d : Fin n) :
    matmul D none lhs rhs (constant (F := Ideal) ⟨2, ![m, n]⟩ .f32 0x00000000#32) (ix2 i d)
      = ∑ c : Fin K, lhs (ix2 i c) * rhs (ix2 c d) := by
  refine (Ideal.matmul_constant_zero_apply D none lhs rhs (ix2 i d)).trans ?_
  rw [← Equiv.sum_comp (contrEquiv1 D K hr hs).symm]
  refine Finset.sum_congr rfl fun k _ => ?_
  have hk := contrEquiv1_symm_val D K hr hs k
  have el : D.lhsIdx (ix2 i d) ((contrEquiv1 D K hr hs).symm k) = ix2 i k := funext fun a => Fin.ext (by
    match a with
    | ⟨0, _⟩ => exact hl0 _ _
    | ⟨1, _⟩ => exact (hl1 _ _).trans hk)
  have er : D.rhsIdx (ix2 i d) ((contrEquiv1 D K hr hs).symm k) = ix2 k d := funext fun a => Fin.ext (by
    match a with
    | ⟨0, _⟩ => exact (hr0 _ _).trans hk
    | ⟨1, _⟩ => exact hr1 _ _)
  rw [el, er]

/-! ### The query block's projection, `[512, 512] × [512, 64]` -/

theorem lhs_q_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem lhs_q_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_q_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_q_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl
/-- The query block's projection at `(i, d)`. -/
theorem dot_q_apply {φ₁ φ₂ : FTy} (lhs : FVec Ideal S512x512 φ₁) (rhs : FVec Ideal S512x64 φ₂) (i : Fin 512) (d : Fin 64) :
    matmul dot_S512x512_S512x64_S512x64_1_0_0_1_n_n none lhs rhs (constant (F := Ideal) S512x64 .f32 0x00000000#32) (ix2 i d)
      = ∑ c : Fin 512, lhs (ix2 i c) * rhs (ix2 c d) :=
  dot2_apply dot_S512x512_S512x64_S512x64_1_0_0_1_n_n rfl rfl lhs_q_0 lhs_q_1 rhs_q_0 rhs_q_1 lhs rhs i d

/-! ### The key block's projection, `[2048, 512] × [512, 64]` -/

theorem lhs_k_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide),
    dif_pos (show (0 : Fin S2048x512.rank) ∈ dot_S2048x512_S512x64_S2048x64_1_0_0_1_n_n.lhsNonContracting by decide)]
  rfl
theorem lhs_k_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_k_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_k_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide),
    dif_pos (show (1 : Fin S512x64.rank) ∈ dot_S2048x512_S512x64_S2048x64_1_0_0_1_n_n.rhsNonContracting by decide)]
  rfl
/-- The key block's projection at `(j, d)`. -/
theorem dot_k_apply {φ₁ φ₂ : FTy} (lhs : FVec Ideal S2048x512 φ₁) (rhs : FVec Ideal S512x64 φ₂) (j : Fin 2048) (d : Fin 64) :
    matmul dot_S2048x512_S512x64_S2048x64_1_0_0_1_n_n none lhs rhs (constant (F := Ideal) S2048x64 .f32 0x00000000#32) (ix2 j d)
      = ∑ c : Fin 512, lhs (ix2 j c) * rhs (ix2 c d) :=
  dot2_apply dot_S2048x512_S512x64_S2048x64_1_0_0_1_n_n rfl rfl lhs_k_0 lhs_k_1 rhs_k_0 rhs_k_1 lhs rhs j d

/-! ### The scores, `[512, 64] × [64, 2048]` -/

theorem lhs_s_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem lhs_s_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_s_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_s_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl
/-- The scores at `(i, j)`. -/
theorem dot_s_apply {φ₁ φ₂ : FTy} (lhs : FVec Ideal S512x64 φ₁) (rhs : FVec Ideal S64x2048 φ₂) (i : Fin 512) (j : Fin 2048) :
    matmul dot_S512x64_S64x2048_S512x2048_1_0_0_1_n_n none lhs rhs (constant (F := Ideal) S512x2048 .f32 0x00000000#32) (ix2 i j)
      = ∑ c : Fin 64, lhs (ix2 i c) * rhs (ix2 c j) :=
  dot2_apply dot_S512x64_S64x2048_S512x2048_1_0_0_1_n_n rfl rfl lhs_s_0 lhs_s_1 rhs_s_0 rhs_s_1 lhs rhs i j

/-! ## The rotary embedding, and the division by the row's norm -/

/-- The projection times the cosine table plus its rotate-half times the sine table, read at `(i, d)`, is the
    specification's `ropedOf` of row `i` of the three matrices. -/
theorem rope_apply {n : ℕ} (P C S : FVec Ideal ⟨2, ![n, 64]⟩ .f32)
    (h0 : (⟨2, ![n, 64]⟩ : Shape).Slices ![0, 0] ⟨2, ![n, 32]⟩)
    (h32 : (⟨2, ![n, 64]⟩ : Shape).Slices ![0, 32] ⟨2, ![n, 32]⟩)
    (hc : Shape.Concatenates [(⟨2, ![n, 32]⟩ : Shape), ⟨2, ![n, 32]⟩] ⟨2, ![n, 64]⟩ 1) (i : Fin n) (d : Fin 64) :
    addf (mulf P C) (mulf (concatenate (⟨2, ![n, 64]⟩ : Shape) 1
        [⟨⟨2, ![n, 32]⟩, subf (broadcast ⟨2, ![n, 32]⟩ (Scalar.ofBits (F := Ideal) .f32 0x00000000#32))
            (extractStridedSlice ⟨2, ![n, 32]⟩ ![0, 32] P h32)⟩,
         ⟨⟨2, ![n, 32]⟩, extractStridedSlice ⟨2, ![n, 32]⟩ ![0, 0] P h0⟩] hc) S) (ix2 i d)
      = ropedOf (fun d' => P (ix2 i d')) (fun d' => C (ix2 i d')) (fun d' => S (ix2 i d')) d := by
  show P (ix2 i d) * C (ix2 i d) + concatenate (⟨2, ![n, 64]⟩ : Shape) 1
        [⟨⟨2, ![n, 32]⟩, subf (broadcast ⟨2, ![n, 32]⟩ (Scalar.ofBits (F := Ideal) .f32 0x00000000#32))
            (extractStridedSlice ⟨2, ![n, 32]⟩ ![0, 32] P h32)⟩,
         ⟨⟨2, ![n, 32]⟩, extractStridedSlice ⟨2, ![n, 32]⟩ ![0, 0] P h0⟩] hc (ix2 i d) * S (ix2 i d) = _
  rw [rotHalf_apply P h0 h32 hc i d]
  rfl

/-- A matrix divided, lane by lane, by the larger of the square root of the row's sum of squares and the literal
    epsilon, read at `(i, d)`, is the specification's `unitOf` of row `i`. -/
theorem unit_apply {n : ℕ} (R : FVec Ideal ⟨2, ![n, 64]⟩ .f32)
    (hred : (⟨2, ![n, 64]⟩ : Shape).Reduces [1] ⟨1, ![n]⟩) (hφ : FKind.Formats .f32)
    (hacc : (0x00000000#32 : BitVec 32) = FKind.add.neutral .f32 hφ)
    (hsc : (⟨1, ![n]⟩ : Shape).ShapeCasts ⟨2, ![n, 1]⟩) (hb : (⟨2, ![n, 1]⟩ : Shape).Broadcasts ⟨2, ![n, 64]⟩)
    (i : Fin n) (d : Fin 64) :
    divf R (broadcastTo ⟨2, ![n, 64]⟩
        (maximumf (sqrt (shapeCast ⟨2, ![n, 1]⟩ (multiReduction .add [1] ⟨1, ![n]⟩ (mulf R R) 0x00000000#32 hred hφ hacc) hsc))
          (broadcast ⟨2, ![n, 1]⟩ (Scalar.ofBits (F := Ideal) .f32 0x2B8CBCCC#32))) hb) (ix2 i d)
      = unitOf (fun d' => R (ix2 i d')) d := by
  show Ideal.div (R (ix2 i d)) (broadcastTo ⟨2, ![n, 64]⟩
        (maximumf (sqrt (shapeCast ⟨2, ![n, 1]⟩ (multiReduction .add [1] ⟨1, ![n]⟩ (mulf R R) 0x00000000#32 hred hφ hacc) hsc))
          (broadcast ⟨2, ![n, 1]⟩ (Scalar.ofBits (F := Ideal) .f32 0x2B8CBCCC#32))) hb (ix2 i d)) = _
  rw [broadcastTo_a1_ab_apply]
  show Ideal.div (R (ix2 i d)) (max (Ideal.sqrt (shapeCast ⟨2, ![n, 1]⟩
        (multiReduction .add [1] ⟨1, ![n]⟩ (mulf R R) 0x00000000#32 hred hφ hacc) hsc (ix2 i (0 : Fin 1)))) eps) = _
  rw [shapeCast_a_a1_apply, rowSum_apply]
  rfl

/-! ## The key block, transposed -/

/-- The key block with its unit axis dropped and its two axes swapped reads, at `(d, j)`, the block at `(0, j, d)`. -/
theorem pay4_apply (v34 : Vec Ideal S1x2048x64 .bf16) (d : Fin 64) (j : Fin 2048) :
    k0_pay4 (F := Ideal) v34 (ix2 d j) = v34 (ix3 0 j d) := by
  unfold k0_pay4
  refine (transpose_ix2_apply _ transposes_S2048x64_p1_0_S64x2048 d j).trans ?_
  exact shapeCast_1ab_ab_apply v34 shapeCasts_S1x2048x64_S2048x64 j d

end Cert.KernelIdeal.Hand

end
-- ==== Proof.PayloadQK.lean ====
/-
  The kernel body's query payload and key payload read at one index, at the ideal instance: each is the projection of a
  token on 64 rows of the weight matrix, given its rotary embedding and divided by the larger of its Euclidean norm and
  the literal epsilon — the specification's `unitOf (ropedOf …)` — the query's then multiplied by 1/64.
-/
import proofs.«424914_j88493506166997_3_alg».proof.Proof.Payload

noncomputable section

namespace Cert.KernelIdeal.Hand

open Cert.KernelIdeal Cert.KernelIdeal.Gen Cert.RotaryAttn Idealize.ShloMosaic Idealize.ShloMosaic.ValueIdx

/-! ## The two projections -/

/-- The query block's projection at `(i, d)`: the token block's row `(0, i, ·)` against the weight block's row `(d, ·)`
    (the format changes are the identity, the weight block is read transposed). -/
theorem projQ_apply (v3 : Vec Ideal S1x512x512 .f32) (v5 : Vec Ideal S64x512 .f32) (i : Fin 512) (d : Fin 64) :
    matmul dot_S512x512_S512x64_S512x64_1_0_0_1_n_n none
        (truncf .bf16 (shapeCast S512x512 v3 shapeCasts_S1x512x512_S512x512) bitsLt_bf16_f32)
        (transpose S512x64 [1, 0] (truncf .bf16 v5 bitsLt_bf16_f32) transposes_S64x512_p1_0_S512x64)
        (constant (F := Ideal) S512x64 .f32 0x00000000#32) (ix2 i d)
      = ∑ c : Fin 512, v3 (ix3 0 i c) * v5 (ix2 d c) := by
  refine (dot_q_apply _ _ i d).trans (Finset.sum_congr rfl fun c _ => ?_)
  exact congrArg₂ (· * ·) (shapeCast_1ab_ab_apply v3 shapeCasts_S1x512x512_S512x512 i c)
    (transpose_ix2_apply (truncf (F := Ideal) .bf16 v5 bitsLt_bf16_f32) transposes_S64x512_p1_0_S512x64 c d)

/-- The key block's projection at `(j, d)`, likewise. -/
theorem projK_apply (v48 : Vec Ideal S1x2048x512 .f32) (v58 : Vec Ideal S64x512 .f32) (j : Fin 2048) (d : Fin 64) :
    matmul dot_S2048x512_S512x64_S2048x64_1_0_0_1_n_n none
        (truncf .bf16 (shapeCast S2048x512 v48 shapeCasts_S1x2048x512_S2048x512) bitsLt_bf16_f32)
        (transpose S512x64 [1, 0] (truncf .bf16 v58 bitsLt_bf16_f32) transposes_S64x512_p1_0_S512x64)
        (constant (F := Ideal) S2048x64 .f32 0x00000000#32) (ix2 j d)
      = ∑ c : Fin 512, v48 (ix3 0 j c) * v58 (ix2 d c) := by
  refine (dot_k_apply _ _ j d).trans (Finset.sum_congr rfl fun c _ => ?_)
  exact congrArg₂ (· * ·) (shapeCast_1ab_ab_apply v48 shapeCasts_S1x2048x512_S2048x512 j c)
    (transpose_ix2_apply (truncf (F := Ideal) .bf16 v58 bitsLt_bf16_f32) transposes_S64x512_p1_0_S512x64 c d)

/-! ## The query payload and the key payload -/

/-- The query payload at `(i, d)`: the unit vector of the roped projection of token `i`, times 1/64. -/
theorem pay3_apply (v3 : Vec Ideal S1x512x512 .f32) (v5 : Vec Ideal S64x512 .f32) (v10 v12 : Vec Ideal S512x64 .f32) (i : Fin 512) (d : Fin 64) :
    k0_pay3 (F := Ideal) v3 v5 v10 v12 (ix2 i d)
      = unitOf (ropedOf (fun d' => ∑ c : Fin 512, v3 (ix3 0 i c) * v5 (ix2 d' c)) (fun d' => v10 (ix2 i d')) (fun d' => v12 (ix2 i d'))) d * c64 := by
  unfold k0_pay3
  refine (congrArg (fun r : EReal => r * c64)
    (unit_apply _ reduces_S512x64_S512 (.inl rfl) rfl shapeCasts_S512_S512x1 broadcasts_S512x1_S512x64 i d)).trans ?_
  refine congrArg (fun r : Fin 64 → EReal => unitOf r d * c64) (funext fun d' => ?_)
  refine (rope_apply _ _ _ slices_S512x64_o0_0_S512x32 slices_S512x64_o0_32_S512x32 concatenates_S512x32_S512x32_S512x64_d1 i d').trans ?_
  rw [shapeCast_self, shapeCast_self]
  exact congrArg (fun p : Fin 64 → EReal => ropedOf p (fun d' => v10 (ix2 i d')) (fun d' => v12 (ix2 i d')) d')
    (funext fun d'' => projQ_apply v3 v5 i d'')

/-- The key payload at `(0, j, d)`: the unit vector of the roped projection of token `j`. -/
theorem pay2_apply (v48 : Vec Ideal S1x2048x512 .f32) (v51 v53 : Vec Ideal S2048x64 .f32) (v58 : Vec Ideal S64x512 .f32) (j : Fin 2048) (d : Fin 64) :
    k0_pay2 (F := Ideal) v48 v51 v53 v58 (ix3 0 j d)
      = unitOf (ropedOf (fun d' => ∑ c : Fin 512, v48 (ix3 0 j c) * v58 (ix2 d' c)) (fun d' => v51 (ix2 j d')) (fun d' => v53 (ix2 j d'))) d := by
  unfold k0_pay2
  refine (shapeCast_ab_1ab_apply _ shapeCasts_S2048x64_S1x2048x64 0 j d).trans ?_
  refine (unit_apply _ reduces_S2048x64_S2048 (.inl rfl) rfl shapeCasts_S2048_S2048x1 broadcasts_S2048x1_S2048x64 j d).trans ?_
  refine congrArg (fun r : Fin 64 → EReal => unitOf r d) (funext fun d' => ?_)
  refine (rope_apply _ _ _ slices_S2048x64_o0_0_S2048x32 slices_S2048x64_o0_32_S2048x32 concatenates_S2048x32_S2048x32_S2048x64_d1 j d').trans ?_
  rw [shapeCast_self, shapeCast_self]
  exact congrArg (fun p : Fin 64 → EReal => ropedOf p (fun d' => v51 (ix2 j d')) (fun d' => v53 (ix2 j d')) d')
    (funext fun d'' => projK_apply v48 v58 j d'')

end Cert.KernelIdeal.Hand

end
-- ==== Proof.PayloadSoft.lean ====
/-
  The kernel body's last payload read at one index, at the ideal instance: the exponential of the scores times the
  reciprocal of the row's sum of exponentials — one softmax row in the kernel's spelling (the specification's `kerRow`),
  with the scores the inner products of the query block's row and the key block's column.
-/
import proofs.«424914_j88493506166997_3_alg».proof.Proof.Payload

noncomputable section

namespace Cert.KernelIdeal.Hand

open Cert.KernelIdeal Cert.KernelIdeal.Gen Cert.RotaryAttn Idealize.ShloMosaic Idealize.ShloMosaic.ValueIdx

/-- An `[a, b]` array cast to `[1, 1, a, b]` reads, at `(u, w, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- The exponential of a score matrix times, lane by lane, the literal one divided by the row's sum of exponentials,
    read at `(i, j)`. -/
theorem softRow_apply {n m : ℕ} (Z : FVec Ideal ⟨2, ![n, m]⟩ .f32)
    (hred : (⟨2, ![n, m]⟩ : Shape).Reduces [1] ⟨1, ![n]⟩) (hφ : FKind.Formats .f32)
    (hacc : (0x00000000#32 : BitVec 32) = FKind.add.neutral .f32 hφ)
    (hsc : (⟨1, ![n]⟩ : Shape).ShapeCasts ⟨2, ![n, 1]⟩) (hb : (⟨2, ![n, 1]⟩ : Shape).Broadcasts ⟨2, ![n, m]⟩)
    (i : Fin n) (j : Fin m) :
    mulf (exp Z) (broadcastTo ⟨2, ![n, m]⟩
        (divf (broadcast ⟨2, ![n, 1]⟩ (Scalar.ofBits (F := Ideal) .f32 0x3F800000#32))
          (shapeCast ⟨2, ![n, 1]⟩ (multiReduction .add [1] ⟨1, ![n]⟩ (exp Z) 0x00000000#32 hred hφ hacc) hsc)) hb) (ix2 i j)
      = Ideal.exp (Z (ix2 i j)) * Ideal.div one (∑ j' : Fin m, Ideal.exp (Z (ix2 i j'))) := by
  show Ideal.exp (Z (ix2 i j)) * broadcastTo ⟨2, ![n, m]⟩
        (divf (broadcast ⟨2, ![n, 1]⟩ (Scalar.ofBits (F := Ideal) .f32 0x3F800000#32))
          (shapeCast ⟨2, ![n, 1]⟩ (multiReduction .add [1] ⟨1, ![n]⟩ (exp Z) 0x00000000#32 hred hφ hacc) hsc)) hb (ix2 i j) = _
  rw [broadcastTo_a1_ab_apply]
  show Ideal.exp (Z (ix2 i j)) * Ideal.div one (shapeCast ⟨2, ![n, 1]⟩
        (multiReduction .add [1] ⟨1, ![n]⟩ (exp Z) 0x00000000#32 hred hφ hacc) hsc (ix2 i (0 : Fin 1))) = _
  rw [shapeCast_a_a1_apply, rowSum_apply]
  rfl

/-- The softmax payload at `(0, 0, i, j)`: the specification's `kerRow` of the query block's row `i` and the key
    block's columns, at key `j`. -/
theorem pay1_apply (v32 : FVec Ideal S512x64 .bf16) (v36 : FVec Ideal S64x2048 .bf16) (i : Fin 512) (j : Fin 2048) :
    k0_pay1 (F := Ideal) v32 v36 (constant S512x2048 .f32 0x00000000#32) (ix4 0 0 i j)
      = kerRow (fun d => v32 (ix2 i d)) (fun j' d => v36 (ix2 d j')) j := by
  unfold k0_pay1
  refine (shapeCast_ab_11ab_apply _ shapeCasts_S512x2048_S1x1x512x2048 0 0 i j).trans ?_
  refine (softRow_apply _ reduces_S512x2048_S512 (.inl rfl) rfl shapeCasts_S512_S512x1 broadcasts_S512x1_S512x2048 i j).trans ?_
  exact congrArg₂ (fun (a : EReal) (f : Fin 2048 → EReal) => Ideal.exp a * Ideal.div one (∑ j' : Fin 2048, Ideal.exp (f j')))
    (dot_s_apply v32 v36 i j) (funext fun j' => dot_s_apply v32 v36 i j')

end Cert.KernelIdeal.Hand

end
-- ==== Proof.Final.lean ====
/-
  From the tiles to the result array. Point `t` of the grid (batch `t / 32`, query tile `t / 8 % 4`, head `t % 8`)
  writes its [1, 1, 512, 2048] tile back as the block at (batch, head, query tile, 0) of the [2, 8, 2048, 2048] result.
  Given that every tile holds, at query row `i` and key `j`, the attention row entry of its batch and head at query
  token `512·(query tile) + i` and key token `j`, each written block is that block of one function of the four argument
  arrays; the 64 blocks tile the result, so the array ends holding that function.
-/
import proofs.«424914_j88493506166997_3_alg».proof.Proof.Frame
import proofs.«424914_j88493506166997_3_alg».proof.Proof.Blocks
import proofs.«424914_j88493506166997_3_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RotaryAttn

variable (m : (ℓ : Loc nD τ sig) → Buf (Elt Ideal) ℓ)

/-! ## The argument arrays on a core, at the ideal instance -/

/-- The tokens. -/
abbrev Xc (c : Dev nD) : SX.Idx → EReal := m ((c : Thread nD τ).loc main_arg0)
/-- The cosine table. -/
abbrev Cc (c : Dev nD) : ST.Idx → EReal := m ((c : Thread nD τ).loc main_arg1)
/-- The sine table. -/
abbrev Sc (c : Dev nD) : ST.Idx → EReal := m ((c : Thread nD τ).loc main_arg2)
/-- The weights. -/
abbrev Wc (c : Dev nD) : SW.Idx → EReal := m ((c : Thread nD τ).loc main_arg3)

/-! ## From the tiles to the result array

Point `t` writes back its tile as the [1, 1, 512, 2048] block at (batch, head, query tile, 0) of the result. If every
tile holds, position by position, the attention row entries of its batch, head and query rows, then each written block
is that block of ONE function of the argument arrays, and since the 64 blocks tile the result the array ends holding
that function. -/

/-- A position of a result block is (0, 0, query row, key). -/
theorem tile_pos (y : S1x1x512x2048.Idx) : y = (ix4 0 0 (y 2) (y 3) : S1x1x512x2048.Idx) := by
  funext a
  match a with
  | ⟨0, _⟩ => exact Fin.ext (by have h0 : (y 0).val < 1 := (y 0).isLt; show (y 0).val = 0; omega)
  | ⟨1, _⟩ => exact Fin.ext (by have h1 : (y 1).val < 1 := (y 1).isLt; show (y 1).val = 0; omega)
  | ⟨2, _⟩ => rfl
  | ⟨3, _⟩ => rfl

/-- What point `t` writes back is block `t` of the result function of the argument arrays. -/
theorem flushed6_eq
    (htile : ∀ (c : Dev nD) (t : Fin cfg0.N) (i : Fin 512) (j : Fin 2048),
      tileAt (F := Ideal) m c t (ix4 0 0 i j)
        = kerOut (Xc m c) (Cc m c) (Sc m c) (Wc m c) ⟨t.val / 32, by have := pt_lt t; omega⟩ ⟨t.val % 8, by omega⟩
            ⟨(t.val / 8 % 4) * 512 + i.val, by have := i.isLt; omega⟩ j)
    (c : Dev nD) (t : Fin cfg0.N) :
    (dats (F := Ideal) m 0 c).flushed 6 t
      = ((cfg0.win 6).blk t).view.read (Elt Ideal) (G (Xc m c) (Cc m c) (Sc m c) (Wc m c) : S2x8x2048x2048.Idx → EReal) := by
  show (cfg0.win 6).cut (grid0.coords t) ((dats (F := Ideal) m 0 c).after 6 t) = _
  rw [after0_6]
  funext y
  obtain ⟨i, j, rfl⟩ : ∃ (i : Fin 512) (j : Fin 2048), y = (ix4 0 0 i j : S1x1x512x2048.Idx) := ⟨y 2, y 3, tile_pos y⟩
  show tileAt (F := Ideal) m c t (ix4 0 0 i j)
    = (G (Xc m c) (Cc m c) (Sc m c) (Wc m c) : S2x8x2048x2048.Idx → EReal) (((cfg0.win 6).blk t).view.emb (ix4 0 0 i j))
  refine (htile c t i j).trans ?_
  refine Eq.trans ?_ (congrArg (G (Xc m c) (Cc m c) (Sc m c) (Wc m c) : S2x8x2048x2048.Idx → EReal) (out6_emb t (ix4 0 0 i j))).symm
  rfl

/-- The result array after the run is the result function of the argument arrays. -/
theorem final_of_tile
    (htile : ∀ (c : Dev nD) (t : Fin cfg0.N) (i : Fin 512) (j : Fin 2048),
      tileAt (F := Ideal) m c t (ix4 0 0 i j)
        = kerOut (Xc m c) (Cc m c) (Sc m c) (Wc m c) ⟨t.val / 32, by have := pt_lt t; omega⟩ ⟨t.val % 8, by omega⟩
            ⟨(t.val / 8 % 4) * 512 + i.val, by have := i.isLt; omega⟩ j)
    (c : Dev nD) :
    (dats (F := Ideal) m 0 c).arrAt 6 cfg0.N = (G (Xc m c) (Cc m c) (Sc m c) (Wc m c) : S2x8x2048x2048.Idx → EReal) :=
  (dats (F := Ideal) m 0 c).arrAt_eq_of_cover 6 (G (Xc m c) (Cc m c) (Sc m c) (Wc m c) : S2x8x2048x2048.Idx → EReal)
    (fun t _ => flushed6_eq m htile c t)
    (fun o => by
      obtain ⟨t, y, h⟩ := out6_cover o
      exact ⟨t, flush0_6 t, h ▸ ((cfg0.win 6).blk t).view.emb_mem_set y⟩)

end Cert.KernelIdeal.Hand

end
-- ==== Proof.TileValue.lean ====
/-
  The tile a grid point stores, as the specification's function of the four argument arrays.

  Point `t` has batch `t / 32`, query tile `t / 8 % 4` and head `t % 8`. Its tile is the softmax payload of the
  query payload of its own query-side blocks against the key payload of the blocks of the point of its batch and head
  in query tile 0. Read at `(0, 0, i, j)`, the softmax payload is the specification's `kerRow`; its query vector is
  the scaled unit vector of token `(t / 8 % 4)·512 + i` on the head's 64 query rows of the weights, its key vectors
  the unit vectors of the batch's tokens on the head's 64 key rows, rows `512 + 64·(t % 8) + d`. The cosine table is
  the first 64 columns of the joined table's block, the sine table the next 64.
-/
import proofs.«424914_j88493506166997_3_alg».proof.Proof.Frame
import proofs.«424914_j88493506166997_3_alg».proof.Proof.Blocks
import proofs.«424914_j88493506166997_3_alg».proof.Proof.PayloadQK
import proofs.«424914_j88493506166997_3_alg».proof.Proof.PayloadSoft
import proofs.«424914_j88493506166997_3_alg».proof.Proof.Spec
import proofs.«424914_j88493506166997_3_alg».proof.Proof.Final

set_option maxRecDepth 16384

noncomputable section

namespace Cert.KernelIdeal.Hand

open Cert.KernelIdeal Cert.KernelIdeal.Gen Cert.RotaryAttn
open Idealize.ShloMosaic Idealize.ShloMosaic.TcCoe Idealize.ShloMosaic.ValueIdx
open Idealize.SL.Sem

/-! ## The two halves of a cosine|sine block, and the head's rows of the key weights -/

/-- The cosine half of a `[512, 128]` block at `(i, d)` is the block at column `d`. -/
theorem cosQ_apply (x4 : Vec Ideal S512x128 .f32) (i : Fin 512) (d : Fin 64) :
    cosQ x4 (ix2 i d) = x4 (ix2 i (⟨d.val, by have := d.isLt; omega⟩ : Fin 128)) := by
  show x4 ((Rect.unit (s := S512x128) ![0, 0] S512x64.size _).idx (ix2 i d)) = _
  refine congrArg x4 ?_
  funext a
  refine Fin.ext ?_
  match a with
  | ⟨0, _⟩ => show 0 + 1 * i.val = i.val; omega
  | ⟨1, _⟩ => show 0 + 1 * d.val = d.val; omega

/-- The sine half of a `[512, 128]` block at `(i, d)` is the block at column `64 + d`. -/
theorem sinQ_apply (x4 : Vec Ideal S512x128 .f32) (i : Fin 512) (d : Fin 64) :
    sinQ x4 (ix2 i d) = x4 (ix2 i (⟨64 + d.val, by have := d.isLt; omega⟩ : Fin 128)) := by
  show x4 ((Rect.unit (s := S512x128) ![0, 64] S512x64.size _).idx (ix2 i d)) = _
  refine congrArg x4 ?_
  funext a
  refine Fin.ext ?_
  match a with
  | ⟨0, _⟩ => show 0 + 1 * i.val = i.val; omega
  | ⟨1, _⟩ => show 64 + 1 * d.val = 64 + d.val; omega

/-- The cosine half of the whole `[2048, 128]` table at `(j, d)` is the table at column `d`. -/
theorem cosK_apply (x5 : Vec Ideal S2048x128 .f32) (j : Fin 2048) (d : Fin 64) :
    cosK x5 (ix2 j d) = x5 (ix2 j (⟨d.val, by have := d.isLt; omega⟩ : Fin 128)) := by
  show x5 ((Rect.unit (s := S2048x128) ![0, 0] S2048x64.size _).idx (ix2 j d)) = _
  refine congrArg x5 ?_
  funext a
  refine Fin.ext ?_
  match a with
  | ⟨0, _⟩ => show 0 + 1 * j.val = j.val; omega
  | ⟨1, _⟩ => show 0 + 1 * d.val = d.val; omega

/-- The sine half of the whole `[2048, 128]` table at `(j, d)` is the table at column `64 + d`. -/
theorem sinK_apply (x5 : Vec Ideal S2048x128 .f32) (j : Fin 2048) (d : Fin 64) :
    sinK x5 (ix2 j d) = x5 (ix2 j (⟨64 + d.val, by have := d.isLt; omega⟩ : Fin 128)) := by
  show x5 ((Rect.unit (s := S2048x128) ![0, 64] S2048x64.size _).idx (ix2 j d)) = _
  refine congrArg x5 ?_
  funext a
  refine Fin.ext ?_
  match a with
  | ⟨0, _⟩ => show 0 + 1 * j.val = j.val; omega
  | ⟨1, _⟩ => show 64 + 1 * d.val = 64 + d.val; omega

/-- The 64 rows of the key half that point `t` loads are rows `64·(t % 8) + d`: its head's. -/
theorem rows_apply (x3 : Vec Ideal S512x512 .f32) (t : Fin cfg0.N) (d : Fin 64) (k : Fin 512) :
    View.ld x3 (Rect.unit (s := S512x512) (k0_off1 (grid0.coords t)) S64x512.size (off1_inb_all t)) (ix2 d k)
      = x3 (ix2 (⟨64 * (t.val % 8) + d.val, by have := d.isLt; omega⟩ : Fin 512) k) := by
  show x3 ((Rect.unit (s := S512x512) (k0_off1 (grid0.coords t)) S64x512.size (off1_inb_all t)).idx (ix2 d k)) = _
  refine congrArg x3 ?_
  funext a
  refine Fin.ext ?_
  show (k0_off1 (grid0.coords t)) a + 1 * ((ix2 d k : S64x512.Idx) a).val = _
  rw [k0_off1_eq]
  match a with
  | ⟨0, _⟩ => show 64 * ((grid0.coords t) 2).val + 1 * d.val = 64 * (t.val % 8) + d.val; rw [coords2]; omega
  | ⟨1, _⟩ => show 0 + 1 * k.val = k.val; omega

/-! ## The specification's unit vector, spelled out -/

section Pure
variable (X : SX.Idx → EReal) (C S : ST.Idx → EReal) (W : SW.Idx → EReal)

/-- The unit vector of a token's roped projection on the rows `feat two h ·` of the weights. -/
theorem unitv_eq (b : Fin 2) (n : Fin 2048) (two : Fin 2) (h : Fin 8) (d : Fin 64) :
    unitv X C S W b n two h d
      = unitOf (ropedOf (fun d' => ∑ k : Fin 512, X (ix3 b n k) * W (ix2 (feat two h d') k))
          (fun d' => C (ix2 n d')) (fun d' => S (ix2 n d'))) d := rfl

/-- The query payload of blocks that hold token `n` of batch `b`, the head's query rows and row `n` of the two
    tables is the specification's scaled unit query. -/
theorem query_of_blocks (x0 : Vec Ideal S1x512x512 .f32) (x2 : Vec Ideal S64x512 .f32) (x4 : Vec Ideal S512x128 .f32)
    (b : Fin 2) (h : Fin 8) (n : Fin 2048) (i : Fin 512)
    (e0 : ∀ k : Fin 512, x0 (ix3 0 i k) = X (ix3 b n k))
    (e2 : ∀ (d : Fin 64) (k : Fin 512), x2 (ix2 d k) = W (ix2 (feat 0 h d) k))
    (e4c : ∀ d : Fin 64, x4 (ix2 i (⟨d.val, by have := d.isLt; omega⟩ : Fin 128)) = C (ix2 n d))
    (e4s : ∀ d : Fin 64, x4 (ix2 i (⟨64 + d.val, by have := d.isLt; omega⟩ : Fin 128)) = S (ix2 n d)) (d : Fin 64) :
    k0_pay3 (F := Ideal) x0 x2 (cosQ x4) (sinQ x4) (ix2 i d) = unitv X C S W b n 0 h d * c64 := by
  refine (pay3_apply x0 x2 (cosQ x4) (sinQ x4) i d).trans ?_
  rw [unitv_eq]
  have eP : (fun d' : Fin 64 => ∑ k : Fin 512, x0 (ix3 0 i k) * x2 (ix2 d' k))
      = fun d' => ∑ k : Fin 512, X (ix3 b n k) * W (ix2 (feat 0 h d') k) :=
    funext fun d' => Finset.sum_congr rfl fun k _ => by rw [e0 k, e2 d' k]
  have eC : (fun d' : Fin 64 => cosQ x4 (ix2 i d')) = fun d' => C (ix2 n d') :=
    funext fun d' => (cosQ_apply x4 i d').trans (e4c d')
  have eS : (fun d' : Fin 64 => sinQ x4 (ix2 i d')) = fun d' => S (ix2 n d') :=
    funext fun d' => (sinQ_apply x4 i d').trans (e4s d')
  rw [eP, eC, eS]

/-- The key payload of blocks that hold the tokens of batch `b`, the head's key rows and the two whole tables is the
    specification's unit key. -/
theorem key_of_blocks (x1 : Vec Ideal S1x2048x512 .f32) (x5 : Vec Ideal S2048x128 .f32) (wk : Vec Ideal S64x512 .f32)
    (b : Fin 2) (h : Fin 8) (j : Fin 2048)
    (e1 : ∀ k : Fin 512, x1 (ix3 0 j k) = X (ix3 b j k))
    (ew : ∀ (d : Fin 64) (k : Fin 512), wk (ix2 d k) = W (ix2 (feat 1 h d) k))
    (e5c : ∀ d : Fin 64, x5 (ix2 j (⟨d.val, by have := d.isLt; omega⟩ : Fin 128)) = C (ix2 j d))
    (e5s : ∀ d : Fin 64, x5 (ix2 j (⟨64 + d.val, by have := d.isLt; omega⟩ : Fin 128)) = S (ix2 j d)) (d : Fin 64) :
    keysOf (F := Ideal) x1 x5 wk (ix3 0 j d) = unitv X C S W b j 1 h d := by
  unfold keysOf
  refine (pay2_apply x1 (cosK x5) (sinK x5) wk j d).trans ?_
  rw [unitv_eq]
  have eP : (fun d' : Fin 64 => ∑ k : Fin 512, x1 (ix3 0 j k) * wk (ix2 d' k))
      = fun d' => ∑ k : Fin 512, X (ix3 b j k) * W (ix2 (feat 1 h d') k) :=
    funext fun d' => Finset.sum_congr rfl fun k _ => by rw [e1 k, ew d' k]
  have eC : (fun d' : Fin 64 => cosK x5 (ix2 j d')) = fun d' => C (ix2 j d') :=
    funext fun d' => (cosK_apply x5 j d').trans (e5c d')
  have eS : (fun d' : Fin 64 => sinK x5 (ix2 j d')) = fun d' => S (ix2 j d') :=
    funext fun d' => (sinK_apply x5 j d').trans (e5s d')
  rw [eP, eC, eS]

end Pure

/-! ## At a grid point -/

variable (m : (ℓ : Loc nD τ sig) → Buf (Elt Ideal) ℓ)

/-- The query payload of point `t`'s blocks at `(i, d)`: the scaled unit query of token `(t / 8 % 4)·512 + i` of batch
    `t / 32` for head `t % 8`. -/
theorem query_at (c : Dev nD) (t : Fin cfg0.N) (i : Fin 512) (d : Fin 64) :
    k0_pay3 (F := Ideal) (iblk m c 0 t : Vec Ideal S1x512x512 .f32) (iblk m c 2 t : Vec Ideal S64x512 .f32)
        (cosQ (iblk m c 4 t : Vec Ideal S512x128 .f32)) (sinQ (iblk m c 4 t : Vec Ideal S512x128 .f32)) (ix2 i d)
      = unitv (Xc m c) (Cc m c) (Sc m c) (Wc m c) ⟨t.val / 32, by have := pt_lt t; omega⟩
          ⟨(t.val / 8 % 4) * 512 + i.val, by have := i.isLt; omega⟩ 0 ⟨t.val % 8, by omega⟩ d * c64 := by
  refine query_of_blocks (Xc m c) (Cc m c) (Sc m c) (Wc m c) _ _ _ _ _ _ i (fun k => ?_) (fun d' k => ?_) (fun d' => ?_) (fun d' => ?_) d
  · exact blk0_apply m c t i k
  · refine (blk2_apply m c t d' k).trans ?_
    refine congrArg (fun r : Fin 1024 => Wc m c (ix2 r k)) (Fin.ext ?_)
    show (t.val % 8) * 64 + d'.val = 0 * 512 + (t.val % 8) * 64 + d'.val
    omega
  · refine (blk4_apply m c t i _).trans ?_
    exact dif_pos d'.isLt
  · refine (blk4_apply m c t i _).trans ?_
    refine (dif_neg (by show ¬ 64 + d'.val < 64; omega)).trans ?_
    refine congrArg (fun r : Fin 64 => Sc m c (ix2 _ r)) (Fin.ext ?_)
    show 64 + d'.val - 64 = d'.val
    omega

/-- The keys the point of `t`'s batch and head in query tile 0 stores, at `(0, j, d)`: the unit key of token `j` of
    batch `t / 32` for head `t % 8`. -/
theorem key_at (c : Dev nD) (t : Fin cfg0.N) (j : Fin 2048) (d : Fin 64) :
    keysAt (F := Ideal) m c (fillPt t) (ix3 0 j d)
      = unitv (Xc m c) (Cc m c) (Sc m c) (Wc m c) ⟨t.val / 32, by have := pt_lt t; omega⟩ j 1 ⟨t.val % 8, by omega⟩ d := by
  have ht := pt_lt t
  unfold keysAt
  refine key_of_blocks (Xc m c) (Cc m c) (Sc m c) (Wc m c) _ _ _ _ _ j (fun k => ?_) (fun d' k => ?_) (fun d' => ?_) (fun d' => ?_) d
  · refine (blk1_apply m c (fillPt t) j k).trans ?_
    refine congrArg (fun r : Fin 2 => Xc m c (ix3 r j k)) (Fin.ext ?_)
    show ((t.val / 32) * 32 + t.val % 8) / 32 = t.val / 32
    omega
  · refine (rows_apply _ (fillPt t) d' k).trans ?_
    refine (blk3_apply m c (fillPt t) _ k).trans ?_
    refine congrArg (fun r : Fin 1024 => Wc m c (ix2 r k)) (Fin.ext ?_)
    show 512 + (64 * (((t.val / 32) * 32 + t.val % 8) % 8) + d'.val) = 1 * 512 + (t.val % 8) * 64 + d'.val
    omega
  · refine (blk5_apply m c (fillPt t) j _).trans ?_
    exact dif_pos d'.isLt
  · refine (blk5_apply m c (fillPt t) j _).trans ?_
    refine (dif_neg (by show ¬ 64 + d'.val < 64; omega)).trans ?_
    refine congrArg (fun r : Fin 64 => Sc m c (ix2 j r)) (Fin.ext ?_)
    show 64 + d'.val - 64 = d'.val
    omega

/-- The tile point `t` stores, at `(0, 0, i, j)`: the specification's result at batch `t / 32`, head `t % 8`, query token
    `(t / 8 % 4)·512 + i` and key token `j`. -/
theorem tile_apply (c : Dev nD) (t : Fin cfg0.N) (i : Fin 512) (j : Fin 2048) :
    tileAt (F := Ideal) m c t (ix4 0 0 i j)
      = kerOut (Xc m c) (Cc m c) (Sc m c) (Wc m c) ⟨t.val / 32, by have := pt_lt t; omega⟩ ⟨t.val % 8, by omega⟩
          ⟨(t.val / 8 % 4) * 512 + i.val, by have := i.isLt; omega⟩ j := by
  unfold tileAt tileOf
  refine (pay1_apply _ _ i j).trans ?_
  unfold kerOut
  refine congrArg₂ (fun (qs : Fin 64 → EReal) (ks : Fin 2048 → Fin 64 → EReal) => kerRow qs ks j)
    (funext fun d => query_at m c t i d) (funext fun j' => funext fun d => ?_)
  exact (pay4_apply _ d j').trans (key_at m c t j' d)

end Cert.KernelIdeal.Hand

end
-- ==== Proof.RefRead.lean ====
/-
  The reference's result, read at one index.

  The reference computes, for batch `b`, head `h`, query token `i` and key token `j`: the projection of every
  token on the weight rows, split into (half, head, feature); the rotary embedding of each 64-feature vector; its
  division by the larger of its Euclidean norm and a small literal; the inner products of query and key unit vectors,
  scaled; and a softmax over the key tokens with the row maximum subtracted. This module follows the stages of the
  generated reading of the reference one operation at a time, up to the row maximum, and identifies the value of each
  group of stages, at an index given by its coordinates, with the corresponding function of the specification:
  the projection (`proj`), the rotary embedding (`roped`), the unit vector (`unitv`), the logit (`refLogit`), and the
  reduction with a maximum body over the key tokens as the fold of `max` from -∞ over the row's logits.
-/
import proofs.«424914_j88493506166997_3_alg».proof.Proof.Gen.ReferenceIdeal.Read
import proofs.«424914_j88493506166997_3_alg».proof.Proof.Spec

noncomputable section

namespace Cert.ReferenceIdeal.RefValue

open Cert.ReferenceIdeal Cert.ReferenceIdeal.Gen Cert.ReferenceIdeal.Read Cert.RotaryAttn
open Idealize.ShloMosaic Idealize.ShloMosaic.ValueIdx

/-! ## The argument arrays -/

variable (x0 : (⟨S2x2048x512, .f32⟩ : BufTy).Contents (Elt Ideal))
  (x1 x2 : (⟨S2048x64, .f32⟩ : BufTy).Contents (Elt Ideal))
  (x3 : (⟨S1024x512, .f32⟩ : BufTy).Contents (Elt Ideal))

/-! ## The projection: the contraction, its reshape into (half, head, feature) and the transposition -/

/-- The transposition reads (batch, head, half, token, feature) at (batch, token, half, head, feature). -/
theorem idx_v2 (b : Fin 2) (h : Fin 8) (two : Fin 2) (n : Fin 2048) (d : Fin 64) :
    idx_main_v2 (ix5 b h two n d) = ix5 b n two h d :=
  funext fun a => Fin.ext (by
    match a with
    | ⟨0, _⟩ => rfl
    | ⟨1, _⟩ => rfl
    | ⟨2, _⟩ => rfl
    | ⟨3, _⟩ => rfl
    | ⟨4, _⟩ => rfl)

/-- The reshape reads (batch, token, half, head, feature) at row `half·512 + head·64 + feature` of the 1024. -/
theorem idx_v1 (b : Fin 2) (n : Fin 2048) (two : Fin 2) (h : Fin 8) (d : Fin 64) :
    idx_main_v1 (ix5 b n two h d) = ix3 b n (feat two h d) :=
  funext fun a => Fin.ext (by
    have hb := b.isLt; have hn := n.isLt; have ht := two.isLt; have hh := h.isLt; have hd := d.isLt
    match a with
    | ⟨0, _⟩ =>
      show ((((b.val * 2048 + n.val) * 2 + two.val) * 8 + h.val) * 64 + d.val) / 2097152 = b.val
      omega
    | ⟨1, _⟩ =>
      show ((((b.val * 2048 + n.val) * 2 + two.val) * 8 + h.val) * 64 + d.val) / 1024 % 2048 = n.val
      omega
    | ⟨2, _⟩ =>
      show ((((b.val * 2048 + n.val) * 2 + two.val) * 8 + h.val) * 64 + d.val) % 1024 = two.val * 512 + h.val * 64 + d.val
      omega)

/-- The contraction's left operand at (batch, token, ·). -/
theorem lidx_v0 (b : Fin 2) (n : Fin 2048) (e : Fin 1024) (k : Fin 512) :
    lidx_main_v0 (ix3 b n e) k = ix3 b n k :=
  funext fun a => Fin.ext (by
    match a with
    | ⟨0, _⟩ => rfl
    | ⟨1, _⟩ => rfl
    | ⟨2, _⟩ => rfl)

/-- The contraction's right operand at (row, ·). -/
theorem ridx_v0 (b : Fin 2) (n : Fin 2048) (e : Fin 1024) (k : Fin 512) :
    ridx_main_v0 (ix3 b n e) k = ix2 e k :=
  funext fun a => Fin.ext (by
    match a with
    | ⟨0, _⟩ => rfl
    | ⟨1, _⟩ => rfl)

/-- The transposed projection at (batch, head, half, token, feature) is the token's projection on the row of the
    weight matrix that the half, the head and the feature name. -/
theorem proj_eq (b : Fin 2) (h : Fin 8) (two : Fin 2) (n : Fin 2048) (d : Fin 64) :
    val_main_v2 (F := Ideal) x0 x3 (ix5 b h two n d) = proj x0 x3 b n (feat two h d) := by
  rw [val_main_v2_apply, idx_v2, val_main_v1_apply, idx_v1, val_main_v0_apply]
  simp only [lidx_v0, ridx_v0]
  rfl

/-! ## The rotary embedding: the projection times the cosine table plus its rotate-half partner times the sine table -/

/-- The cosine table, broadcast over batch, head and half, reads the table at (token, feature). -/
theorem idx_v4_v3 (b : Fin 2) (h : Fin 8) (two : Fin 2) (n : Fin 2048) (d : Fin 64) :
    idx_main_v3 (idx_main_v4 (ix5 b h two n d)) = ix2 n d :=
  funext fun a => Fin.ext (by
    match a with
    | ⟨0, _⟩ => rfl
    | ⟨1, _⟩ => rfl)

/-- The sine table, broadcast over batch, head and half, reads the table at (token, feature). -/
theorem idx_v11_v10 (b : Fin 2) (h : Fin 8) (two : Fin 2) (n : Fin 2048) (d : Fin 64) :
    idx_main_v10 (idx_main_v11 (ix5 b h two n d)) = ix2 n d :=
  funext fun a => Fin.ext (by
    match a with
    | ⟨0, _⟩ => rfl
    | ⟨1, _⟩ => rfl)

/-- Below 32 the partner of feature `d` is `d + 32`. -/
theorem partner_val_lo (d : Fin 64) (hd : d.val < 32) : (partner d).val = d.val + 32 := by
  unfold partner; rw [dif_pos hd]

/-- From 32 on the partner of feature `d` is `d - 32`. -/
theorem partner_val_hi (d : Fin 64) (hd : ¬ d.val < 32) : (partner d).val = d.val - 32 := by
  unfold partner; rw [dif_neg hd]

/-- The upper half's slice, at a feature `d` below 32, reads the partner of `d`. -/
theorem idx_v7 (b : Fin 2) (h : Fin 8) (two : Fin 2) (n : Fin 2048) (d : Fin 64) (hd : d.val < 32) :
    idx_main_v7 (ix5 b h two n (⟨d.val, hd⟩ : Fin 32)) = ix5 b h two n (partner d) :=
  funext fun a => Fin.ext (by
    match a with
    | ⟨0, _⟩ => rfl
    | ⟨1, _⟩ => rfl
    | ⟨2, _⟩ => rfl
    | ⟨3, _⟩ => rfl
    | ⟨4, _⟩ =>
      have hp := partner_val_lo d hd
      show 32 + d.val = (partner d).val
      omega)

/-- The lower half's slice, at a feature `d` from 32 on moved down by 32, reads the partner of `d`. -/
theorem idx_v6 (b : Fin 2) (h : Fin 8) (two : Fin 2) (n : Fin 2048) (d : Fin 64) (hd : ¬ d.val < 32) :
    idx_main_v6 (ix5 b h two n (⟨d.val - 32, by have := d.isLt; omega⟩ : Fin 32)) = ix5 b h two n (partner d) :=
  funext fun a => Fin.ext (by
    match a with
    | ⟨0, _⟩ => rfl
    | ⟨1, _⟩ => rfl
    | ⟨2, _⟩ => rfl
    | ⟨3, _⟩ => rfl
    | ⟨4, _⟩ =>
      have hp := partner_val_hi d hd
      show d.val - 32 = (partner d).val
      omega)

/-- The rotate-half vector (the negated upper half followed by the lower half) at feature `d`: the negated projection
    at the partner below 32, the projection at the partner from 32 on. -/
theorem rotHalf_eq (b : Fin 2) (h : Fin 8) (two : Fin 2) (n : Fin 2048) (d : Fin 64) :
    val_main_v9 (F := Ideal) x0 x3 (ix5 b h two n d)
      = if d.val < 32 then - proj x0 x3 b n (feat two h (partner d)) else proj x0 x3 b n (feat two h (partner d)) := by
  by_cases hd : d.val < 32
  · rw [if_pos hd, ← proj_eq, ← idx_v7 b h two n d hd, ← val_main_v7_apply]
    unfold val_main_v9
    generalize val_main_v6 (F := Ideal) x0 x3 = y6
    have e8 : val_main_v8 (F := Ideal) x0 x3 (ix5 b h two n (⟨d.val, hd⟩ : Fin 32))
        = - val_main_v7 (F := Ideal) x0 x3 (ix5 b h two n (⟨d.val, hd⟩ : Fin 32)) := rfl
    rw [← e8]
    generalize val_main_v8 (F := Ideal) x0 x3 = y8
    exact concatenate_pair_apply_left 4 y8 y6 concatenates_S2x8x2x2048x32_S2x8x2x2048x32_S2x8x2x2048x64_d4
      (ix5 b h two n d) rfl (ix5 b h two n (⟨d.val, hd⟩ : Fin 32)) (fun c => by
        match c with
        | ⟨0, _⟩ => rfl
        | ⟨1, _⟩ => rfl
        | ⟨2, _⟩ => rfl
        | ⟨3, _⟩ => rfl
        | ⟨4, _⟩ => rfl)
  · rw [if_neg hd, ← proj_eq, ← idx_v6 b h two n d hd, ← val_main_v6_apply]
    unfold val_main_v9
    generalize val_main_v6 (F := Ideal) x0 x3 = y6
    generalize val_main_v8 (F := Ideal) x0 x3 = y8
    exact concatenate_pair_apply_right 4 y8 y6 concatenates_S2x8x2x2048x32_S2x8x2x2048x32_S2x8x2x2048x64_d4
      (ix5 b h two n d) rfl rfl (ix5 b h two n (⟨d.val - 32, by have := d.isLt; omega⟩ : Fin 32)) (fun c hc => by
        match c with
        | ⟨0, _⟩ => rfl
        | ⟨1, _⟩ => rfl
        | ⟨2, _⟩ => rfl
        | ⟨3, _⟩ => rfl
        | ⟨4, _⟩ => exact absurd rfl hc)
      (by show d.val - 32 + 32 = d.val; omega)

/-- The rotary embedding at (batch, head, half, token, feature). -/
theorem roped_eq (b : Fin 2) (h : Fin 8) (two : Fin 2) (n : Fin 2048) (d : Fin 64) :
    val_main_v13 (F := Ideal) x0 x1 x2 x3 (ix5 b h two n d) = roped x0 x1 x2 x3 b n two h d := by
  rw [val_main_v13_apply, val_main_v5_apply, val_main_v12_apply, val_main_v4_apply, val_main_v3_apply,
    val_main_v11_apply, val_main_v10_apply, idx_v4_v3, idx_v11_v10, proj_eq, rotHalf_eq]
  rfl

/-! ## The unit vector: the rotary embedding divided by the larger of its Euclidean norm and the small literal -/

/-- The norm, broadcast along the features, reads its one entry. -/
theorem idx_v17 (b : Fin 2) (h : Fin 8) (two : Fin 2) (n : Fin 2048) (d : Fin 64) :
    idx_main_v17 (ix5 b h two n d) = ix5 b h two n (0 : Fin 1) :=
  funext fun a => Fin.ext (by
    match a with
    | ⟨0, _⟩ => rfl
    | ⟨1, _⟩ => rfl
    | ⟨2, _⟩ => rfl
    | ⟨3, _⟩ => rfl
    | ⟨4, _⟩ => rfl)

/-- The sum of squares with a unit feature axis appended reads the sum at (batch, head, half, token). -/
theorem idx_call0_v2 (b : Fin 2) (h : Fin 8) (two : Fin 2) (n : Fin 2048) (z : Fin 1) :
    idx_main_call0_v2 (ix5 b h two n z) = ix4 b h two n :=
  funext fun a => Fin.ext (by
    match a with
    | ⟨0, _⟩ => rfl
    | ⟨1, _⟩ => rfl
    | ⟨2, _⟩ => rfl
    | ⟨3, _⟩ => rfl)

/-- The sum over the features reads the squares at (batch, head, half, token, ·). -/
theorem idx_call0_v1 (b : Fin 2) (h : Fin 8) (two : Fin 2) (n : Fin 2048) (k : Fin 64) :
    idx_main_call0_v1 (ix4 b h two n) k = ix5 b h two n k :=
  funext fun a => Fin.ext (by
    match a with
    | ⟨0, _⟩ => rfl
    | ⟨1, _⟩ => rfl
    | ⟨2, _⟩ => rfl
    | ⟨3, _⟩ => rfl
    | ⟨4, _⟩ => rfl)

/-- The unit vector at (batch, head, half, token, feature). -/
theorem unitv_eq (b : Fin 2) (h : Fin 8) (two : Fin 2) (n : Fin 2048) (d : Fin 64) :
    val_main_v18 (F := Ideal) x0 x1 x2 x3 (ix5 b h two n d) = unitv x0 x1 x2 x3 b n two h d := by
  rw [val_main_v18_apply, val_main_v17_apply, idx_v17, val_main_v16_apply, val_main_v15_apply, val_main_cst_apply,
    val_main_v14_apply, val_main_call0_v2_apply, idx_call0_v2, val_main_call0_v1_apply, val_main_call0_cst_apply,
    roped_eq]
  simp only [idx_call0_v1, val_main_call0_v0_apply, roped_eq, Ideal.ofBits_def, Ideal.ofBits_zero_f32, zero_add,
    Ideal.mulf_def, Ideal.hostDivf_def, Ideal.maximumf_def, Ideal.hostUnary_sqrt_def]
  rfl

/-! ## The logit: the inner product of the query's and the key's unit vectors, scaled -/

/-- Dropping the unit half axis: (batch, head, token, feature) reads (batch, head, 0, token, feature). -/
theorem idx_v20 (b : Fin 2) (h : Fin 8) (n : Fin 2048) (d : Fin 64) :
    idx_main_v20 (ix4 b h n d) = ix5 b h (0 : Fin 1) n d :=
  funext fun a => Fin.ext (by
    have hb := b.isLt; have hh := h.isLt; have hn := n.isLt; have hd := d.isLt
    match a with
    | ⟨0, _⟩ =>
      show (((b.val * 8 + h.val) * 2048 + n.val) * 64 + d.val) / 1048576 = b.val
      omega
    | ⟨1, _⟩ =>
      show (((b.val * 8 + h.val) * 2048 + n.val) * 64 + d.val) / 131072 % 8 = h.val
      omega
    | ⟨2, _⟩ => rfl
    | ⟨3, _⟩ =>
      show (((b.val * 8 + h.val) * 2048 + n.val) * 64 + d.val) / 64 % 2048 = n.val
      omega
    | ⟨4, _⟩ =>
      show (((b.val * 8 + h.val) * 2048 + n.val) * 64 + d.val) % 64 = d.val
      omega)

/-- The same reshape, of the key half. -/
theorem idx_v22 (b : Fin 2) (h : Fin 8) (n : Fin 2048) (d : Fin 64) :
    idx_main_v22 (ix4 b h n d) = ix5 b h (0 : Fin 1) n d :=
  idx_v20 b h n d

/-- The query half's slice reads half 0. -/
theorem idx_v19 (b : Fin 2) (h : Fin 8) (n : Fin 2048) (d : Fin 64) :
    idx_main_v19 (ix5 b h (0 : Fin 1) n d) = ix5 b h (0 : Fin 2) n d :=
  funext fun a => Fin.ext (by
    match a with
    | ⟨0, _⟩ => rfl
    | ⟨1, _⟩ => rfl
    | ⟨2, _⟩ => rfl
    | ⟨3, _⟩ => rfl
    | ⟨4, _⟩ => rfl)

/-- The key half's slice reads half 1. -/
theorem idx_v21 (b : Fin 2) (h : Fin 8) (n : Fin 2048) (d : Fin 64) :
    idx_main_v21 (ix5 b h (0 : Fin 1) n d) = ix5 b h (1 : Fin 2) n d :=
  funext fun a => Fin.ext (by
    match a with
    | ⟨0, _⟩ => rfl
    | ⟨1, _⟩ => rfl
    | ⟨2, _⟩ => rfl
    | ⟨3, _⟩ => rfl
    | ⟨4, _⟩ => rfl)

/-- The inner product's left operand at (batch, head, query token, ·). -/
theorem lidx_v23 (b : Fin 2) (h : Fin 8) (i j : Fin 2048) (k : Fin 64) :
    lidx_main_v23 (ix4 b h i j) k = ix4 b h i k :=
  funext fun a => Fin.ext (by
    match a with
    | ⟨0, _⟩ => rfl
    | ⟨1, _⟩ => rfl
    | ⟨2, _⟩ => rfl
    | ⟨3, _⟩ => rfl)

/-- The inner product's right operand at (batch, head, key token, ·). -/
theorem ridx_v23 (b : Fin 2) (h : Fin 8) (i j : Fin 2048) (k : Fin 64) :
    ridx_main_v23 (ix4 b h i j) k = ix4 b h j k :=
  funext fun a => Fin.ext (by
    match a with
    | ⟨0, _⟩ => rfl
    | ⟨1, _⟩ => rfl
    | ⟨2, _⟩ => rfl
    | ⟨3, _⟩ => rfl)

/-- The query's unit vector at (batch, head, token, feature). -/
theorem query_eq (b : Fin 2) (h : Fin 8) (n : Fin 2048) (d : Fin 64) :
    val_main_v20 (F := Ideal) x0 x1 x2 x3 (ix4 b h n d) = unitv x0 x1 x2 x3 b n 0 h d := by
  rw [val_main_v20_apply, idx_v20, val_main_v19_apply, idx_v19, unitv_eq]

/-- The key's unit vector at (batch, head, token, feature). -/
theorem key_eq (b : Fin 2) (h : Fin 8) (n : Fin 2048) (d : Fin 64) :
    val_main_v22 (F := Ideal) x0 x1 x2 x3 (ix4 b h n d) = unitv x0 x1 x2 x3 b n 1 h d := by
  rw [val_main_v22_apply, idx_v22, val_main_v21_apply, idx_v21, unitv_eq]

/-- The logit at (batch, head, query token, key token). -/
theorem refLogit_eq (b : Fin 2) (h : Fin 8) (i j : Fin 2048) :
    val_main_v25 (F := Ideal) x0 x1 x2 x3 (ix4 b h i j) = refLogit x0 x1 x2 x3 b h i j := by
  rw [val_main_v25_apply, val_main_v24_apply, val_main_cst_0_apply, val_main_v23_apply]
  simp only [lidx_v23, ridx_v23, query_eq, key_eq, Ideal.ofBits_def, Ideal.mulf_def]
  rfl

/-! ## The row maximum: a fold of `max` over the key tokens from -∞, then once more against -∞ -/

/-- The word of -∞ is the bottom of the extended reals. -/
theorem negInf_eq : Ideal.ofBits .f32 0xFF800000#32 = (⊥ : EReal) := by
  simp [Ideal.ofBits, Ideal.ieee]

/-- The reduced index (batch, head, query token) with key token `k` put back on the last axis. -/
theorem lift_v26 (hR : S2x8x2048x2048.Reduces [3] S2x8x2048) (b : Fin 2) (h : Fin 8) (i : Fin 2048)
    (k : Fin (S2x8x2048x2048.size 3)) : hR.lift (ix3 b h i) k = ix4 b h i (⟨k.val, k.isLt⟩ : Fin 2048) := by
  funext c; apply Fin.ext
  fin_cases c <;> rfl

/-- Over any finite set, a fold with the ideal instance's maximum is the fold of `max`. -/
theorem fold_maximumf_eq {ι : Type} (s : Finset ι) (c : EReal) (f : ι → EReal) :
    s.fold (FloatOps.maximumf (F := Ideal) (φ := .f32)) c f = s.fold max c f := rfl

/-- A fold of `max` over `Fin n` is the fold over `Fin m` of the same entries when `n = m`. -/
theorem fold_max_cast {n m : Nat} (e : n = m) (c : EReal) (f : Fin n → EReal) (g : Fin m → EReal)
    (hfg : ∀ k : Fin n, f k = g (k.cast e)) :
    (Finset.univ : Finset (Fin n)).fold max c f = (Finset.univ : Finset (Fin m)).fold max c g := by
  subst e
  exact congrArg (fun f' => Finset.fold max c f' (Finset.univ : Finset (Fin n))) (funext hfg)

/-- For ANY array `y` over (batch, head, query token, key token) whose row at (b, h, i) is `a`, and any initial value
    that is -∞: the reduction with a maximum body over the key tokens, at (b, h, i), is the fold of `max` over `a`. -/
theorem rowFold_gen (y : S2x8x2048x2048.Idx → EReal) (c0 : S_.Idx → EReal) (a : Fin 2048 → EReal)
    (b : Fin 2) (h : Fin 8) (i : Fin 2048) (hc : c0 (Shape.Idx.first h_S_) = (⊥ : EReal))
    (hy : ∀ j : Fin 2048, y (ix4 b h i j) = a j) :
    Host.reduce (FloatOps.maximumf (F := Ideal) (φ := .f32)) y c0 reducesTo_S2x8x2048x2048_S2x8x2048_d3 h_S_ (ix3 b h i)
      = (Finset.univ : Finset (Fin 2048)).fold max (⊥ : EReal) a := by
  have hR : S2x8x2048x2048.Reduces [3] S2x8x2048 := by decide
  refine (Host.reduce_eq_fold_single (FloatOps.maximumf (F := Ideal) (φ := .f32)) y c0
    reducesTo_S2x8x2048x2048_S2x8x2048_d3 hR h_S_ (ix3 b h i)).trans ?_
  rw [hc]
  refine (fold_maximumf_eq _ _ _).trans ?_
  have hsz : S2x8x2048x2048.size 3 = 2048 := rfl
  refine fold_max_cast hsz ⊥ _ _ (fun k => ?_)
  show y (hR.lift (ix3 b h i) k) = a (k.cast hsz)
  rw [lift_v26 hR b h i k]
  exact hy (k.cast hsz)

/-- The reference's reduction with a maximum body over the key tokens, from -∞, is the fold of `max` over the row's
    logits. -/
theorem rowFold_eq (b : Fin 2) (h : Fin 8) (i : Fin 2048) :
    val_main_v26 (F := Ideal) x0 x1 x2 x3 (ix3 b h i)
      = (Finset.univ : Finset (Fin 2048)).fold max (⊥ : EReal) (fun j => refLogit x0 x1 x2 x3 b h i j) := by
  unfold val_main_v26
  exact rowFold_gen (val_main_v25 (F := Ideal) x0 x1 x2 x3) (val_main_cst_1 (F := Ideal))
    (fun j => refLogit x0 x1 x2 x3 b h i j) b h i negInf_eq (fun j => refLogit_eq x0 x1 x2 x3 b h i j)

end Cert.ReferenceIdeal.RefValue

end
-- ==== Proof.RefSoft.lean ====
/-
  The last operations of the reference read at one index: the softmax over key tokens.

  Write `a j'` for the logit at key token `j'` of the row (batch `b`, head `h`, query token `i`) and `M` for the row's
  maximum as the reference's fold computes it. The reference takes the larger of -∞ and `M`, spreads it back along
  the key axis, subtracts it from every logit, exponentiates, sums the exponentials along the key axis from the
  initial value 0, spreads the sum back, and divides. Each of these steps reads its operand at the index the step's
  layout gives: a spread along a new axis of extent one reads the same leading coordinates, a spread along the key axis
  reads coordinate 0 of it, and the sum reads every key coordinate of the row. Composed at the index (b, h, i, j) they give
  `exp (a j - max -∞ M) / (0 + Σ_j' exp (a j' - max -∞ M))`, which is the specification's result once `a` is its logit and
  `M` its fold.
-/
import proofs.«424914_j88493506166997_3_alg».proof.Proof.Gen.ReferenceIdeal.Read
import proofs.«424914_j88493506166997_3_alg».proof.Proof.Spec

noncomputable section

namespace Cert.ReferenceIdeal.RefTail

open Cert.ReferenceIdeal Cert.ReferenceIdeal.Read Cert.RotaryAttn Idealize.ShloMosaic Idealize.ShloMosaic.ValueIdx

/-- The word `0xFF800000` (sign 1, exponent field all ones, fraction 0) is -∞. -/
theorem negInf_word : Ideal.ofBits .f32 0xFF800000#32 = (⊥ : EReal) := by
  simp [Ideal.ofBits, Ideal.ieee]

/-! ## Where each layout step reads -/

/-- Spreading the row's sum back to the result's shape reads, at (b, h, i, j), the sum of row (b, h, i). -/
theorem idx_sum_back (b : Fin 2) (h : Fin 8) (i j : Fin 2048) :
    idx_main_v34 (idx_main_v35 (ix4 b h i j)) = ix3 b h i :=
  funext fun a => Fin.ext (by match a with | ⟨0, _⟩ => rfl | ⟨1, _⟩ => rfl | ⟨2, _⟩ => rfl)

/-- Spreading the row's maximum back to the logits' shape reads, at (b, h, i, k), the maximum of row (b, h, i). -/
theorem idx_max_back (b : Fin 2) (h : Fin 8) (i k : Fin 2048) :
    idx_main_v29 (idx_main_v30 (ix4 b h i k)) = ix3 b h i :=
  funext fun a => Fin.ext (by match a with | ⟨0, _⟩ => rfl | ⟨1, _⟩ => rfl | ⟨2, _⟩ => rfl)

/-- The sum of row (b, h, i) reads its operand at (b, h, i, k) for each key token k. -/
theorem idx_sum_row (b : Fin 2) (h : Fin 8) (i k : Fin 2048) :
    idx_main_v33 (ix3 b h i) k = ix4 b h i k :=
  funext fun a => Fin.ext (by match a with | ⟨0, _⟩ => rfl | ⟨1, _⟩ => rfl | ⟨2, _⟩ => rfl | ⟨3, _⟩ => rfl)

/-! ## The tail over an opaque row -/

section Tail

variable (x0 : (⟨S2x2048x512, .f32⟩ : BufTy).Contents (Elt Ideal)) (x1 x2 : (⟨S2048x64, .f32⟩ : BufTy).Contents (Elt Ideal))
  (x3 : (⟨S1024x512, .f32⟩ : BufTy).Contents (Elt Ideal)) (b : Fin 2) (h : Fin 8) (i : Fin 2048)
  (a : Fin 2048 → EReal) (M : EReal)

/-- The maximum the reference subtracts: the larger of -∞ and the fold's value. -/
theorem max_at (hmax : val_main_v26 (F := Ideal) x0 x1 x2 x3 (ix3 b h i) = M) :
    val_main_v28 (F := Ideal) x0 x1 x2 x3 (ix3 b h i) = max (⊥ : EReal) M := by
  rw [val_main_v28_apply, val_main_v27_apply, val_main_cst_2_apply, hmax]
  simp only [Ideal.maximumf_def, Ideal.ofBits_def, negInf_word]

/-- The exponential at key token k: of the logit less that maximum. -/
theorem exp_at (hlog : ∀ j' : Fin 2048, val_main_v25 (F := Ideal) x0 x1 x2 x3 (ix4 b h i j') = a j')
    (hmax : val_main_v26 (F := Ideal) x0 x1 x2 x3 (ix3 b h i) = M) (k : Fin 2048) :
    val_main_v32 (F := Ideal) x0 x1 x2 x3 (ix4 b h i k) = Ideal.exp (a k - max (⊥ : EReal) M) := by
  rw [val_main_v32_apply, val_main_v31_apply, val_main_v30_apply, val_main_v29_apply, idx_max_back,
    max_at x0 x1 x2 x3 b h i M hmax, hlog k]
  simp only [Ideal.hostUnary_exp_def, Ideal.subf_def]

/-- The reference's result at (b, h, i, j) from the row's logits `a` and the fold's value `M`. -/
theorem tail_of (hlog : ∀ j' : Fin 2048, val_main_v25 (F := Ideal) x0 x1 x2 x3 (ix4 b h i j') = a j')
    (hmax : val_main_v26 (F := Ideal) x0 x1 x2 x3 (ix3 b h i) = M) (j : Fin 2048) :
    val_main_v36 (F := Ideal) x0 x1 x2 x3 (ix4 b h i j)
      = Ideal.div (Ideal.exp (a j - max (⊥ : EReal) M)) (0 + ∑ j' : Fin 2048, Ideal.exp (a j' - max (⊥ : EReal) M)) := by
  have hsum : (∑ k : Fin 2048, val_main_v32 (F := Ideal) x0 x1 x2 x3 (idx_main_v33 (ix3 b h i) k))
      = ∑ k : Fin 2048, Ideal.exp (a k - max (⊥ : EReal) M) :=
    Finset.sum_congr rfl fun k _ => by rw [idx_sum_row]; exact exp_at x0 x1 x2 x3 b h i a M hlog hmax k
  rw [val_main_v36_apply, val_main_v35_apply, val_main_v34_apply, idx_sum_back, val_main_v33_apply, val_main_cst_3_apply,
    hsum, exp_at x0 x1 x2 x3 b h i a M hlog hmax j]
  simp only [Ideal.hostDivf_def, Ideal.ofBits_def, Ideal.ofBits_zero_f32]

end Tail

/-! ## At the specification's logits -/

theorem ref_tail (x0 : (⟨S2x2048x512, .f32⟩ : BufTy).Contents (Elt Ideal)) (x1 x2 : (⟨S2048x64, .f32⟩ : BufTy).Contents (Elt Ideal))
    (x3 : (⟨S1024x512, .f32⟩ : BufTy).Contents (Elt Ideal)) (b : Fin 2) (h : Fin 8) (i j : Fin 2048)
    (hlog : ∀ j' : Fin 2048, val_main_v25 (F := Ideal) x0 x1 x2 x3 (ix4 b h i j') = refLogit x0 x1 x2 x3 b h i j')
    (hmax : val_main_v26 (F := Ideal) x0 x1 x2 x3 (ix3 b h i)
        = (Finset.univ : Finset (Fin 2048)).fold max (⊥ : EReal) (fun j' => refLogit x0 x1 x2 x3 b h i j')) :
    val_main_v36 (F := Ideal) x0 x1 x2 x3 (ix4 b h i j) = refOut x0 x1 x2 x3 b h i j := by
  unfold refOut refExp refMax
  exact tail_of x0 x1 x2 x3 b h i (fun j' => refLogit x0 x1 x2 x3 b h i j') _ hlog hmax j

end Cert.ReferenceIdeal.RefTail

end
-- ==== Proof.Algebra.lean ====
/-
  The algebra that joins the two spellings of the attention row.

  Over inputs whose entries are all real numbers every intermediate of both spellings is a real number:
  a projection is a finite sum of products of reals; the rotary embedding adds two such products; the sum of
  squares of a real vector is a real that is not negative, so its square root is a real that is not negative, and
  the larger of it and the positive literal is a positive real, division by which is multiplication by its
  reciprocal. With unit vectors `q`, `k j` and the scale `c` real, write `a j = (Σ_d q_d · k_j,d) · c`.
  The scale moves through the sum, `Σ_d (q_d · c) · k_j,d = a j`; the row maximum `m` (a fold of `max` from -∞ over a
  row that is not empty) is a real; and since `exp (a j - m) = exp (a j) / exp m`,
  `exp (a j - m) / Σ_j' exp (a j' - m) = exp (a j) · (1 / Σ_j' exp (a j'))`: the factor `exp m` cancels, whatever real `m` is.
-/
import proofs.«424914_j88493506166997_3_alg».proof.Proof.Spec
import Mathlib.Data.Finset.Fold
import Mathlib.Tactic.FieldSimp
import Mathlib.Tactic.Ring
import Mathlib.Tactic.Positivity

namespace Cert.RotaryAttn

open Idealize.ShloMosaic Idealize.ShloMosaic.ValueIdx

/-! ## Coercions -/

/-- A finite sum of coerced reals is the coerced sum. -/
theorem coe_finsum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two coerced reals is the coerced larger one. -/
theorem coe_max (a b : ℝ) : max (a : EReal) (b : EReal) = ((max a b : ℝ) : EReal) :=
  (EReal.coe_strictMono.monotone.map_max).symm

/-- A fold of `max` from -∞ over a finite set that is not empty, of coerced reals, is a coerced real: it lies
    strictly above -∞ (some entry does) and strictly below +∞ (every entry does). -/
theorem fold_max_real {ι : Type*} (s : Finset ι) (hs : s.Nonempty) (f : ι → ℝ) :
    ∃ m : ℝ, s.fold max (⊥ : EReal) (fun i => ((f i : ℝ) : EReal)) = (m : EReal) := by
  obtain ⟨i₀, hi₀⟩ := hs
  have hbot : (⊥ : EReal) < s.fold max (⊥ : EReal) (fun i => ((f i : ℝ) : EReal)) :=
    (Finset.lt_fold_max _).2 (Or.inr ⟨i₀, hi₀, EReal.bot_lt_coe _⟩)
  have htop : s.fold max (⊥ : EReal) (fun i => ((f i : ℝ) : EReal)) < ⊤ :=
    (Finset.fold_max_lt _).2 ⟨bot_lt_top, fun i _ => EReal.coe_lt_top _⟩
  exact ⟨_, (EReal.coe_toReal htop.ne hbot.ne').symm⟩

/-! ## The three literals -/

/-- The word `0x3F800000` is the real one. -/
theorem one_eq : one = ((1 : ℝ) : EReal) := by
  simp [Ideal.ofBits, Ideal.ieee, -EReal.coe_mul]; norm_num

/-- The word `0x3C800000` is the real 2⁻⁶, one sixty-fourth. -/
theorem c64_eq : c64 = (((1 : ℝ) / 64 : ℝ) : EReal) := by
  simp [Ideal.ofBits, Ideal.ieee, -EReal.coe_mul]; norm_num

theorem c64_real : ∃ c : ℝ, c64 = (c : EReal) := ⟨_, c64_eq⟩

/-- The word `0x2B8CBCCC`: sign 0, exponent field 87, fraction field 834764, so (2²³ + 834764) · 2^(87 - 127 - 23)
    = 9223372 / 2⁶³. -/
theorem eps_eq : eps = (((9223372 : ℝ) / 2 ^ 63 : ℝ) : EReal) := by
  simp [Ideal.ofBits, Ideal.ieee, -EReal.coe_mul]; norm_num

/-- That literal is a positive real. -/
theorem eps_pos : ∃ e : ℝ, 0 < e ∧ eps = (e : EReal) :=
  ⟨_, by positivity, eps_eq⟩

/-! ## Every intermediate is real -/

/-- A projection of real inputs is real. -/
theorem proj_real (x : SX.Idx → EReal) (w : SW.Idx → EReal) (hx : AllReal x) (hw : AllReal w)
    (b : Fin 2) (n : Fin 2048) (e : Fin 1024) : ∃ r : ℝ, proj x w b n e = (r : EReal) := by
  choose fx hfx using hx
  choose fw hfw using hw
  refine ⟨∑ c : Fin 512, fx (ix3 b n c) * fw (ix2 e c), ?_⟩
  unfold proj
  simp only [hfx, hfw, ← EReal.coe_mul]
  exact coe_finsum _ _

/-- The rotary embedding of real vectors is real. -/
theorem ropedOf_real (p c s : Fin 64 → EReal) (hp : ∀ d, ∃ r : ℝ, p d = (r : EReal))
    (hc : ∀ d, ∃ r : ℝ, c d = (r : EReal)) (hs : ∀ d, ∃ r : ℝ, s d = (r : EReal)) (d : Fin 64) :
    ∃ r : ℝ, ropedOf p c s d = (r : EReal) := by
  choose fp hfp using hp
  choose fc hfc using hc
  choose fs hfs using hs
  unfold ropedOf
  by_cases hd : d.val < 32
  · refine ⟨fp d * fc d + (- fp (partner d)) * fs d, ?_⟩
    rw [if_pos hd, hfp, hfp, hfc, hfs, EReal.coe_add, EReal.coe_mul, EReal.coe_mul, EReal.coe_neg]
  · refine ⟨fp d * fc d + fp (partner d) * fs d, ?_⟩
    rw [if_neg hd, hfp, hfp, hfc, hfs, EReal.coe_add, EReal.coe_mul, EReal.coe_mul]

/-- A real vector divided by the larger of its Euclidean norm and the positive literal is real. -/
theorem unitOf_real (r : Fin 64 → EReal) (hr : ∀ d, ∃ ρ : ℝ, r d = (ρ : EReal)) (d : Fin 64) :
    ∃ u : ℝ, unitOf r d = (u : EReal) := by
  choose ρ hρ using hr
  obtain ⟨e, he, heq⟩ := eps_pos
  have hS : (0 : ℝ) ≤ ∑ d' : Fin 64, ρ d' * ρ d' := Finset.sum_nonneg fun d' _ => mul_self_nonneg _
  have hsum : (∑ d' : Fin 64, r d' * r d') = ((∑ d' : Fin 64, ρ d' * ρ d' : ℝ) : EReal) := by
    simp only [hρ, ← EReal.coe_mul]
    exact coe_finsum _ _
  have hpos : (0 : ℝ) < max (Real.sqrt (∑ d' : Fin 64, ρ d' * ρ d')) e := lt_max_of_lt_right he
  refine ⟨ρ d * (1 / max (Real.sqrt (∑ d' : Fin 64, ρ d' * ρ d')) e), ?_⟩
  unfold unitOf
  rw [hsum, Ideal.sqrt_coe, if_neg (not_lt.2 hS), heq, coe_max, Ideal.div_coe hpos.ne', hρ, ← EReal.coe_mul]

variable (x : SX.Idx → EReal) (cs sn : ST.Idx → EReal) (w : SW.Idx → EReal)

/-- The unit vectors of real inputs are real. -/
theorem unitv_real (hx : AllReal x) (hc : AllReal cs) (hs : AllReal sn) (hw : AllReal w)
    (b : Fin 2) (n : Fin 2048) (two : Fin 2) (h : Fin 8) (d : Fin 64) :
    ∃ u : ℝ, unitv x cs sn w b n two h d = (u : EReal) := by
  unfold unitv
  refine unitOf_real _ (fun d' => ?_) d
  unfold roped
  exact ropedOf_real _ _ _ (fun d'' => proj_real x w hx hw b n _) (fun d'' => hc _) (fun d'' => hs _) d'

/-! ## The row law over the reals -/

/-- In ℝ: subtracting any `m` inside every exponential of a softmax row changes nothing, and the division is the
    product with the reciprocal. -/
theorem softmax_shift {ι : Type*} [Fintype ι] [Nonempty ι] (a : ι → ℝ) (m : ℝ) (j : ι) :
    Real.exp (a j - m) * (1 / ∑ j' : ι, Real.exp (a j' - m)) =
      Real.exp (a j) * (1 * (1 / ∑ j' : ι, Real.exp (a j'))) := by
  have hpos : (0 : ℝ) < ∑ j' : ι, Real.exp (a j') :=
    Finset.sum_pos (fun j' _ => Real.exp_pos _) Finset.univ_nonempty
  have hm : (0 : ℝ) < Real.exp m := Real.exp_pos m
  have hsum : (∑ j' : ι, Real.exp (a j' - m)) = (∑ j' : ι, Real.exp (a j')) / Real.exp m := by
    rw [Finset.sum_div]; exact Finset.sum_congr rfl fun j' _ => Real.exp_sub _ _
  rw [hsum, Real.exp_sub]
  field_simp

/-- The reference's spelling of a row over real vectors `q`, `k j` and a real scale `c` is the kernel's spelling over
    the scaled query. -/
theorem row_eq (Q : Fin 64 → EReal) (K : Fin 2048 → Fin 64 → EReal) (C : EReal)
    (hQ : ∀ d, ∃ r : ℝ, Q d = (r : EReal)) (hK : ∀ j d, ∃ r : ℝ, K j d = (r : EReal))
    (hC : ∃ r : ℝ, C = (r : EReal)) (j : Fin 2048) :
    Ideal.div
        (Ideal.exp ((∑ d : Fin 64, Q d * K j d) * C -
          max (⊥ : EReal) ((Finset.univ : Finset (Fin 2048)).fold max (⊥ : EReal)
            (fun j' => (∑ d : Fin 64, Q d * K j' d) * C))))
        (0 + ∑ j'' : Fin 2048, Ideal.exp ((∑ d : Fin 64, Q d * K j'' d) * C -
          max (⊥ : EReal) ((Finset.univ : Finset (Fin 2048)).fold max (⊥ : EReal)
            (fun j' => (∑ d : Fin 64, Q d * K j' d) * C)))) =
      kerRow (fun d => Q d * C) K j := by
  choose q hq using hQ
  choose k hk using hK
  obtain ⟨c, rfl⟩ := hC
  obtain rfl : Q = fun d => ((q d : ℝ) : EReal) := funext hq
  obtain rfl : K = fun j d => ((k j d : ℝ) : EReal) := funext fun j => funext (hk j)
  -- the reference's logits, as reals
  have hlog : ∀ j' : Fin 2048, (∑ d : Fin 64, ((q d : ℝ) : EReal) * ((k j' d : ℝ) : EReal)) * (c : EReal) =
      (((∑ d : Fin 64, q d * k j' d) * c : ℝ) : EReal) := fun j' => by
    simp only [← EReal.coe_mul]; rw [coe_finsum, ← EReal.coe_mul]
  -- the kernel's logits, as the same reals
  have hlog' : ∀ j' : Fin 2048, (∑ d : Fin 64, (((q d : ℝ) : EReal) * (c : EReal)) * ((k j' d : ℝ) : EReal)) =
      (((∑ d : Fin 64, q d * k j' d) * c : ℝ) : EReal) := fun j' => by
    simp only [← EReal.coe_mul]; rw [coe_finsum, Finset.sum_mul]
    exact congrArg _ (Finset.sum_congr rfl fun d _ => by ring)
  simp only [hlog]
  obtain ⟨m, hm⟩ := fold_max_real (Finset.univ : Finset (Fin 2048)) Finset.univ_nonempty
    (fun j' => (∑ d : Fin 64, q d * k j' d) * c)
  have hpos : (0 : ℝ) < ∑ j' : Fin 2048, Real.exp ((∑ d : Fin 64, q d * k j' d) * c - m) :=
    Finset.sum_pos (fun j' _ => Real.exp_pos _) Finset.univ_nonempty
  have hpos' : (0 : ℝ) < ∑ j' : Fin 2048, Real.exp ((∑ d : Fin 64, q d * k j' d) * c) :=
    Finset.sum_pos (fun j' _ => Real.exp_pos _) Finset.univ_nonempty
  rw [hm, max_eq_right bot_le]
  simp only [← EReal.coe_sub, Ideal.exp_coe]
  rw [coe_finsum, zero_add, Ideal.div_coe hpos.ne', ← EReal.coe_mul]
  unfold kerRow
  simp only [hlog', Ideal.exp_coe]
  rw [coe_finsum, one_eq, Ideal.div_coe hpos'.ne', ← EReal.coe_mul, ← EReal.coe_mul]
  exact congrArg _ (softmax_shift (fun j' => (∑ d : Fin 64, q d * k j' d) * c) m j)

/-! ## The two spellings agree -/

theorem refOut_eq_kerOut (hx : AllReal x) (hc : AllReal cs) (hs : AllReal sn) (hw : AllReal w)
    (b : Fin 2) (h : Fin 8) (i j : Fin 2048) :
    refOut x cs sn w b h i j = kerOut x cs sn w b h i j := by
  unfold refOut refExp refMax refLogit kerOut
  exact row_eq (fun d => unitv x cs sn w b i 0 h d) (fun j' d => unitv x cs sn w b j' 1 h d) c64
    (fun d => unitv_real x cs sn w hx hc hs hw b i 0 h d)
    (fun j' d => unitv_real x cs sn w hx hc hs hw b j' 1 h d) c64_real j

end Cert.RotaryAttn
-- ==== Proof.Finite.lean ====
/-
  From the precondition to real inputs.

  The precondition is the conjunction, over the four argument arrays, of "every entry has absolute value below +∞",
  each conjunct an all-axes fold of `and` over the elementwise comparison `max x (-x) < +∞`, the whole a single
  `i1` word stated to be 1. A fold of `and` that is 1 met only 1s, so every entry passes its comparison; on the
  extended reals `max x (-x) < ⊤` fails at both infinities (`max ⊥ ⊤ = ⊤`, `max ⊤ ⊥ = ⊤`), so every entry is a real.
-/
import proofs.«424914_j88493506166997_3_alg».proof.Defs
import proofs.«424914_j88493506166997_3_alg».proof.Proof.Gen.Pre_finite_inputs
import proofs.«424914_j88493506166997_3_alg».proof.Proof.Spec
import Idealize.ShloMosaic.Lib.ReduceAll

namespace Cert.Proof.Finite

open Idealize.ShloMosaic Cert.RotaryAttn

/-- An extended real whose absolute value `max x (-x)` is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The ordered "less than" of two extended reals, read back from its `i1` word. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- The word `0x7F800000` is `+∞`. -/
theorem inf_word : Ideal.ofBits .f32 0x7F800000#32 = (⊤ : EReal) := by
  simp [Ideal.ofBits, Ideal.ieee]

/-- The elementwise `and` of two `i1` arrays, at an index. -/
theorem andi_at {s : Shape} {w : Nat} (x y : IVec s w) (i : s.Idx) : andi x y i = IntOp.andi (x i) (y i) := rfl

/-- The result shape of an all-axes fold has exactly one index. -/
instance : Subsingleton Cert.Pre_finite_inputs.S_.Idx := ⟨fun _ _ => funext fun d => d.elim0⟩

/-- One conjunct: if the all-axes `and`-fold of `|a| < bound` is 1 and `bound` is `+∞` everywhere,
    every entry of `a` is a real number. -/
theorem allReal_of_all {s t u : Shape} {axes : List (Fin s.rank)} [Subsingleton t.Idx]
    (a bound : FVec Ideal s .f32) (hb : ∀ i, bound i = Ideal.ofBits .f32 0x7F800000#32)
    (init : IVec u 1) (hr : s.ReducesTo axes t) (hu : 0 < u.numel) (j : t.Idx)
    (e : Host.reduce IntOp.andi (cmpf .olt (Host.absf a) bound) init hr hu j = 1#1) :
    AllReal a := by
  intro i
  have h1 : Ideal.cmp .olt (max (a i) (-(a i))) (bound i) = 1#1 :=
    Host.reduce_andi_all _ init hr hu j e i
  rw [hb i, inf_word] at h1
  exact real_of_abs_lt_top (a i) (lt_of_cmp_olt _ _ h1)

/-- Under the precondition every entry of each of the four argument arrays is a real number. -/
theorem allReal_of_pre [hP : Cert.Pre_finite_inputs.Facts]
    (a0 : FVec Ideal Cert.Pre_finite_inputs.S2x2048x512 .f32)
    (a1 a2 : FVec Ideal Cert.Pre_finite_inputs.S2048x64 .f32)
    (a3 : FVec Ideal Cert.Pre_finite_inputs.S1024x512 .f32)
    (h : Cert.Pre_finite_inputs.fn (F := Ideal) a0 a1 a2 a3 = (fun _ => 1#1)) :
    AllReal (s := SX) a0 ∧ AllReal (s := ST) a1 ∧ AllReal (s := ST) a2 ∧ AllReal (s := SW) a3 := by
  have h0 := congrFun h ValueIdx.ix0
  dsimp only [Cert.Pre_finite_inputs.fn, Cert.Pre_finite_inputs.fn_part1] at h0
  rw [andi_at, andi_at, andi_at] at h0
  obtain ⟨h012, e3⟩ := IntOp.andi_eq_one.1 h0
  obtain ⟨h01, e2⟩ := IntOp.andi_eq_one.1 h012
  obtain ⟨e0, e1⟩ := IntOp.andi_eq_one.1 h01
  exact ⟨allReal_of_all a0 _ (fun _ => rfl) _ _ _ _ e0, allReal_of_all a1 _ (fun _ => rfl) _ _ _ _ e1,
    allReal_of_all a2 _ (fun _ => rfl) _ _ _ _ e2, allReal_of_all a3 _ (fun _ => rfl) _ _ _ _ e3⟩

end Cert.Proof.Finite
-- ==== Proof.lean ====
/-
  The certificate: a rotary-embedding attention-probability kernel against its plain reference.

  Both programs take tokens x [2, 2048, 512], rotary cosine and sine tables [2048, 64] and a weight matrix
  [1024, 512] (rows 0–511 the queries' eight heads of 64 features, rows 512–1023 the keys'), and return, for each
  batch, head and query token, the softmax over key tokens of the inner product of the unit-normalised rotary query
  and key vectors, scaled by 1/64 — an array [2, 8, 2048, 2048].

  The kernel runs a grid of 2 × 4 × 8 points (batch, tile of 512 query tokens, head; the head fastest). At the eight
  points of a batch's first query tile it computes the head's 2048 unit keys and keeps them in a scratch slab; at
  every point it reads that slab and stores one [512, 2048] tile: exp of the logits times the reciprocal of their row
  sum, the 1/64 having been multiplied into the query vector. The reference multiplies the inner product by 1/64,
  subtracts the row maximum before the exponential and divides by the row sum.

  At the ideal instance (floats are extended reals, operations exact, changes of format the identity) the two agree
  on finite inputs: every intermediate is then a real number — the norm is floored by a positive literal, so the
  division is by a positive real; the exponentials are positive, so the row sums are —, the scale commutes with the
  finite sum, and the softmax does not change when a real constant is subtracted from every logit of a row.

  The frames: each program runs to the end without a fault and leaves its arguments unchanged. For the kernel this
  is proved point by point with an invariant on the scratch — before point n the slabs of the heads h < n mod 32
  hold the keys of the current batch — for the word-level and the idealized program alike: the argument does not
  depend on the float family. The kernel hands one array to two input windows three times over; each such pair holds the two
  halves of the array's share. No operation of the kernel is rewritten by the idealization, so that claim is trivial.
-/
import proofs.«424914_j88493506166997_3_alg».proof.Defs
import proofs.«424914_j88493506166997_3_alg».proof.Proof.Gen.Kernel
import proofs.«424914_j88493506166997_3_alg».proof.Proof.Gen.KernelIdeal
import proofs.«424914_j88493506166997_3_alg».proof.Proof.Gen.ReferenceIdeal
import proofs.«424914_j88493506166997_3_alg».proof.Proof.Gen.Pre_finite_inputs
import proofs.«424914_j88493506166997_3_alg».proof.Proof.Gen.ReferenceIdeal.Run
import proofs.«424914_j88493506166997_3_alg».proof.Proof.Gen.ReferenceIdeal.Read
import proofs.«424914_j88493506166997_3_alg».proof.Proof.FrameRun
import proofs.«424914_j88493506166997_3_alg».proof.Proof.KFrameRun
import proofs.«424914_j88493506166997_3_alg».proof.Proof.TileValue
import proofs.«424914_j88493506166997_3_alg».proof.Proof.RefRead
import proofs.«424914_j88493506166997_3_alg».proof.Proof.RefSoft
import proofs.«424914_j88493506166997_3_alg».proof.Proof.Algebra
import proofs.«424914_j88493506166997_3_alg».proof.Proof.Finite
import Idealize.ShloMosaic.Adequacy
import Idealize.ShloMosaic.Init

noncomputable section

namespace Cert.Proof

open Idealize.ShloMosaic Idealize.SL.Sem Idealize.ShloMosaic.ValueIdx Cert.RotaryAttn

/-- The word-level kernel runs and leaves its arguments unchanged. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs both programs end with the array `G` of the arguments: the kernel because each tile it writes
    back is that block of `G` and the tiles cover the array; the reference because its last stage, read at an index,
    is the max-subtracted softmax of the same logits, which over real numbers is the kernel's spelling. -/
theorem algebraic : Cert.algebraic_KernelIdeal_ReferenceIdeal := by
  intro m ρ m' ρ' hpre hagree
  refine ⟨fun c => (G (Cert.KernelIdeal.Hand.Xc m c) (Cert.KernelIdeal.Hand.Cc m c) (Cert.KernelIdeal.Hand.Sc m c) (Cert.KernelIdeal.Hand.Wc m c)), ?_, ?_⟩
  · exact (θ_run Cert.KernelIdeal.defs _ _).mono
      (fun _ h c => ⟨(h c).1.trans (Cert.KernelIdeal.Hand.final_of_tile m (Cert.KernelIdeal.Hand.tile_apply m) c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2.1, (hagree c).2.2.1, (hagree c).2.2.2]
    obtain ⟨h0, h1, h2, h3⟩ := Cert.Proof.Finite.allReal_of_pre _ _ _ _ (hpre c)
    funext o
    rw [eq_ix4 o]
    exact (Cert.ReferenceIdeal.RefTail.ref_tail _ _ _ _ _ _ _ _
        (fun j' => Cert.ReferenceIdeal.RefValue.refLogit_eq _ _ _ _ _ _ _ j')
        (Cert.ReferenceIdeal.RefValue.rowFold_eq _ _ _ _ _ _ _)).trans (refOut_eq_kerOut _ _ _ _ h0 h1 h2 h3 _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
